-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x128 : Shape := ⟨2, ![60000, 128]⟩
abbrev S40000x128 : Shape := ⟨2, ![40000, 128]⟩
abbrev S1600000 : Shape := ⟨1, ![1600000]⟩
abbrev S_ : Shape := ⟨0, ![]⟩

class Facts : Prop where
  bcast_S_S60000x128 : S_.BroadcastsInDim S60000x128 (![] : Fin 0 → Fin S60000x128.rank)
  reducesTo_S60000x128_S_d0_1 : S60000x128.ReducesTo [0, 1] S_
  h_S_ : 0 < S_.numel
  bcast_S_S40000x128 : S_.BroadcastsInDim S40000x128 (![] : Fin 0 → Fin S40000x128.rank)
  reducesTo_S40000x128_S_d0_1 : S40000x128.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S60000x128 .f32) (main_arg1 : FVec F S40000x128 .f32) (main_arg2 : IVec S1600000 32) (main_arg3 : IVec S1600000 32) : IVec S_ 1 :=
  let main_v0 : FVec F S60000x128 .f32 := Host.absf main_arg0
  let main_cst : FVec F S_ .f32 := constant S_ .f32 0x7F800000#32
  let main_v1 : FVec F S60000x128 .f32 := broadcastInDim S60000x128 ![] bcast_S_S60000x128 main_cst
  let main_v2 : IVec S60000x128 1 := cmpf .olt main_v0 main_v1
  let main_c : IVec S_ 1 := constantI S_ 1 1#1
  let main_v3 : IVec S_ 1 := (fun x v => Host.reduce IntOp.andi x v reducesTo_S60000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_c_2 : IVec S_ 32 := constantI S_ 32 0#32
  let main_v9 : IVec S1600000 32 := broadcastInDim S1600000 ![] bcast_S_S1600000 main_c_2
  let main_v10 : IVec S1600000 1 := cmpi .sge main_arg2 main_v9
  let main_c_3 : IVec S_ 32 := constantI S_ 32 100000#32
  let main_v11 : IVec S1600000 32 := broadcastInDim S1600000 ![] bcast_S_S1600000 main_c_3
  let main_v12 : IVec S1600000 1 := cmpi .slt main_arg2 main_v11
  let main_v13 : IVec S1600000 1 := andi main_v10 main_v12
  let main_c_4 : IVec S_ 1 := constantI S_ 1 1#1
  let main_v14 : IVec S_ 1 := (fun x v => Host.reduce IntOp.andi x v reducesTo_S1600000_S_d0 h_S_) main_v13 main_c_4
  let main_v15 : IVec S_ 1 := andi main_v8 main_v14
  main_v15
-- ==== Kernel.lean ====
abbrev S60000x128 : Shape := ⟨2, ![60000, 128]⟩
abbrev S40000x128 : Shape := ⟨2, ![40000, 128]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S352x128 : Shape := ⟨2, ![352, 128]⟩
abbrev S100352x128 : Shape := ⟨2, ![100352, 128]⟩
abbrev S1600000x128 : Shape := ⟨2, ![1600000, 128]⟩
abbrev S3200x1 : Shape := ⟨2, ![3200, 1]⟩
abbrev S2048x128 : Shape := ⟨2, ![2048, 128]⟩
abbrev S3200x128 : Shape := ⟨2, ![3200, 128]⟩
abbrev S1x2048 : Shape := ⟨2, ![1, 2048]⟩
abbrev S3200x2048 : Shape := ⟨2, ![3200, 2048]⟩
abbrev S1x1600000 : Shape := ⟨2, ![1, 1600000]⟩
abbrev S1x3200 : Shape := ⟨2, ![1, 3200]⟩
abbrev S2048x1 : Shape := ⟨2, ![2048, 1]⟩
abbrev S2048x3200 : Shape := ⟨2, ![2048, 3200]⟩

abbrev nBuf : Space → Nat
  | .hbm => 38
  | .vmem => 14
  | .smem => 0
  | _ => 0

abbrev bufTy : (tb : Table) → Fin (tcTables nBuf tb) → BufTy
  | .hbm, ⟨0, _⟩ => ⟨S60000x128, .f32⟩
  | .hbm, ⟨1, _⟩ => ⟨S40000x128, .f32⟩
  | .hbm, ⟨2, _⟩ => ⟨S1600000, .i32⟩
  | .hbm, ⟨3, _⟩ => ⟨S1600000, .i32⟩
  | .hbm, ⟨4, _⟩ => ⟨S100000x128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S100000x128, .f32⟩
  | .hbm, ⟨17, _⟩ => ⟨S100000x128, .f32⟩
  | .hbm, ⟨18, _⟩ => ⟨S100000x128, .bf16⟩
  | .hbm, ⟨19, _⟩ => ⟨S_, .bf16⟩
  | .hbm, ⟨20, _⟩ => ⟨S352x128, .bf16⟩
  | .hbm, ⟨21, _⟩ => ⟨S100352x128, .bf16⟩
  | .hbm, ⟨22, _⟩ => ⟨S1600000x1, .i32⟩
  | .hbm, ⟨23, _⟩ => ⟨S1600000x128, .bf16⟩
  | .hbm, ⟨24, _⟩ => ⟨S1x1600000, .i32⟩
  | .hbm, ⟨25, _⟩ => ⟨S100352x128, .f32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .local _ .vmem, ⟨0, _⟩ => ⟨S3200x1, .i32⟩
  | .local _ .vmem, ⟨1, _⟩ => ⟨S3200x1, .i32⟩
  | .local _ .vmem, ⟨2, _⟩ => ⟨S2048x128, .bf16⟩
  | .local _ .vmem, ⟨3, _⟩ => ⟨S2048x128, .bf16⟩
  | .local _ .vmem, ⟨4, _⟩ => ⟨S3200x128, .bf16⟩
  | .local _ .vmem, ⟨5, _⟩ => ⟨S3200x128, .bf16⟩
  | .local _ .vmem, ⟨6, _⟩ => ⟨S3200x128, .f32⟩
  | .local _ .vmem, ⟨7, _⟩ => ⟨S1x3200, .i32⟩
  | .local _ .vmem, ⟨8, _⟩ => ⟨S1x3200, .i32⟩
  | .local _ .vmem, ⟨9, _⟩ => ⟨S3200x128, .bf16⟩
  | .local _ .vmem, ⟨10, _⟩ => ⟨S3200x128, .bf16⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S60000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![500, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3200x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3200x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 500], ![false, false]⟩

def k1_cond2 (i : grid1.Coords) : BitVec 1 :=
  let arg1 : BitVec 32 := BitVec.ofNat 32 (i 1).val
  let c499_i32 : BitVec 32 := 499#32
  let v23 : BitVec 1 := Scalar.cmpi .eq arg1 c499_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S60000x128_S40000x128_S100000x128_d0 : Shape.Concatenates [S60000x128, S40000x128] S100000x128 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S352x128 : S_.BroadcastsInDim S352x128 (![] : Fin 0 → Fin S352x128.rank)
  concatenates_S100000x128_S352x128_S100352x128_d0 : Shape.Concatenates [S100000x128, S352x128] S100352x128 0
  shapeCasts_S1600000_S1600000x1 : S1600000.ShapeCasts S1600000x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  iota_S1x2048_d1_w32 : S1x2048.Iotas .tc 32 [1]
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  broadcasts_S3200x1_S3200x2048 : S3200x1.Broadcasts S3200x2048
  broadcasts_S1x2048_S3200x2048 : S1x2048.Broadcasts S3200x2048
  natLt_1_32 : 1 < 32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S3200x128_S3200x128_0_0 : (Rect.unit (s := S3200x128) ![0, 0] S3200x128.size inb_S3200x128_S3200x128_0_0).PackedRows (EltTy.packing .bf16)
  shapeCasts_S1600000_S1x1600000 : S1600000.ShapeCasts S1x1600000
  iota_S2048x1_d0_w32 : S2048x1.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S2048x1_S2048x3200 : S2048x1.Broadcasts S2048x3200
  broadcasts_S1x3200_S2048x3200 : S1x3200.Broadcasts S2048x3200
  slices_S100352x128_S100000x128_0_0 : S100352x128.Slices ![0, 0] S100000x128
  scatter_S100000_S1600000x1_S1600000_n_0_0_1_wf : ScatterDims.WF S100000 S1600000x1 S1600000 [] [0] [0] 1
  dot_S3200x2048_S2048x128_S3200x128_1_0_0_1_n_n_wf : DotDims.WF S3200x2048 S2048x128 S3200x128 [1] [0] [0] [1] [] []
  dot_S2048x3200_S3200x128_S2048x128_1_0_0_1_n_n_wf : DotDims.WF S2048x3200 S3200x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x1.size a ≤ S1600000x1.size a
  hwx0_0 : ∀ i : grid0.Coords, EltTy.bits .i32 = 32 ∨ (Rect.block (s := S1600000x1) S3200x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S100352x128.size a
  hwx0_1 : ∀ i : grid0.Coords, EltTy.bits .bf16 = 32 ∨ (Rect.block (s := S100352x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S1600000x128.size a
  hwx0_2 : ∀ i : grid0.Coords, EltTy.bits .bf16 = 32 ∨ (Rect.block (s := S1600000x128) S3200x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x1600000.size a
  hwx1_0 : ∀ i : grid1.Coords, EltTy.bits .i32 = 32 ∨ (Rect.block (s := S1x1600000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S1600000x128.size a
  hwx1_1 : ∀ i : grid1.Coords, EltTy.bits .bf16 = 32 ∨ (Rect.block (s := S1600000x128) S3200x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S100352x128.size a
  hwx1_2 : ∀ i : grid1.Coords, EltTy.bits .f32 = 32 ∨ (Rect.block (s := S100352x128) S2048x128.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S3200x2048_S2048x128_S3200x128_1_0_0_1_n_n : DotDims S3200x2048 S2048x128 S3200x128 where
  lhsContracting := [1]
  rhsContracting := [0]
  lhsNonContracting := [0]
  rhsNonContracting := [1]
  lhsBatch := []
  rhsBatch := []
  wf := dot_S3200x2048_S2048x128_S3200x128_1_0_0_1_n_n_wf
def dot_S2048x3200_S3200x128_S2048x128_1_0_0_1_n_n : DotDims S2048x3200 S3200x128 S2048x128 where
  lhsContracting := [1]
  rhsContracting := [0]
  lhsNonContracting := [0]
  rhsNonContracting := [1]
  lhsBatch := []
  rhsBatch := []
  wf := dot_S2048x3200_S3200x128_S2048x128_1_0_0_1_n_n_wf

abbrev win0_0 : Pipeline.Window sig grid0 :=
  Pipeline.Window.ofSpec (Memref.whole main_v14) S3200x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S3200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v16) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S60000x128 : Shape := ⟨2, ![60000, 128]⟩
abbrev S40000x128 : Shape := ⟨2, ![40000, 128]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 46
  | .vmem => 0
  | .smem => 0
  | _ => 0

abbrev bufTy : (tb : Table) → Fin (tcTables nBuf tb) → BufTy
  | .hbm, ⟨0, _⟩ => ⟨S60000x128, .f32⟩
  | .hbm, ⟨1, _⟩ => ⟨S40000x128, .f32⟩
  | .hbm, ⟨2, _⟩ => ⟨S1600000, .i32⟩
  | .hbm, ⟨3, _⟩ => ⟨S1600000, .i32⟩
  | .hbm, ⟨4, _⟩ => ⟨S100000x128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | _, _ => ⟨S60000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  concatenates_S60000x128_S40000x128_S100000x128_d0 : Shape.Concatenates [S60000x128, S40000x128] S100000x128 0
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KGrid.lean ====
/-
  The schedule of the two grids by arithmetic. A grid of bounds (outer, inner) runs its points row-major, the
  inner axis fastest: point t has coordinates (t / inner, t % inner). An output window whose block index reads
  only the outer coordinate keeps its block from a point to the next unless the point is the last of its run
  (t % inner = inner - 1): nowhere else is the block written back.
-/
import proofs.«420466_j23716809408972_1_alg».proof.Proof.Gen.Kernel.Launch

noncomputable section

namespace Cert.Kernel.Hand

open Cert.Kernel Cert.Kernel.Gen
open Idealize.ShloMosaic Idealize.ShloMosaic.TcCoe Idealize.SL.Sem

/-! ## The gather grid: bounds (500, 49) -/

theorem stride0_0 : grid0.stride 0 = 49 := by decide
theorem stride0_1 : grid0.stride 1 = 1 := by decide

theorem coords0_0 (t : Fin cfg0.N) : (grid0.coords t 0).val = t.val / 49 := by
  have hN : t.val < 24500 := lt_of_lt_of_eq t.isLt N_0
  show t.val / grid0.stride 0 % 500 = t.val / 49
  rw [stride0_0]; omega

theorem coords0_1 (t : Fin cfg0.N) : (grid0.coords t 1).val = t.val % 49 := by
  show t.val / grid0.stride 1 % 49 = t.val % 49
  rw [stride0_1, Nat.div_one]

/-- The output block of the gather region is written back only at the last point of a run of the inner axis. -/
theorem noFlush0_2 (t : Fin cfg0.N) (h : ¬ t.val % 49 = 48) : (cfg0.win 2).flush t = false := by
  have hN : t.val < 24500 := lt_of_lt_of_eq t.isLt N_0
  have hidx : ∀ h1 : t.val + 1 < grid0.N, win0_2.index ⟨t.val + 1, h1⟩ = win0_2.index t := fun h1 => by
    have hco : grid0.coords ⟨t.val + 1, h1⟩ 0 = grid0.coords t 0 := Fin.ext (by
      rw [coords0_0 ⟨t.val + 1, h1⟩, coords0_0 t]
      show (t.val + 1) / 49 = t.val / 49
      omega)
    exact Facts₀.hreads0_2 _ _ fun a ha => by
      match a, ha with
      | ⟨0, _⟩, _ => exact hco
      | ⟨1, _⟩, ha => exact absurd (show (false : Bool) = true from ha) (by decide)
  have h1 : ¬ (t.val + 1 = grid0.N) := by rw [N_0]; omega
  have h2 : ¬ ∃ h1 : t.val + 1 < grid0.N, win0_2.index ⟨t.val + 1, h1⟩ ≠ win0_2.index t :=
    fun ⟨h1, hne⟩ => hne (hidx h1)
  show (win0_2.isOut && (decide (t.val + 1 = grid0.N)
    || decide (∃ h1 : t.val + 1 < grid0.N, win0_2.index ⟨t.val + 1, h1⟩ ≠ win0_2.index t))) = false
  rw [decide_eq_false h1, decide_eq_false h2]; rfl

/-- The first conditional of the gather body (reset the accumulator): the inner coordinate is 0. -/
abbrev cond0_0 (i : grid0.Coords) : Prop :=
  (Scalar.cmpi .ne (Scalar.extui (Scalar.cmpi .eq (BitVec.ofNat 32 (i 1).val) 0#32)) 0#32) = 1#1
/-- The second conditional of the gather body (write the output block): the inner coordinate is the last. -/
abbrev cond0_1 (i : grid0.Coords) : Prop := k0_cond2 i = 1#1

theorem first0_iff : ∀ j : Fin 49,
    ((Scalar.cmpi .ne (Scalar.extui (Scalar.cmpi .eq (BitVec.ofNat 32 j.val) 0#32)) 0#32) = 1#1) ↔ j.val = 0 := by
  decide +kernel
theorem last0_iff : ∀ j : Fin 49,
    ((Scalar.cmpi .ne (Scalar.extui (Scalar.cmpi .eq (BitVec.ofNat 32 j.val) 48#32)) 0#32) = 1#1) ↔ j.val = 48 := by
  decide +kernel

theorem hcond0_0 (t : Fin cfg0.N) : cond0_0 (grid0.coords t) ↔ t.val % 49 = 0 := by
  rw [← coords0_1 t]; exact first0_iff (grid0.coords t 1)
theorem hcond0_1 (t : Fin cfg0.N) : cond0_1 (grid0.coords t) ↔ t.val % 49 = 48 := by
  rw [← coords0_1 t]; exact last0_iff (grid0.coords t 1)

/-! ## The scatter grid: bounds (49, 500) -/

theorem stride1_0 : grid1.stride 0 = 500 := by decide
theorem stride1_1 : grid1.stride 1 = 1 := by decide

theorem coords1_0 (t : Fin cfg1.N) : (grid1.coords t 0).val = t.val / 500 := by
  have hN : t.val < 24500 := lt_of_lt_of_eq t.isLt N_1
  show t.val / grid1.stride 0 % 49 = t.val / 500
  rw [stride1_0]; omega

theorem coords1_1 (t : Fin cfg1.N) : (grid1.coords t 1).val = t.val % 500 := by
  show t.val / grid1.stride 1 % 500 = t.val % 500
  rw [stride1_1, Nat.div_one]

/-- The output block of the scatter region is written back only at the last point of a run of the inner axis. -/
theorem noFlush1_2 (t : Fin cfg1.N) (h : ¬ t.val % 500 = 499) : (cfg1.win 2).flush t = false := by
  have hN : t.val < 24500 := lt_of_lt_of_eq t.isLt N_1
  have hidx : ∀ h1 : t.val + 1 < grid1.N, win1_2.index ⟨t.val + 1, h1⟩ = win1_2.index t := fun h1 => by
    have hco : grid1.coords ⟨t.val + 1, h1⟩ 0 = grid1.coords t 0 := Fin.ext (by
      rw [coords1_0 ⟨t.val + 1, h1⟩, coords1_0 t]
      show (t.val + 1) / 500 = t.val / 500
      omega)
    exact Facts₀.hreads1_2 _ _ fun a ha => by
      match a, ha with
      | ⟨0, _⟩, _ => exact hco
      | ⟨1, _⟩, ha => exact absurd (show (false : Bool) = true from ha) (by decide)
  have h1 : ¬ (t.val + 1 = grid1.N) := by rw [N_1]; omega
  have h2 : ¬ ∃ h1 : t.val + 1 < grid1.N, win1_2.index ⟨t.val + 1, h1⟩ ≠ win1_2.index t :=
    fun ⟨h1, hne⟩ => hne (hidx h1)
  show (win1_2.isOut && (decide (t.val + 1 = grid1.N)
    || decide (∃ h1 : t.val + 1 < grid1.N, win1_2.index ⟨t.val + 1, h1⟩ ≠ win1_2.index t))) = false
  rw [decide_eq_false h1, decide_eq_false h2]; rfl

end Cert.Kernel.Hand

end
-- ==== Proof.KR0Base.lean ====
/- Region 0 (the gather): what its three cases share. The grid is 500 runs of 49 points; along a run the
   accumulator collects, node block by node block, the rows of the node table selected by the run's edge
   block; the run's last point rounds the accumulator into the output window. -/
import proofs.«420466_j23716809408972_1_alg».proof.Proof.KGrid
import proofs.«420466_j23716809408972_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

open Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- what every TensorCore buffer holds when the region is entered
variable (V : (c : Dev nD) → (b : Ref sig .tc) → Buf (Elt F) ((c : Thread nD τ).loc b))

/-! ## The blocks of the three windows -/

/-- The block of window `w` at grid point `t`, cut out of the window's array as the region finds it:
    for window 0 the 3200 source indices of edge block `t / 49`, for window 1 the 2048 rows of node
    block `t % 49` of the padded, scaled node table, for window 2 the rows of edge block `t / 49` of
    the message array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge-index window (0) is moved in only at the first point of a run, and its block index does not
    change along the run: at EVERY point its current staging buffer holds the run's index block, for
    any proof data over `V` whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The node-table window (1) is moved in at every point: its current staging buffer holds node block
    `t % 49`, for any proof data over `V` whose body leaves that block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## Where the windows are idle -/

/-- The two inputs are live everywhere. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- The output window is declared idle exactly where the last-point condition fails. -/
theorem idle0_2_iff (i : grid0.Coords) : cfg0.idle 2 i = true ↔ ¬cond0_1 i := by
  show (!(k0_cond2 i == 1#1)) = true ↔ ¬(k0_cond2 i = 1#1)
  simp only [Bool.not_eq_true', beq_eq_false_iff_ne, ne_eq]

/-- First point of a run that is not also its last: nothing is stored into the output window, -/
theorem idleAt0_2_A : ∀ t : Fin cfg0.N, cond0_0 (grid0.coords t) → ¬cond0_1 (grid0.coords t) → cfg0.idle 2 (grid0.coords t) = true :=
  fun t _ h1 => (idle0_2_iff _).mpr h1
/-- and the window is not written back there (its block index moves only between a run's last point and the
    next run's first). -/
theorem noFlush0_2_A : ∀ t : Fin cfg0.N, cond0_0 (grid0.coords t) → ¬cond0_1 (grid0.coords t) → (cfg0.win 2).flush t = false :=
  fun t _ h1 => noFlush0_2 t (fun h => h1 ((hcond0_1 t).mpr h))
/-- Interior point of a run: the same two facts. -/
theorem idleAt0_2_B : ∀ t : Fin cfg0.N, ¬cond0_0 (grid0.coords t) → ¬cond0_1 (grid0.coords t) → cfg0.idle 2 (grid0.coords t) = true :=
  fun t _ h1 => (idle0_2_iff _).mpr h1
theorem noFlush0_2_B : ∀ t : Fin cfg0.N, ¬cond0_0 (grid0.coords t) → ¬cond0_1 (grid0.coords t) → (cfg0.win 2).flush t = false :=
  fun t _ h1 => noFlush0_2 t (fun h => h1 ((hcond0_1 t).mpr h))
/-- Last point of a run: the output window is live (the body stores the whole window there). -/
theorem liveAt0_2_C : ∀ t : Fin cfg0.N, ¬cond0_0 (grid0.coords t) → cond0_1 (grid0.coords t) → cfg0.idle 2 (grid0.coords t) = false :=
  fun t _ h1 => by
    rw [← Bool.not_eq_true]; intro hi
    exact (idle0_2_iff _).mp hi h1

/-! ## The memrefs the body is called with -/

/-- One staging buffer of the output window, through which its contents are stated. -/
abbrev VO0_2 : View sig .tc .vmem S3200x128 .bf16 := (Memref.whole cc0_stg2_0 : Memref sig .tc .vmem S3200x128 .bf16).view
/-- The current staging memref of each window at point `t`, and its wholeness. -/
abbrev ms0_0 (t : Fin cfg0.N) : Memref sig .tc .vmem S3200x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3200x128 .bf16 := win0_2.stage (cfg0.slots t 2)
abbrev hs0_2 (t : Fin cfg0.N) : (ms0_2 t).IsWhole := hstage0_2 ((cfg0.slots t 2).cast nbuf0_2)
/-- The kernel body as the pipeline calls it at point `t`: on the point's coordinates, the three windows' current
    staging memrefs and the accumulator. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) (Memref.whole cc0_scratch0) (Memref.isWhole_whole _)
/-- The accumulator: a whole scoped buffer of 3200 × 128 single-precision numbers, kept between points. -/
abbrev scM0_0 : Memref sig .tc .vmem S3200x128 .f32 := Memref.whole cc0_scratch0
abbrev VS0_0 : View sig .tc .vmem S3200x128 .f32 := scM0_0.view

/-- The scoped buffers of the core that this region neither stages through nor accumulates in (the other
    region's staging buffers and accumulator), each whole at some contents: carried along untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands the region: the accumulator at some contents, the other scoped buffers at some
    contents, the generator register at some state. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.Kernel.Hand

end
-- ==== Proof.KR0RunA.lean ====
/- Region 0 (the gather), the kernel body run symbolically at one kind of grid point. -/
import proofs.«420466_j23716809408972_1_alg».proof.Proof.KR0Base

set_option maxRecDepth 16384

noncomputable section

open Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST POINT OF A RUN (inner coordinate 0, not 48). The body first overwrites the whole accumulator with
    zeros, then reads the index block `x0`, the zeroed accumulator and the node block `x1`, and stores back
    "accumulator + onehot(x0 against the node ids of this block) · x1". Nothing is stored into the output
    window: whatever it holds (`xi2`) is handed back untouched. The accumulator may hold anything on entry.
    The witness: the (empty) pieces of the output and the two whole-buffer pieces of the accumulator. -/
noncomputable def kernelRun0_A (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) :
    Σ' (L2 : List (View.Piece (Elt F) S3200x128 .bf16)), { LS0 : List (View.Piece (Elt F) S3200x128 .f32) //
      ∀ (xi2 : Vec F S3200x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR0RunB.lean ====
/- Region 0 (the gather), the kernel body run symbolically at one kind of grid point. -/
import proofs.«420466_j23716809408972_1_alg».proof.Proof.KR0RunA

set_option maxRecDepth 16384

noncomputable section

open Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- INTERIOR POINT OF A RUN (inner coordinate neither 0 nor 48). The body reads the index block `x0`, the
    accumulator as the point before left it (`xs0`) and the node block `x1`, and stores back
    "xs0 + onehot(x0 against the node ids of this block) · x1". Nothing is stored into the output window:
    whatever it holds (`xi2`) is handed back untouched.
    The witness: the (empty) pieces of the output and the one whole-buffer piece of the accumulator. -/
noncomputable def kernelRun0_B (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) :
    Σ' (L2 : List (View.Piece (Elt F) S3200x128 .bf16)), { LS0 : List (View.Piece (Elt F) S3200x128 .f32) //
      ∀ (xi2 : Vec F S3200x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR0RunC.lean ====
/- Region 0 (the gather), the kernel body run symbolically at one kind of grid point. -/
import proofs.«420466_j23716809408972_1_alg».proof.Proof.KR0RunB

set_option maxRecDepth 16384

noncomputable section

open Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- LAST POINT OF A RUN (inner coordinate 48, not 0). The body adds this node block's contribution to the
    accumulator `xs0` as at an interior point, then reads the accumulator back and stores it, rounded to
    bf16, over the whole output window (which may hold anything on entry).
    The witness: the one whole-window piece of the output and the one whole-buffer piece of the accumulator. -/
noncomputable def kernelRun0_C (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) :
    Σ' (L2 : List (View.Piece (Elt F) S3200x128 .bf16)), { LS0 : List (View.Piece (Elt F) S3200x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KR0Frame.lean ====
/- Region 0 (the gather): what the output window and the accumulator hold after every grid point, the proof
   data of the pipeline over the region's entry contents, and the body obligation. -/
import proofs.«420466_j23716809408972_1_alg».proof.Proof.KR0RunC

set_option maxRecDepth 16384

noncomputable section

open Cert.Kernel.Gen

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a run's first point nothing is stored into the output window (no pieces): a placeholder
    that nothing reads, the window being neither written back here nor read at the next point. -/
def out0_A_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) : Vec F S3200x128 .bf16 :=
  VO0_2.read (Elt F) (VO0_2.writes (Elt F) VO0_2.junk (kernelRun0_A c i arg2 harg2 arg3 harg3 arg4 harg4 arg5 harg5 hc0 hc1 x0 x1).1)

/-- The accumulator's pieces at such a point (the zero fill and then the first node block's contribution, each a store of the whole buffer) cover it. -/
theorem scover0_A_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) (y : S3200x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S3200x128.size (by sl_kernel_rfl) y

/-- What such a point leaves in the accumulator: the first node block's contribution added to zero. -/
def sout0_A_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) : Vec F S3200x128 .f32 :=
  VS0_0.read (Elt F) (VS0_0.writes (Elt F) VS0_0.junk (kernelRun0_A c i arg2 harg2 arg3 harg3 arg4 harg4 arg5 harg5 hc0 hc1 x0 x1).2.1)

/-- At an interior point of a run nothing is stored into the output window (no pieces): a placeholder
    that nothing reads, the window being neither written back here nor read at the next point. -/
def out0_B_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) : Vec F S3200x128 .bf16 :=
  VO0_2.read (Elt F) (VO0_2.writes (Elt F) VO0_2.junk (kernelRun0_B c i arg2 harg2 arg3 harg3 arg4 harg4 arg5 harg5 hc0 hc1 x0 x1 xs0).1)

/-- The accumulator's pieces at such a point (one store of the whole buffer) cover it. -/
theorem scover0_B_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) (y : S3200x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S3200x128.size (by sl_kernel_rfl) y

/-- What such a point leaves in the accumulator: what the point before left plus this node block's contribution. -/
def sout0_B_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) : Vec F S3200x128 .f32 :=
  VS0_0.read (Elt F) (VS0_0.writes (Elt F) VS0_0.junk (kernelRun0_B c i arg2 harg2 arg3 harg3 arg4 harg4 arg5 harg5 hc0 hc1 x0 x1 xs0).2.1)

/-- At a run's last point the body's one store into the output window covers the whole window. -/
theorem cover0_C_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) (y : S3200x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S3200x128.size (by sl_kernel_rfl) y

/-- What a run's last point leaves in the output window: the accumulator after this point's addition, rounded
    to bf16 (the store's piece read back). -/
def out0_C_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) : Vec F S3200x128 .bf16 :=
  VO0_2.read (Elt F) (VO0_2.writes (Elt F) VO0_2.junk (kernelRun0_C c i arg2 harg2 arg3 harg3 arg4 harg4 arg5 harg5 hc0 hc1 x0 x1 xs0).1)

/-- The accumulator's pieces at such a point (one store of the whole buffer) cover it. -/
theorem scover0_C_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) (y : S3200x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S3200x128.size (by sl_kernel_rfl) y

/-- What such a point leaves in the accumulator: what the point before left plus this node block's contribution. -/
def sout0_C_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) : Vec F S3200x128 .f32 :=
  VS0_0.read (Elt F) (VS0_0.writes (Elt F) VS0_0.junk (kernelRun0_C c i arg2 harg2 arg3 harg3 arg4 harg4 arg5 harg5 hc0 hc1 x0 x1 xs0).2.1)

section Region0

-- what every TensorCore buffer holds when the region is entered
variable (V : (c : Dev nD) → (b : Ref sig .tc) → Buf (Elt F) ((c : Thread nD τ).loc b))

/-! ## Point by point -/

/-- THE ACCUMULATION. After the body at position `n` (run `n / 49`, node block `n % 49`): first component, the
    output window's staging contents; second, the accumulator. At a run's first point the accumulator is
    the first node block's contribution; at every later point it is the previous point's accumulator plus
    this node block's contribution, so that after the run's last point it is the sum over all 49 node blocks,
    which that point also rounds into the output window. (A point cannot be both first and last in its run.) -/
def outsAt0 (c : Dev nD) : (n : ℕ) → n < cfg0.N → Vec F S3200x128 .bf16 × Vec F S3200x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 49 = 0 then
      if h1 : (n + 1) % 49 = 48 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 49 = 48 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a run's first point. -/
theorem outsAt0_A (c : Dev nD) (t : Fin cfg0.N) (h0 : t.val % 49 = 0) (h1 : ¬t.val % 49 = 48) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at an interior point of a run: over what the point before left in the accumulator. -/
theorem outsAt0_B (c : Dev nD) (t : Fin cfg0.N) (h0 : ¬t.val % 49 = 0) (h1 : ¬t.val % 49 = 48) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a run's last point: over what the point before left in the accumulator. -/
theorem outsAt0_C (c : Dev nD) (t : Fin cfg0.N) (h0 : ¬t.val % 49 = 0) (h1 : t.val % 49 = 48) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, what the launch hands over (the
    accumulator at anything); afterwards the accumulator at what point `n - 1` left in it, the other scoped
    buffers at some contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The proof data of the gather's pipeline on core `c`: the three arrays as the region finds them; after the
    body at point `t` the two input windows still at their blocks and the output window at `outsAt0`'s first
    component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The two inputs' buffers hold their blocks; the point's position in its run (first,
    interior, last) selects the case; the invariant hands over the accumulator at what the point before left
    (at anything, at the very first point) and takes it back at this point's contents; the output window is
    handed back untouched except at a run's last point, where it is left at the rounded accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 24500 := lt_of_lt_of_eq t.isLt (show cfg0.N = 24500 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 49 = 0
  · by_cases h1 : t.val % 49 = 48
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 49 = 48
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: what the accumulator holds is
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 24500 := N_0; omega)

end Region0

end Cert.Kernel.Hand

end
-- ==== Proof.KR1Base.lean ====
/- The scatter region (the second kernel call: grid 49 × 500, node block n outer, edge block e inner): what its
   three per-case runs and its frame module share. The kernel keeps, in a scratch accumulator of 2048 × 128 floats,
   the partial sum over the edge blocks seen so far of onehot(node = dst[edge]) · msgs[edge, :]; it clears the
   accumulator at the first edge block of every node block, adds one edge block's product at every point, and copies
   the accumulator to the output window at the last edge block. Here: the windows' blocks read off the entry contents,
   where the output window is idle (from the two conditions' closed forms), the names of the memrefs the body
   is called with, and the region invariant spelt out. Generic in the float type. -/
import proofs.«420466_j23716809408972_1_alg».proof.Proof.Gen.Kernel.Launch
import proofs.«420466_j23716809408972_1_alg».proof.Proof.Gen.Kernel.Skeleton
import proofs.«420466_j23716809408972_1_alg».proof.Proof.KGrid
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the contents of the core's buffers when the scatter region is entered: a parameter
variable (V : (c : Dev nD) → (b : Ref sig .tc) → Buf (Elt F) ((c : Thread nD τ).loc b))

/-! ## The windows' blocks -/

/-- Block of window `w` at grid point `t`, read off the window's array at the entry contents: for window 0 the
    3200 destination indices of edge block `t % 500`, for window 1 the 3200 × 128 messages of that edge block, for
    window 2 the rows of node block `t / 500` of the output array as the region found it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The destination indices' staging buffer holds edge block `t % 500` of the index array at every point, whether the
    pipeline fetched it there or not: the window is an input, never idle, its blocks tile the array, and the body
    leaves it as found. For any proof data whose array 0 is the entry contents and whose body returns the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the messages' staging buffer (window 1): it holds the 3200 × 128 messages of edge block `t % 500`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two conditions of the body -/

/-- "This is the first edge block" (the inner coordinate is 0): the condition under which the accumulator is cleared. -/
abbrev cond1_0 (i : grid1.Coords) : Prop := (Scalar.cmpi .ne (Scalar.extui (Scalar.cmpi .eq (BitVec.ofNat 32 (i 1).val) 0#32)) 0#32) = 1#1
/-- The comparison chain on a 32-bit word below 500 is the comparison of the number with 0 (checked over the 500 values). -/
theorem cond1_0_fin : ∀ j : Fin 500, ((Scalar.cmpi .ne (Scalar.extui (Scalar.cmpi .eq (BitVec.ofNat 32 j.val) 0#32)) 0#32) = 1#1) ↔ j.val = 0 := by
  decide +kernel
/-- The grid's points are run in row-major order, the edge-block axis fastest (the inner coordinate of point `t` is
    `t % 500`): the condition holds exactly at the points divisible by 500. -/
theorem hcond1_0 : ∀ t : Fin cfg1.N, cond1_0 (grid1.coords t) ↔ t.val % 500 = 0 := fun t =>
  (show cond1_0 (grid1.coords t) ↔ ((grid1.coords t) 1).val = 0 from cond1_0_fin ((grid1.coords t) 1)).trans (by rw [coords1_1])

/-- "This is the last edge block" (the inner coordinate is 499): the condition under which the accumulator is copied
    to the output window. -/
abbrev cond1_1 (i : grid1.Coords) : Prop := k1_cond2 i = 1#1
/-- Its comparison chain on a 32-bit word below 500 is the comparison of the number with 499. -/
theorem cond1_1_fin : ∀ j : Fin 500, ((Scalar.cmpi .ne (Scalar.extui (Scalar.cmpi .eq (BitVec.ofNat 32 j.val) 499#32)) 0#32) = 1#1) ↔ j.val = 499 := by
  decide +kernel
/-- So the condition holds exactly at the points congruent to 499 modulo 500. -/
theorem hcond1_1 : ∀ t : Fin cfg1.N, cond1_1 (grid1.coords t) ↔ t.val % 500 = 499 := fun t =>
  (show cond1_1 (grid1.coords t) ↔ ((grid1.coords t) 1).val = 499 from cond1_1_fin ((grid1.coords t) 1)).trans (by rw [coords1_1])

/-! ## Where the windows are idle -/

/-- The two inputs are read at every point. -/
theorem liveAt1_0 : ∀ t : Fin cfg1.N, cfg1.idle 0 (grid1.coords t) = false := fun _ => rfl
theorem liveAt1_1 : ∀ t : Fin cfg1.N, cfg1.idle 1 (grid1.coords t) = false := fun _ => rfl

/-- The output window is idle exactly where the copy-out condition fails (the configuration's table says so). -/
theorem idle1_2_of_not (t : Fin cfg1.N) (h1 : ¬cond1_1 (grid1.coords t)) : cfg1.idle 2 (grid1.coords t) = true := by
  show (!(k1_cond2 (grid1.coords t) == 1#1)) = true
  rw [Bool.not_eq_true', beq_eq_false_iff_ne]; exact h1
/-- and the pipeline writes it back only at the last edge block of a node block. -/
theorem noFlush1_2_of_not (t : Fin cfg1.N) (h1 : ¬cond1_1 (grid1.coords t)) : (cfg1.win 2).flush t = false :=
  noFlush1_2 t (fun h => h1 ((hcond1_1 t).mpr h))

/-- First edge block of a node block (clear, accumulate, no copy-out): the output window is idle -/
theorem idleAt1_2_A : ∀ t : Fin cfg1.N, cond1_0 (grid1.coords t) → ¬cond1_1 (grid1.coords t) → cfg1.idle 2 (grid1.coords t) = true :=
  fun t _ h1 => idle1_2_of_not t h1
/-- and not written back. -/
theorem noFlush1_2_A : ∀ t : Fin cfg1.N, cond1_0 (grid1.coords t) → ¬cond1_1 (grid1.coords t) → (cfg1.win 2).flush t = false :=
  fun t _ h1 => noFlush1_2_of_not t h1
/-- A middle edge block (accumulate only): the output window is idle -/
theorem idleAt1_2_B : ∀ t : Fin cfg1.N, ¬cond1_0 (grid1.coords t) → ¬cond1_1 (grid1.coords t) → cfg1.idle 2 (grid1.coords t) = true :=
  fun t _ h1 => idle1_2_of_not t h1
/-- and not written back. -/
theorem noFlush1_2_B : ∀ t : Fin cfg1.N, ¬cond1_0 (grid1.coords t) → ¬cond1_1 (grid1.coords t) → (cfg1.win 2).flush t = false :=
  fun t _ h1 => noFlush1_2_of_not t h1
/-- The last edge block (accumulate, copy out): the output window is live. -/
theorem liveAt1_2_C : ∀ t : Fin cfg1.N, ¬cond1_0 (grid1.coords t) → cond1_1 (grid1.coords t) → cfg1.idle 2 (grid1.coords t) = false := by
  intro t _ h1
  show (!(k1_cond2 (grid1.coords t) == 1#1)) = false
  rw [show k1_cond2 (grid1.coords t) = 1#1 from h1]; rfl

/-! ## The memrefs the body is called with -/

/-- One staging buffer of the output window, through which its contents are stated (either would do). -/
abbrev VO1_2 : View sig .tc .vmem S2048x128 .f32 := (Memref.whole cc1_stg2_0 : Memref sig .tc .vmem S2048x128 .f32).view
/-- The current staging memref of each window at point `t`, as the pipeline passes it, and that it is a whole buffer. -/
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The kernel body as the pipeline calls it at point `t`: at the point's coordinates, on the windows' current staging
    buffers and on the accumulator. -/
abbrev kbodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)
/-- The accumulator: a whole scoped buffer of the kernel's own, passed beside the windows. -/
abbrev scM1_0 : Memref sig .tc .vmem S2048x128 .f32 := Memref.whole cc1_scratch0
/-- The accumulator as a view: what it holds is stated through it. -/
abbrev VS1_0 : View sig .tc .vmem S2048x128 .f32 := scM1_0.view

/-! ## The region invariant spelt out -/

/-- The region's invariant with the accumulator's part left open: the core's seven other scoped buffers that are no
    staging buffer of this region (the gather region's six staging buffers and its accumulator), each at some contents;
    then `P`, the accumulator's part; then the generator register at some state. -/
def PhiWith1 (c : Dev nD) (P : sProp 𝕄) : sProp 𝕄 :=
  iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ P) ∗ (∃ r, prngReg c r))

/-- What the launch hands the region is that shape with the accumulator owned at some contents. -/
theorem PhiA1_eq (c : Dev nD) :
    (Pipeline.ΦA spec1 c : sProp 𝕄) = PhiWith1 c iprop(∃ d, owns (c : Thread nD τ) scM1_0 fullShare d) := by
  unfold Pipeline.ΦA PhiWith1; rw [scopedRest1_eq]; simp only [scM1_0, owns_whole]; try rfl

/-- The part of that invariant the scatter body never touches: the seven other scoped buffers at some contents and the
    generator register at some state. -/
def Others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ r, prngReg c r))

/-- The accumulator's part comes out of the invariant, leaving the untouched part, -/
theorem PhiWith1_elim (c : Dev nD) (P : sProp 𝕄) : PhiWith1 c P ⊢ iprop(P ∗ Others1 c) := by
  unfold PhiWith1 Others1
  iintro ⟨⟨R1, R2, R3, R4, R5, R6, R7, HP⟩, Hg⟩
  isplitl [HP]; · iexact HP
  isplitl [R1]; · iexact R1
  isplitl [R2]; · iexact R2
  isplitl [R3]; · iexact R3
  isplitl [R4]; · iexact R4
  isplitl [R5]; · iexact R5
  isplitl [R6]; · iexact R6
  isplitl [R7]; · iexact R7
  iexact Hg

/-- and goes back in. -/
theorem PhiWith1_intro (c : Dev nD) (P : sProp 𝕄) : iprop(P ∗ Others1 c) ⊢ PhiWith1 c P := by
  unfold PhiWith1 Others1
  iintro ⟨HP, R1, R2, R3, R4, R5, R6, R7, Hg⟩
  isplitl [R1 R2 R3 R4 R5 R6 R7 HP]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact HP
  iexact Hg

/-- The invariant is monotone in the accumulator's part. -/
theorem PhiWith1_mono (c : Dev nD) {P Q : sProp 𝕄} (h : P ⊢ Q) : PhiWith1 c P ⊢ PhiWith1 c Q := by
  have hmid : iprop(P ∗ Others1 c) ⊢ iprop(Q ∗ Others1 c) := by
    iintro ⟨HP, HR⟩
    isplitl [HP]
    · iapply h; iexact HP
    iexact HR
  exact (PhiWith1_elim c P).trans (hmid.trans (PhiWith1_intro c Q))

end Cert.Kernel.Hand

end
-- ==== Proof.KR1RunA.lean ====
/- The scatter kernel's body at the FIRST edge block of a node block: the accumulator is cleared (whatever it held),
   then this edge block's product onehot(node = dst[edge]) · msgs is added to it; nothing is copied out, so the output
   window's staging buffer comes back exactly as it was handed in. -/
import proofs.«420466_j23716809408972_1_alg».proof.Proof.KR1Base
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (inner coordinate 0: clear, then accumulate; no copy-out). On whole memrefs — the two inputs at their
    blocks `x0` (destination indices) and `x1` (messages), the output window's buffer at any contents `xi2`, the
    accumulator at anything — the body runs to a continuation that gets the inputs and the output buffer back as they
    were and the accumulator with the pieces `LS0` written: two whole-buffer stores, the zeros and then zeros plus this
    block's product. The pieces are found by running the body's memory operations in order; the output has none. -/
noncomputable def kernelRun1_A (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR1RunB.lean ====
/- The scatter kernel's body at a MIDDLE edge block of a node block: this edge block's product
   onehot(node = dst[edge]) · msgs is added to the accumulator, which holds the sum over the edge blocks before it;
   nothing is cleared and nothing is copied out. -/
import proofs.«420466_j23716809408972_1_alg».proof.Proof.KR1RunA
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (inner coordinate neither 0 nor 499: accumulate only). On whole memrefs — the inputs at their blocks
    `x0`, `x1`, the output window's buffer at any contents `xi2`, the accumulator at `xs0`, what the point before left
    in it — the body runs to a continuation that gets the inputs and the output buffer back as they were and the
    accumulator with the pieces `LS0` written: one whole-buffer store of `xs0` plus this block's product. -/
noncomputable def kernelRun1_B (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KR1RunC.lean ====
/- The scatter kernel's body at the LAST edge block of a node block: this edge block's product is added to the
   accumulator, which then holds the sum over all 500 edge blocks, and the accumulator is copied whole to the output
   window's staging buffer (which the pipeline writes back to the node block's rows of the output array). -/
import proofs.«420466_j23716809408972_1_alg».proof.Proof.KR1RunB
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (inner coordinate 499: accumulate, then copy out). On whole memrefs — the inputs at their blocks `x0`,
    `x1`, the output window's buffer at anything, the accumulator at `xs0`, what the point before left in it — the
    body runs to a continuation that gets the inputs back as they were, the output buffer with the pieces `L2` written
    (one whole-buffer store of the final sum) and the accumulator with the pieces `LS0` written (one whole-buffer
    store of `xs0` plus this block's product). -/
noncomputable def kernelRun1_C (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KR1Frame.lean ====
/- The scatter region, point by point: what the accumulator and the output window's staging buffer hold after every
   grid point, the region's proof data over the entry contents, and the body's obligation at every point.
   After point t of node block n (t = 500·n + e) the accumulator holds the sum over the edge blocks 0..e of
   onehot(node = dst[edge]) · msgs[edge, :] for the 2048 nodes of the block (the first point of a node block clears it
   first); at e = 499 the same sum is in the output window's staging buffer, which the pipeline then writes back to
   rows 2048·n .. 2048·n + 2047 of the output array. -/
import proofs.«420466_j23716809408972_1_alg».proof.Proof.KR1RunC
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves behind -/

/-- The first edge block stores nothing into the output window: no pieces. A placeholder nothing reads (the window is
    neither written back at such a point nor read at the next). -/
def out1_A_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) : Vec F S2048x128 .f32 :=
  VO1_2.read (Elt F) (VO1_2.writes (Elt F) VO1_2.junk (kernelRun1_A c i arg2 harg2 arg3 harg3 arg4 harg4 arg5 harg5 hc0 hc1 x0 x1).1)

/-- The first edge block's stores into the accumulator (the zeros, then zeros plus the block's product) are whole-buffer
    stores: they cover it. -/
theorem scover1_A_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) (y : S2048x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x128.size (by sl_kernel_rfl) y

/-- The accumulator after the first edge block: the block's product added to zero. -/
def sout1_A_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) : Vec F S2048x128 .f32 :=
  VS1_0.read (Elt F) (VS1_0.writes (Elt F) VS1_0.junk (kernelRun1_A c i arg2 harg2 arg3 harg3 arg4 harg4 arg5 harg5 hc0 hc1 x0 x1).2.1)

/-- A middle edge block stores nothing into the output window either. -/
def out1_B_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) : Vec F S2048x128 .f32 :=
  VO1_2.read (Elt F) (VO1_2.writes (Elt F) VO1_2.junk (kernelRun1_B c i arg2 harg2 arg3 harg3 arg4 harg4 arg5 harg5 hc0 hc1 x0 x1 xs0).1)

/-- Its one store into the accumulator is a whole-buffer store. -/
theorem scover1_B_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) (y : S2048x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x128.size (by sl_kernel_rfl) y

/-- The accumulator after a middle edge block: what it held (`xs0`) plus the block's product. -/
def sout1_B_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 hc0 hc1 x0 x1 xs0).2.1)

/-- The last edge block's copy-out is a whole-buffer store into the output window's staging buffer. -/
theorem cover1_C_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) (y : S2048x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x128.size (by sl_kernel_rfl) y

/-- The output window's staging buffer after the last edge block: the finished sum over the 500 edge blocks. -/
def out1_C_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) : Vec F S2048x128 .f32 :=
  VO1_2.read (Elt F) (VO1_2.writes (Elt F) VO1_2.junk (kernelRun1_C c i arg2 harg2 arg3 harg3 arg4 harg4 arg5 harg5 hc0 hc1 x0 x1 xs0).1)

/-- The last edge block's store into the accumulator is a whole-buffer store. -/
theorem scover1_C_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) (y : S2048x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x128.size (by sl_kernel_rfl) y

/-- The accumulator after the last edge block: what it held plus the block's product (the finished sum). -/
def sout1_C_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 hc0 hc1 x0 x1 xs0).2.1)

section Entry
-- the contents of the core's buffers when the scatter region is entered: a parameter
variable (V : (c : Dev nD) → (b : Ref sig .tc) → Buf (Elt F) ((c : Thread nD τ).loc b))

/-! ## The accumulation, point by point -/

/-- After the body at position `n`: (the output window's staging buffer, the accumulator). By recursion on `n`: a point
    divisible by 500 starts a node block (the accumulator is rebuilt from zero: nothing of the point before is read);
    any other point adds its edge block's product to the accumulator the point before left; a point congruent to 499
    also copies the result to the output window. -/
def outsAt1 (c : Dev nD) : (n : ℕ) → n < cfg1.N → Vec F S2048x128 .f32 × Vec F S2048x128 .f32
  | 0, hn =>
    have h0 : (0 : ℕ) % 500 = 0 := Nat.zero_mod _
    have h1 : ¬(0 : ℕ) % 500 = 499 := by omega
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩))
  | n + 1, hn =>
    if h0 : (n + 1) % 500 = 0 then
      have h1 : ¬(n + 1) % 500 = 499 := by omega
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 500 = 499 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At the first edge block of a node block. -/
theorem outsAt1_A (c : Dev nD) (t : Fin cfg1.N) (h0 : t.val % 500 = 0) (h1 : ¬t.val % 500 = 499) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle edge block: over what the point before left in the accumulator. -/
theorem outsAt1_B (c : Dev nD) (t : Fin cfg1.N) (h0 : ¬t.val % 500 = 0) (h1 : ¬t.val % 500 = 499) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At the last edge block: over what the point before left in the accumulator. -/
theorem outsAt1_C (c : Dev nD) (t : Fin cfg1.N) (h0 : ¬t.val % 500 = 0) (h1 : t.val % 500 = 499) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- Before position `n`: at the start what the launch hands the region (the accumulator at anything); afterwards the
    same with the accumulator at what point `n - 1` left in it. -/
def PhiS1 (c : Dev nD) : (n : ℕ) → n ≤ cfg1.N → sProp 𝕄
  | 0, _ => Pipeline.ΦA spec1 c
  | n + 1, hn => PhiWith1 c (owns (c : Thread nD τ) scM1_0 fullShare (outsAt1 V c n hn).2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith1 c (owns (c : Thread nD τ) scM1_0 fullShare (outsAt1 V c n hn).2) := rfl

theorem PhiS1_pos (c : Dev nD) (n : ℕ) (h : n ≤ cfg1.N) (hz : n ≠ 0) :
    PhiS1 V c n h = PhiWith1 c (owns (c : Thread nD τ) scM1_0 fullShare (outsAt1 V c (n - 1) (by omega)).2) := by
  cases n with
  | zero => exact absurd rfl hz
  | succ n => rfl

/-! ## The proof data -/

/-- The scatter pipeline's proof data on core `c`: the arrays at the entry contents; after the body at point `t` the
    two inputs' buffers at their blocks (destination indices, messages) and the output window's at the first component
    of `outsAt1`; the invariant `PhiS1`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- The inputs' staging buffers hold their blocks at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body must return of the inputs' buffers: the blocks, untouched. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The position modulo 500 says which case the point is in. The inputs' buffers hold their
    blocks; the invariant hands over the accumulator — at anything at the very first point, at what the point before
    left otherwise (the first edge block of a later node block forgets it) — and takes it back at this point's
    contents, its stores covering it; the output window's buffer goes back untouched except at the last edge block,
    where the copy-out covers it. Nothing is owed throughout. -/
theorem sound_body1 (c : Dev nD) (t : Fin cfg1.N) :
    bodyPre1 V c t ⊢ wp frame (wpE (defs₀ (F := F)) Variants.none c none) Set.univ (kbodyAt1 t) (fun _ => bodyPost1 V c t) := by
  unfold bodyPre1 bodyPost1 kbodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 24500 := lt_of_lt_of_eq t.isLt (show cfg1.N = 24500 from N_1)
  by_cases h0 : t.val % 500 = 0
  · have h1 : ¬t.val % 500 = 499 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    ·
        rw [PhiS1_castSucc V c t, PhiS1_zero V c _ _ hz, PhiA1_eq]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR]
        · iapply PhiWith1_intro
          isplitl [HS0]
          · unfold owns; iexists _; isplitr
            swap; · iexact HS0
            ipureintro; exact View.read_writes_of_cover _ _ _ _ _ (scover1_A_0 c _ _ _ _ _ _ _ _ _ _ _ _ _)
          iexact HR
        isplitl [Ho]; · iexact Ho
        isplitl [H0]; · iexact H0
        isplitl [H1]; · iexact H1
        iexists _; iexact H2
    ·
        rw [PhiS1_castSucc V c t, PhiS1_pos V c _ _ hz]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR]
        · iapply PhiWith1_intro
          isplitl [HS0]
          · unfold owns; iexists _; isplitr
            swap; · iexact HS0
            ipureintro; exact View.read_writes_of_cover _ _ _ _ _ (scover1_A_0 c _ _ _ _ _ _ _ _ _ _ _ _ _)
          iexact HR
        isplitl [Ho]; · iexact Ho
        isplitl [H0]; · iexact H0
        isplitl [H1]; · iexact H1
        iexists _; iexact H2
  · have hz : t.val ≠ 0 := fun e => h0 (by rw [e])
    by_cases h1 : t.val % 500 = 499
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      ·
        rw [PhiS1_castSucc V c t, PhiS1_pos V c _ _ hz]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR]
        · iapply PhiWith1_intro
          isplitl [HS0]
          · unfold owns; iexists _; isplitr
            swap; · iexact HS0
            ipureintro; exact View.read_writes_of_cover _ _ _ _ _ (scover1_C_0 c _ _ _ _ _ _ _ _ _ _ _ _ _ _)
          iexact HR
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      ·
        rw [PhiS1_castSucc V c t, PhiS1_pos V c _ _ hz]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR]
        · iapply PhiWith1_intro
          isplitl [HS0]
          · unfold owns; iexists _; isplitr
            swap; · iexact HS0
            ipureintro; exact View.read_writes_of_cover _ _ _ _ _ (scover1_B_0 c _ _ _ _ _ _ _ _ _ _ _ _ _ _)
          iexact HR
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine PhiWith1_mono c ?_
  iintro H; iexists _; iexact H

/-- In particular after the last point. -/
theorem hout1 (c : Dev nD) : (dat1 V c).Φ (Fin.last cfg1.N) ⊢ Pipeline.ΦA spec1 c :=
  Phi_out1 V c _ (by rw [Fin.val_last]; have : cfg1.N = 24500 := N_1; omega)

end Entry

end Cert.Kernel.Hand

end
-- ==== Proof.KRun.lean ====
/-
  The run of the whole program: the host operations before, between and after the two kernel regions, each region
  entered from what the stretch before it left. The buffers' contents at every boundary are one fold from the
  launch memory: a host stretch applies its operations; a region leaves each of its arrays at what its write-backs
  amount to and every other buffer as it found it. Every execution terminates with every unscoped buffer at the
  fold's last stage; the argument arrays are written by no stretch and are no region's output, so they end as
  launched.
-/
import proofs.«420466_j23716809408972_1_alg».proof.Proof.Gen.Kernel.Regions
import proofs.«420466_j23716809408972_1_alg».proof.Proof.KR0Frame
import proofs.«420466_j23716809408972_1_alg».proof.Proof.KR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the gather region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gather region: its arrays at what the write-backs leave, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the scatter region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the scatter region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the program ends with. -/
abbrev W5 : Dev nD → Valuation τ sig (Elt F) := fun c => StableHlo.after hostOps2 (W4 m ρ c)

/-- A buffer that no host stretch writes and that is no array of either region ends as launched. -/
theorem W5_kept (c : Dev nD) (b : Ref sig .tc) (h0 : b ∉ hostOps0_W) (h1 : b ∉ hostOps1_W) (h2 : b ∉ hostOps2_W)
    (ha0 : ∀ w, Pipeline.arrRef spec0 w ≠ b) (ha1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b ha1
    _ = W2 m ρ c (Proc.devRef .tc b) := StableHlo.after_of_writes_sub hostOps1 _ hostOps1_writes h1
    _ = W1 m ρ c (Proc.devRef .tc b) := W2_of_ne m ρ c b ha0
    _ = W0 m ρ c (Proc.devRef .tc b) := StableHlo.after_of_writes_sub hostOps0 _ hostOps0_writes h0
    _ = m ((c : Thread nD τ).loc b) := rfl

theorem W5_main_arg0 (c : Dev nD) : W5 m ρ c (Proc.devRef .tc main_arg0) = m ((c : Thread nD τ).loc main_arg0) :=
  W5_kept m ρ c main_arg0 (by decide) (by decide) (by decide) (by decide) (by decide)
theorem W5_main_arg1 (c : Dev nD) : W5 m ρ c (Proc.devRef .tc main_arg1) = m ((c : Thread nD τ).loc main_arg1) :=
  W5_kept m ρ c main_arg1 (by decide) (by decide) (by decide) (by decide) (by decide)
theorem W5_main_arg2 (c : Dev nD) : W5 m ρ c (Proc.devRef .tc main_arg2) = m ((c : Thread nD τ).loc main_arg2) :=
  W5_kept m ρ c main_arg2 (by decide) (by decide) (by decide) (by decide) (by decide)
theorem W5_main_arg3 (c : Dev nD) : W5 m ρ c (Proc.devRef .tc main_arg3) = m ((c : Thread nD τ).loc main_arg3) :=
  W5_kept m ρ c main_arg3 (by decide) (by decide) (by decide) (by decide) (by decide)

/-! ## The proof data family and the thread state -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The gather region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter region over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution from memory m with zero counters terminates, nothing faulting, and every final
    state holds every unscoped buffer at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

/-- The same run read at the result buffer and the arguments. -/
theorem run_result : θ_run defs (onTc (τ := τ) (main (F := F))) ⟨m, fun _ => 0, ρ⟩ (fun r => ∀ c : Dev nD,
      r.2.mem ((c.tc : Thread nD τ).loc main_v27) = W5 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v27 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.KiGrid.lean ====
/-
  The schedule of the two grids by arithmetic. A grid of bounds (outer, inner) runs its points row-major, the
  inner axis fastest: point t has coordinates (t / inner, t % inner). An output window whose block index reads
  only the outer coordinate keeps its block from a point to the next unless the point is the last of its run
  (t % inner = inner - 1): nowhere else is the block written back.
-/
import proofs.«420466_j23716809408972_1_alg».proof.Proof.Gen.KernelIdeal.Launch

noncomputable section

namespace Cert.KernelIdeal.Hand

open Cert.KernelIdeal Cert.KernelIdeal.Gen
open Idealize.ShloMosaic Idealize.ShloMosaic.TcCoe Idealize.SL.Sem

/-! ## The gather grid: bounds (500, 49) -/

theorem stride0_0 : grid0.stride 0 = 49 := by decide
theorem stride0_1 : grid0.stride 1 = 1 := by decide

theorem coords0_0 (t : Fin cfg0.N) : (grid0.coords t 0).val = t.val / 49 := by
  have hN : t.val < 24500 := lt_of_lt_of_eq t.isLt N_0
  show t.val / grid0.stride 0 % 500 = t.val / 49
  rw [stride0_0]; omega

theorem coords0_1 (t : Fin cfg0.N) : (grid0.coords t 1).val = t.val % 49 := by
  show t.val / grid0.stride 1 % 49 = t.val % 49
  rw [stride0_1, Nat.div_one]

/-- The output block of the gather region is written back only at the last point of a run of the inner axis. -/
theorem noFlush0_2 (t : Fin cfg0.N) (h : ¬ t.val % 49 = 48) : (cfg0.win 2).flush t = false := by
  have hN : t.val < 24500 := lt_of_lt_of_eq t.isLt N_0
  have hidx : ∀ h1 : t.val + 1 < grid0.N, win0_2.index ⟨t.val + 1, h1⟩ = win0_2.index t := fun h1 => by
    have hco : grid0.coords ⟨t.val + 1, h1⟩ 0 = grid0.coords t 0 := Fin.ext (by
      rw [coords0_0 ⟨t.val + 1, h1⟩, coords0_0 t]
      show (t.val + 1) / 49 = t.val / 49
      omega)
    exact Facts₀.hreads0_2 _ _ fun a ha => by
      match a, ha with
      | ⟨0, _⟩, _ => exact hco
      | ⟨1, _⟩, ha => exact absurd (show (false : Bool) = true from ha) (by decide)
  have h1 : ¬ (t.val + 1 = grid0.N) := by rw [N_0]; omega
  have h2 : ¬ ∃ h1 : t.val + 1 < grid0.N, win0_2.index ⟨t.val + 1, h1⟩ ≠ win0_2.index t :=
    fun ⟨h1, hne⟩ => hne (hidx h1)
  show (win0_2.isOut && (decide (t.val + 1 = grid0.N)
    || decide (∃ h1 : t.val + 1 < grid0.N, win0_2.index ⟨t.val + 1, h1⟩ ≠ win0_2.index t))) = false
  rw [decide_eq_false h1, decide_eq_false h2]; rfl

/-- The first conditional of the gather body (reset the accumulator): the inner coordinate is 0. -/
abbrev cond0_0 (i : grid0.Coords) : Prop :=
  (Scalar.cmpi .ne (Scalar.extui (Scalar.cmpi .eq (BitVec.ofNat 32 (i 1).val) 0#32)) 0#32) = 1#1
/-- The second conditional of the gather body (write the output block): the inner coordinate is the last. -/
abbrev cond0_1 (i : grid0.Coords) : Prop := k0_cond2 i = 1#1

theorem first0_iff : ∀ j : Fin 49,
    ((Scalar.cmpi .ne (Scalar.extui (Scalar.cmpi .eq (BitVec.ofNat 32 j.val) 0#32)) 0#32) = 1#1) ↔ j.val = 0 := by
  decide +kernel
theorem last0_iff : ∀ j : Fin 49,
    ((Scalar.cmpi .ne (Scalar.extui (Scalar.cmpi .eq (BitVec.ofNat 32 j.val) 48#32)) 0#32) = 1#1) ↔ j.val = 48 := by
  decide +kernel

theorem hcond0_0 (t : Fin cfg0.N) : cond0_0 (grid0.coords t) ↔ t.val % 49 = 0 := by
  rw [← coords0_1 t]; exact first0_iff (grid0.coords t 1)
theorem hcond0_1 (t : Fin cfg0.N) : cond0_1 (grid0.coords t) ↔ t.val % 49 = 48 := by
  rw [← coords0_1 t]; exact last0_iff (grid0.coords t 1)

/-! ## The scatter grid: bounds (49, 500) -/

theorem stride1_0 : grid1.stride 0 = 500 := by decide
theorem stride1_1 : grid1.stride 1 = 1 := by decide

theorem coords1_0 (t : Fin cfg1.N) : (grid1.coords t 0).val = t.val / 500 := by
  have hN : t.val < 24500 := lt_of_lt_of_eq t.isLt N_1
  show t.val / grid1.stride 0 % 49 = t.val / 500
  rw [stride1_0]; omega

theorem coords1_1 (t : Fin cfg1.N) : (grid1.coords t 1).val = t.val % 500 := by
  show t.val / grid1.stride 1 % 500 = t.val % 500
  rw [stride1_1, Nat.div_one]

/-- The output block of the scatter region is written back only at the last point of a run of the inner axis. -/
theorem noFlush1_2 (t : Fin cfg1.N) (h : ¬ t.val % 500 = 499) : (cfg1.win 2).flush t = false := by
  have hN : t.val < 24500 := lt_of_lt_of_eq t.isLt N_1
  have hidx : ∀ h1 : t.val + 1 < grid1.N, win1_2.index ⟨t.val + 1, h1⟩ = win1_2.index t := fun h1 => by
    have hco : grid1.coords ⟨t.val + 1, h1⟩ 0 = grid1.coords t 0 := Fin.ext (by
      rw [coords1_0 ⟨t.val + 1, h1⟩, coords1_0 t]
      show (t.val + 1) / 500 = t.val / 500
      omega)
    exact Facts₀.hreads1_2 _ _ fun a ha => by
      match a, ha with
      | ⟨0, _⟩, _ => exact hco
      | ⟨1, _⟩, ha => exact absurd (show (false : Bool) = true from ha) (by decide)
  have h1 : ¬ (t.val + 1 = grid1.N) := by rw [N_1]; omega
  have h2 : ¬ ∃ h1 : t.val + 1 < grid1.N, win1_2.index ⟨t.val + 1, h1⟩ ≠ win1_2.index t :=
    fun ⟨h1, hne⟩ => hne (hidx h1)
  show (win1_2.isOut && (decide (t.val + 1 = grid1.N)
    || decide (∃ h1 : t.val + 1 < grid1.N, win1_2.index ⟨t.val + 1, h1⟩ ≠ win1_2.index t))) = false
  rw [decide_eq_false h1, decide_eq_false h2]; rfl

end Cert.KernelIdeal.Hand

end
-- ==== Proof.KiR0Base.lean ====
/- Region 0 (the gather): what its three cases share. The grid is 500 runs of 49 points; along a run the
   accumulator collects, node block by node block, the rows of the node table selected by the run's edge
   block; the run's last point rounds the accumulator into the output window. -/
import proofs.«420466_j23716809408972_1_alg».proof.Proof.KiGrid
import proofs.«420466_j23716809408972_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

open Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- what every TensorCore buffer holds when the region is entered
variable (V : (c : Dev nD) → (b : Ref sig .tc) → Buf (Elt F) ((c : Thread nD τ).loc b))

/-! ## The blocks of the three windows -/

/-- The block of window `w` at grid point `t`, cut out of the window's array as the region finds it:
    for window 0 the 3200 source indices of edge block `t / 49`, for window 1 the 2048 rows of node
    block `t % 49` of the padded, scaled node table, for window 2 the rows of edge block `t / 49` of
    the message array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge-index window (0) is moved in only at the first point of a run, and its block index does not
    change along the run: at EVERY point its current staging buffer holds the run's index block, for
    any proof data over `V` whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The node-table window (1) is moved in at every point: its current staging buffer holds node block
    `t % 49`, for any proof data over `V` whose body leaves that block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## Where the windows are idle -/

/-- The two inputs are live everywhere. -/
theorem liveAt0_0 : ∀ t : Fin cfg0.N, cfg0.idle 0 (grid0.coords t) = false := fun _ => rfl
theorem liveAt0_1 : ∀ t : Fin cfg0.N, cfg0.idle 1 (grid0.coords t) = false := fun _ => rfl

/-- The output window is declared idle exactly where the last-point condition fails. -/
theorem idle0_2_iff (i : grid0.Coords) : cfg0.idle 2 i = true ↔ ¬cond0_1 i := by
  show (!(k0_cond2 i == 1#1)) = true ↔ ¬(k0_cond2 i = 1#1)
  simp only [Bool.not_eq_true', beq_eq_false_iff_ne, ne_eq]

/-- First point of a run that is not also its last: nothing is stored into the output window, -/
theorem idleAt0_2_A : ∀ t : Fin cfg0.N, cond0_0 (grid0.coords t) → ¬cond0_1 (grid0.coords t) → cfg0.idle 2 (grid0.coords t) = true :=
  fun t _ h1 => (idle0_2_iff _).mpr h1
/-- and the window is not written back there (its block index moves only between a run's last point and the
    next run's first). -/
theorem noFlush0_2_A : ∀ t : Fin cfg0.N, cond0_0 (grid0.coords t) → ¬cond0_1 (grid0.coords t) → (cfg0.win 2).flush t = false :=
  fun t _ h1 => noFlush0_2 t (fun h => h1 ((hcond0_1 t).mpr h))
/-- Interior point of a run: the same two facts. -/
theorem idleAt0_2_B : ∀ t : Fin cfg0.N, ¬cond0_0 (grid0.coords t) → ¬cond0_1 (grid0.coords t) → cfg0.idle 2 (grid0.coords t) = true :=
  fun t _ h1 => (idle0_2_iff _).mpr h1
theorem noFlush0_2_B : ∀ t : Fin cfg0.N, ¬cond0_0 (grid0.coords t) → ¬cond0_1 (grid0.coords t) → (cfg0.win 2).flush t = false :=
  fun t _ h1 => noFlush0_2 t (fun h => h1 ((hcond0_1 t).mpr h))
/-- Last point of a run: the output window is live (the body stores the whole window there). -/
theorem liveAt0_2_C : ∀ t : Fin cfg0.N, ¬cond0_0 (grid0.coords t) → cond0_1 (grid0.coords t) → cfg0.idle 2 (grid0.coords t) = false :=
  fun t _ h1 => by
    rw [← Bool.not_eq_true]; intro hi
    exact (idle0_2_iff _).mp hi h1

/-! ## The memrefs the body is called with -/

/-- One staging buffer of the output window, through which its contents are stated. -/
abbrev VO0_2 : View sig .tc .vmem S3200x128 .bf16 := (Memref.whole cc0_stg2_0 : Memref sig .tc .vmem S3200x128 .bf16).view
/-- The current staging memref of each window at point `t`, and its wholeness. -/
abbrev ms0_0 (t : Fin cfg0.N) : Memref sig .tc .vmem S3200x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3200x128 .bf16 := win0_2.stage (cfg0.slots t 2)
abbrev hs0_2 (t : Fin cfg0.N) : (ms0_2 t).IsWhole := hstage0_2 ((cfg0.slots t 2).cast nbuf0_2)
/-- The kernel body as the pipeline calls it at point `t`: on the point's coordinates, the three windows' current
    staging memrefs and the accumulator. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) (Memref.whole cc0_scratch0) (Memref.isWhole_whole _)
/-- The accumulator: a whole scoped buffer of 3200 × 128 single-precision numbers, kept between points. -/
abbrev scM0_0 : Memref sig .tc .vmem S3200x128 .f32 := Memref.whole cc0_scratch0
abbrev VS0_0 : View sig .tc .vmem S3200x128 .f32 := scM0_0.view

/-- The scoped buffers of the core that this region neither stages through nor accumulates in (the other
    region's staging buffers and accumulator), each whole at some contents: carried along untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands the region: the accumulator at some contents, the other scoped buffers at some
    contents, the generator register at some state. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.KernelIdeal.Hand

end
-- ==== Proof.KiR0RunA.lean ====
/- Region 0 (the gather), the kernel body run symbolically at one kind of grid point. -/
import proofs.«420466_j23716809408972_1_alg».proof.Proof.KiR0Base

set_option maxRecDepth 16384

noncomputable section

open Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST POINT OF A RUN (inner coordinate 0, not 48). The body first overwrites the whole accumulator with
    zeros, then reads the index block `x0`, the zeroed accumulator and the node block `x1`, and stores back
    "accumulator + onehot(x0 against the node ids of this block) · x1". Nothing is stored into the output
    window: whatever it holds (`xi2`) is handed back untouched. The accumulator may hold anything on entry.
    The witness: the (empty) pieces of the output and the two whole-buffer pieces of the accumulator. -/
noncomputable def kernelRun0_A (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) :
    Σ' (L2 : List (View.Piece (Elt F) S3200x128 .bf16)), { LS0 : List (View.Piece (Elt F) S3200x128 .f32) //
      ∀ (xi2 : Vec F S3200x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR0RunB.lean ====
/- Region 0 (the gather), the kernel body run symbolically at one kind of grid point. -/
import proofs.«420466_j23716809408972_1_alg».proof.Proof.KiR0RunA

set_option maxRecDepth 16384

noncomputable section

open Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- INTERIOR POINT OF A RUN (inner coordinate neither 0 nor 48). The body reads the index block `x0`, the
    accumulator as the point before left it (`xs0`) and the node block `x1`, and stores back
    "xs0 + onehot(x0 against the node ids of this block) · x1". Nothing is stored into the output window:
    whatever it holds (`xi2`) is handed back untouched.
    The witness: the (empty) pieces of the output and the one whole-buffer piece of the accumulator. -/
noncomputable def kernelRun0_B (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) :
    Σ' (L2 : List (View.Piece (Elt F) S3200x128 .bf16)), { LS0 : List (View.Piece (Elt F) S3200x128 .f32) //
      ∀ (xi2 : Vec F S3200x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR0RunC.lean ====
/- Region 0 (the gather), the kernel body run symbolically at one kind of grid point. -/
import proofs.«420466_j23716809408972_1_alg».proof.Proof.KiR0RunB

set_option maxRecDepth 16384

noncomputable section

open Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- LAST POINT OF A RUN (inner coordinate 48, not 0). The body adds this node block's contribution to the
    accumulator `xs0` as at an interior point, then reads the accumulator back and stores it, rounded to
    bf16, over the whole output window (which may hold anything on entry).
    The witness: the one whole-window piece of the output and the one whole-buffer piece of the accumulator. -/
noncomputable def kernelRun0_C (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) :
    Σ' (L2 : List (View.Piece (Elt F) S3200x128 .bf16)), { LS0 : List (View.Piece (Elt F) S3200x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiR0Frame.lean ====
/- Region 0 (the gather): what the output window and the accumulator hold after every grid point, the proof
   data of the pipeline over the region's entry contents, and the body obligation. -/
import proofs.«420466_j23716809408972_1_alg».proof.Proof.KiR0RunC

set_option maxRecDepth 16384

noncomputable section

open Cert.KernelIdeal.Gen

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At a run's first point nothing is stored into the output window (no pieces): a placeholder
    that nothing reads, the window being neither written back here nor read at the next point. -/
def out0_A_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) : Vec F S3200x128 .bf16 :=
  VO0_2.read (Elt F) (VO0_2.writes (Elt F) VO0_2.junk (kernelRun0_A c i arg2 harg2 arg3 harg3 arg4 harg4 arg5 harg5 hc0 hc1 x0 x1).1)

/-- The accumulator's pieces at such a point (the zero fill and then the first node block's contribution, each a store of the whole buffer) cover it. -/
theorem scover0_A_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) (y : S3200x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S3200x128.size (by sl_kernel_rfl) y

/-- What such a point leaves in the accumulator: the first node block's contribution added to zero. -/
def sout0_A_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : cond0_0 i) (hc1 : ¬cond0_1 i)
    (x0 : Vec F S3200x1 .i32) (x1 : Vec F S2048x128 .bf16) : Vec F S3200x128 .f32 :=
  VS0_0.read (Elt F) (VS0_0.writes (Elt F) VS0_0.junk (kernelRun0_A c i arg2 harg2 arg3 harg3 arg4 harg4 arg5 harg5 hc0 hc1 x0 x1).2.1)

/-- At an interior point of a run nothing is stored into the output window (no pieces): a placeholder
    that nothing reads, the window being neither written back here nor read at the next point. -/
def out0_B_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) : Vec F S3200x128 .bf16 :=
  VO0_2.read (Elt F) (VO0_2.writes (Elt F) VO0_2.junk (kernelRun0_B c i arg2 harg2 arg3 harg3 arg4 harg4 arg5 harg5 hc0 hc1 x0 x1 xs0).1)

/-- The accumulator's pieces at such a point (one store of the whole buffer) cover it. -/
theorem scover0_B_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) (y : S3200x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S3200x128.size (by sl_kernel_rfl) y

/-- What such a point leaves in the accumulator: what the point before left plus this node block's contribution. -/
def sout0_B_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : ¬cond0_1 i)
    (x0 : Vec F S3200x1 .i32) (x1 : Vec F S2048x128 .bf16) (xs0 : Vec F S3200x128 .f32) : Vec F S3200x128 .f32 :=
  VS0_0.read (Elt F) (VS0_0.writes (Elt F) VS0_0.junk (kernelRun0_B c i arg2 harg2 arg3 harg3 arg4 harg4 arg5 harg5 hc0 hc1 x0 x1 xs0).2.1)

/-- At a run's last point the body's one store into the output window covers the whole window. -/
theorem cover0_C_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) (y : S3200x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S3200x128.size (by sl_kernel_rfl) y

/-- What a run's last point leaves in the output window: the accumulator after this point's addition, rounded
    to bf16 (the store's piece read back). -/
def out0_C_2 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) : Vec F S3200x128 .bf16 :=
  VO0_2.read (Elt F) (VO0_2.writes (Elt F) VO0_2.junk (kernelRun0_C c i arg2 harg2 arg3 harg3 arg4 harg4 arg5 harg5 hc0 hc1 x0 x1 xs0).1)

/-- The accumulator's pieces at such a point (one store of the whole buffer) cover it. -/
theorem scover0_C_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) (y : S3200x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S3200x128.size (by sl_kernel_rfl) y

/-- What such a point leaves in the accumulator: what the point before left plus this node block's contribution. -/
def sout0_C_0 (c : Dev nD) (i : grid0.Coords) (arg2 : Memref sig .tc .vmem S3200x1 .i32) (harg2 : arg2.IsWhole) (arg3 : Memref sig .tc .vmem S2048x128 .bf16) (harg3 : arg3.IsWhole) (arg4 : Memref sig .tc .vmem S3200x128 .bf16) (harg4 : arg4.IsWhole) (arg5 : Memref sig .tc .vmem S3200x128 .f32) (harg5 : arg5.IsWhole) (hc0 : ¬cond0_0 i) (hc1 : cond0_1 i)
    (x0 : Vec F S3200x1 .i32) (x1 : Vec F S2048x128 .bf16) (xs0 : Vec F S3200x128 .f32) : Vec F S3200x128 .f32 :=
  VS0_0.read (Elt F) (VS0_0.writes (Elt F) VS0_0.junk (kernelRun0_C c i arg2 harg2 arg3 harg3 arg4 harg4 arg5 harg5 hc0 hc1 x0 x1 xs0).2.1)

section Region0

-- what every TensorCore buffer holds when the region is entered
variable (V : (c : Dev nD) → (b : Ref sig .tc) → Buf (Elt F) ((c : Thread nD τ).loc b))

/-! ## Point by point -/

/-- THE ACCUMULATION. After the body at position `n` (run `n / 49`, node block `n % 49`): first component, the
    output window's staging contents; second, the accumulator. At a run's first point the accumulator is
    the first node block's contribution; at every later point it is the previous point's accumulator plus
    this node block's contribution, so that after the run's last point it is the sum over all 49 node blocks,
    which that point also rounds into the output window. (A point cannot be both first and last in its run.) -/
def outsAt0 (c : Dev nD) : (n : ℕ) → n < cfg0.N → Vec F S3200x128 .bf16 × Vec F S3200x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 49 = 0 then
      if h1 : (n + 1) % 49 = 48 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 49 = 48 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a run's first point. -/
theorem outsAt0_A (c : Dev nD) (t : Fin cfg0.N) (h0 : t.val % 49 = 0) (h1 : ¬t.val % 49 = 48) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at an interior point of a run: over what the point before left in the accumulator. -/
theorem outsAt0_B (c : Dev nD) (t : Fin cfg0.N) (h0 : ¬t.val % 49 = 0) (h1 : ¬t.val % 49 = 48) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a run's last point: over what the point before left in the accumulator. -/
theorem outsAt0_C (c : Dev nD) (t : Fin cfg0.N) (h0 : ¬t.val % 49 = 0) (h1 : t.val % 49 = 48) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point, what the launch hands over (the
    accumulator at anything); afterwards the accumulator at what point `n - 1` left in it, the other scoped
    buffers at some contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The pipeline's proof data -/

/-- The proof data of the gather's pipeline on core `c`: the three arrays as the region finds them; after the
    body at point `t` the two input windows still at their blocks and the output window at `outsAt0`'s first
    component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The two inputs' buffers hold their blocks; the point's position in its run (first,
    interior, last) selects the case; the invariant hands over the accumulator at what the point before left
    (at anything, at the very first point) and takes it back at this point's contents; the output window is
    handed back untouched except at a run's last point, where it is left at the rounded accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 24500 := lt_of_lt_of_eq t.isLt (show cfg0.N = 24500 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 49 = 0
  · by_cases h1 : t.val % 49 = 48
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 49 = 48
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: what the accumulator holds is
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 24500 := N_0; omega)

end Region0

end Cert.KernelIdeal.Hand

end
-- ==== Proof.KiR1Base.lean ====
/- The scatter region (the second kernel call: grid 49 × 500, node block n outer, edge block e inner): what its
   three per-case runs and its frame module share. The kernel keeps, in a scratch accumulator of 2048 × 128 floats,
   the partial sum over the edge blocks seen so far of onehot(node = dst[edge]) · msgs[edge, :]; it clears the
   accumulator at the first edge block of every node block, adds one edge block's product at every point, and copies
   the accumulator to the output window at the last edge block. Here: the windows' blocks read off the entry contents,
   where the output window is idle (from the two conditions' closed forms), the names of the memrefs the body
   is called with, and the region invariant spelt out. Generic in the float type. -/
import proofs.«420466_j23716809408972_1_alg».proof.Proof.Gen.KernelIdeal.Launch
import proofs.«420466_j23716809408972_1_alg».proof.Proof.Gen.KernelIdeal.Skeleton
import proofs.«420466_j23716809408972_1_alg».proof.Proof.KiGrid
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the contents of the core's buffers when the scatter region is entered: a parameter
variable (V : (c : Dev nD) → (b : Ref sig .tc) → Buf (Elt F) ((c : Thread nD τ).loc b))

/-! ## The windows' blocks -/

/-- Block of window `w` at grid point `t`, read off the window's array at the entry contents: for window 0 the
    3200 destination indices of edge block `t % 500`, for window 1 the 3200 × 128 messages of that edge block, for
    window 2 the rows of node block `t / 500` of the output array as the region found it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The destination indices' staging buffer holds edge block `t % 500` of the index array at every point, whether the
    pipeline fetched it there or not: the window is an input, never idle, its blocks tile the array, and the body
    leaves it as found. For any proof data whose array 0 is the entry contents and whose body returns the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the messages' staging buffer (window 1): it holds the 3200 × 128 messages of edge block `t % 500`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two conditions of the body -/

/-- "This is the first edge block" (the inner coordinate is 0): the condition under which the accumulator is cleared. -/
abbrev cond1_0 (i : grid1.Coords) : Prop := (Scalar.cmpi .ne (Scalar.extui (Scalar.cmpi .eq (BitVec.ofNat 32 (i 1).val) 0#32)) 0#32) = 1#1
/-- The comparison chain on a 32-bit word below 500 is the comparison of the number with 0 (checked over the 500 values). -/
theorem cond1_0_fin : ∀ j : Fin 500, ((Scalar.cmpi .ne (Scalar.extui (Scalar.cmpi .eq (BitVec.ofNat 32 j.val) 0#32)) 0#32) = 1#1) ↔ j.val = 0 := by
  decide +kernel
/-- The grid's points are run in row-major order, the edge-block axis fastest (the inner coordinate of point `t` is
    `t % 500`): the condition holds exactly at the points divisible by 500. -/
theorem hcond1_0 : ∀ t : Fin cfg1.N, cond1_0 (grid1.coords t) ↔ t.val % 500 = 0 := fun t =>
  (show cond1_0 (grid1.coords t) ↔ ((grid1.coords t) 1).val = 0 from cond1_0_fin ((grid1.coords t) 1)).trans (by rw [coords1_1])

/-- "This is the last edge block" (the inner coordinate is 499): the condition under which the accumulator is copied
    to the output window. -/
abbrev cond1_1 (i : grid1.Coords) : Prop := k1_cond2 i = 1#1
/-- Its comparison chain on a 32-bit word below 500 is the comparison of the number with 499. -/
theorem cond1_1_fin : ∀ j : Fin 500, ((Scalar.cmpi .ne (Scalar.extui (Scalar.cmpi .eq (BitVec.ofNat 32 j.val) 499#32)) 0#32) = 1#1) ↔ j.val = 499 := by
  decide +kernel
/-- So the condition holds exactly at the points congruent to 499 modulo 500. -/
theorem hcond1_1 : ∀ t : Fin cfg1.N, cond1_1 (grid1.coords t) ↔ t.val % 500 = 499 := fun t =>
  (show cond1_1 (grid1.coords t) ↔ ((grid1.coords t) 1).val = 499 from cond1_1_fin ((grid1.coords t) 1)).trans (by rw [coords1_1])

/-! ## Where the windows are idle -/

/-- The two inputs are read at every point. -/
theorem liveAt1_0 : ∀ t : Fin cfg1.N, cfg1.idle 0 (grid1.coords t) = false := fun _ => rfl
theorem liveAt1_1 : ∀ t : Fin cfg1.N, cfg1.idle 1 (grid1.coords t) = false := fun _ => rfl

/-- The output window is idle exactly where the copy-out condition fails (the configuration's table says so). -/
theorem idle1_2_of_not (t : Fin cfg1.N) (h1 : ¬cond1_1 (grid1.coords t)) : cfg1.idle 2 (grid1.coords t) = true := by
  show (!(k1_cond2 (grid1.coords t) == 1#1)) = true
  rw [Bool.not_eq_true', beq_eq_false_iff_ne]; exact h1
/-- and the pipeline writes it back only at the last edge block of a node block. -/
theorem noFlush1_2_of_not (t : Fin cfg1.N) (h1 : ¬cond1_1 (grid1.coords t)) : (cfg1.win 2).flush t = false :=
  noFlush1_2 t (fun h => h1 ((hcond1_1 t).mpr h))

/-- First edge block of a node block (clear, accumulate, no copy-out): the output window is idle -/
theorem idleAt1_2_A : ∀ t : Fin cfg1.N, cond1_0 (grid1.coords t) → ¬cond1_1 (grid1.coords t) → cfg1.idle 2 (grid1.coords t) = true :=
  fun t _ h1 => idle1_2_of_not t h1
/-- and not written back. -/
theorem noFlush1_2_A : ∀ t : Fin cfg1.N, cond1_0 (grid1.coords t) → ¬cond1_1 (grid1.coords t) → (cfg1.win 2).flush t = false :=
  fun t _ h1 => noFlush1_2_of_not t h1
/-- A middle edge block (accumulate only): the output window is idle -/
theorem idleAt1_2_B : ∀ t : Fin cfg1.N, ¬cond1_0 (grid1.coords t) → ¬cond1_1 (grid1.coords t) → cfg1.idle 2 (grid1.coords t) = true :=
  fun t _ h1 => idle1_2_of_not t h1
/-- and not written back. -/
theorem noFlush1_2_B : ∀ t : Fin cfg1.N, ¬cond1_0 (grid1.coords t) → ¬cond1_1 (grid1.coords t) → (cfg1.win 2).flush t = false :=
  fun t _ h1 => noFlush1_2_of_not t h1
/-- The last edge block (accumulate, copy out): the output window is live. -/
theorem liveAt1_2_C : ∀ t : Fin cfg1.N, ¬cond1_0 (grid1.coords t) → cond1_1 (grid1.coords t) → cfg1.idle 2 (grid1.coords t) = false := by
  intro t _ h1
  show (!(k1_cond2 (grid1.coords t) == 1#1)) = false
  rw [show k1_cond2 (grid1.coords t) = 1#1 from h1]; rfl

/-! ## The memrefs the body is called with -/

/-- One staging buffer of the output window, through which its contents are stated (either would do). -/
abbrev VO1_2 : View sig .tc .vmem S2048x128 .f32 := (Memref.whole cc1_stg2_0 : Memref sig .tc .vmem S2048x128 .f32).view
/-- The current staging memref of each window at point `t`, as the pipeline passes it, and that it is a whole buffer. -/
abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The kernel body as the pipeline calls it at point `t`: at the point's coordinates, on the windows' current staging
    buffers and on the accumulator. -/
abbrev kbodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)
/-- The accumulator: a whole scoped buffer of the kernel's own, passed beside the windows. -/
abbrev scM1_0 : Memref sig .tc .vmem S2048x128 .f32 := Memref.whole cc1_scratch0
/-- The accumulator as a view: what it holds is stated through it. -/
abbrev VS1_0 : View sig .tc .vmem S2048x128 .f32 := scM1_0.view

/-! ## The region invariant spelt out -/

/-- The region's invariant with the accumulator's part left open: the core's seven other scoped buffers that are no
    staging buffer of this region (the gather region's six staging buffers and its accumulator), each at some contents;
    then `P`, the accumulator's part; then the generator register at some state. -/
def PhiWith1 (c : Dev nD) (P : sProp 𝕄) : sProp 𝕄 :=
  iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ P) ∗ (∃ r, prngReg c r))

/-- What the launch hands the region is that shape with the accumulator owned at some contents. -/
theorem PhiA1_eq (c : Dev nD) :
    (Pipeline.ΦA spec1 c : sProp 𝕄) = PhiWith1 c iprop(∃ d, owns (c : Thread nD τ) scM1_0 fullShare d) := by
  unfold Pipeline.ΦA PhiWith1; rw [scopedRest1_eq]; simp only [scM1_0, owns_whole]; try rfl

/-- The part of that invariant the scatter body never touches: the seven other scoped buffers at some contents and the
    generator register at some state. -/
def Others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ r, prngReg c r))

/-- The accumulator's part comes out of the invariant, leaving the untouched part, -/
theorem PhiWith1_elim (c : Dev nD) (P : sProp 𝕄) : PhiWith1 c P ⊢ iprop(P ∗ Others1 c) := by
  unfold PhiWith1 Others1
  iintro ⟨⟨R1, R2, R3, R4, R5, R6, R7, HP⟩, Hg⟩
  isplitl [HP]; · iexact HP
  isplitl [R1]; · iexact R1
  isplitl [R2]; · iexact R2
  isplitl [R3]; · iexact R3
  isplitl [R4]; · iexact R4
  isplitl [R5]; · iexact R5
  isplitl [R6]; · iexact R6
  isplitl [R7]; · iexact R7
  iexact Hg

/-- and goes back in. -/
theorem PhiWith1_intro (c : Dev nD) (P : sProp 𝕄) : iprop(P ∗ Others1 c) ⊢ PhiWith1 c P := by
  unfold PhiWith1 Others1
  iintro ⟨HP, R1, R2, R3, R4, R5, R6, R7, Hg⟩
  isplitl [R1 R2 R3 R4 R5 R6 R7 HP]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact HP
  iexact Hg

/-- The invariant is monotone in the accumulator's part. -/
theorem PhiWith1_mono (c : Dev nD) {P Q : sProp 𝕄} (h : P ⊢ Q) : PhiWith1 c P ⊢ PhiWith1 c Q := by
  have hmid : iprop(P ∗ Others1 c) ⊢ iprop(Q ∗ Others1 c) := by
    iintro ⟨HP, HR⟩
    isplitl [HP]
    · iapply h; iexact HP
    iexact HR
  exact (PhiWith1_elim c P).trans (hmid.trans (PhiWith1_intro c Q))

end Cert.KernelIdeal.Hand

end
-- ==== Proof.KiR1RunA.lean ====
/- The scatter kernel's body at the FIRST edge block of a node block: the accumulator is cleared (whatever it held),
   then this edge block's product onehot(node = dst[edge]) · msgs is added to it; nothing is copied out, so the output
   window's staging buffer comes back exactly as it was handed in. -/
import proofs.«420466_j23716809408972_1_alg».proof.Proof.KiR1Base
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (inner coordinate 0: clear, then accumulate; no copy-out). On whole memrefs — the two inputs at their
    blocks `x0` (destination indices) and `x1` (messages), the output window's buffer at any contents `xi2`, the
    accumulator at anything — the body runs to a continuation that gets the inputs and the output buffer back as they
    were and the accumulator with the pieces `LS0` written: two whole-buffer stores, the zeros and then zeros plus this
    block's product. The pieces are found by running the body's memory operations in order; the output has none. -/
noncomputable def kernelRun1_A (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR1RunB.lean ====
/- The scatter kernel's body at a MIDDLE edge block of a node block: this edge block's product
   onehot(node = dst[edge]) · msgs is added to the accumulator, which holds the sum over the edge blocks before it;
   nothing is cleared and nothing is copied out. -/
import proofs.«420466_j23716809408972_1_alg».proof.Proof.KiR1RunA
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (inner coordinate neither 0 nor 499: accumulate only). On whole memrefs — the inputs at their blocks
    `x0`, `x1`, the output window's buffer at any contents `xi2`, the accumulator at `xs0`, what the point before left
    in it — the body runs to a continuation that gets the inputs and the output buffer back as they were and the
    accumulator with the pieces `LS0` written: one whole-buffer store of `xs0` plus this block's product. -/
noncomputable def kernelRun1_B (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KiR1RunC.lean ====
/- The scatter kernel's body at the LAST edge block of a node block: this edge block's product is added to the
   accumulator, which then holds the sum over all 500 edge blocks, and the accumulator is copied whole to the output
   window's staging buffer (which the pipeline writes back to the node block's rows of the output array). -/
import proofs.«420466_j23716809408972_1_alg».proof.Proof.KiR1RunB
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (inner coordinate 499: accumulate, then copy out). On whole memrefs — the inputs at their blocks `x0`,
    `x1`, the output window's buffer at anything, the accumulator at `xs0`, what the point before left in it — the
    body runs to a continuation that gets the inputs back as they were, the output buffer with the pieces `L2` written
    (one whole-buffer store of the final sum) and the accumulator with the pieces `LS0` written (one whole-buffer
    store of `xs0` plus this block's product). -/
noncomputable def kernelRun1_C (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KiR1Frame.lean ====
/- The scatter region, point by point: what the accumulator and the output window's staging buffer hold after every
   grid point, the region's proof data over the entry contents, and the body's obligation at every point.
   After point t of node block n (t = 500·n + e) the accumulator holds the sum over the edge blocks 0..e of
   onehot(node = dst[edge]) · msgs[edge, :] for the 2048 nodes of the block (the first point of a node block clears it
   first); at e = 499 the same sum is in the output window's staging buffer, which the pipeline then writes back to
   rows 2048·n .. 2048·n + 2047 of the output array. -/
import proofs.«420466_j23716809408972_1_alg».proof.Proof.KiR1RunC
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves behind -/

/-- The first edge block stores nothing into the output window: no pieces. A placeholder nothing reads (the window is
    neither written back at such a point nor read at the next). -/
def out1_A_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) : Vec F S2048x128 .f32 :=
  VO1_2.read (Elt F) (VO1_2.writes (Elt F) VO1_2.junk (kernelRun1_A c i arg2 harg2 arg3 harg3 arg4 harg4 arg5 harg5 hc0 hc1 x0 x1).1)

/-- The first edge block's stores into the accumulator (the zeros, then zeros plus the block's product) are whole-buffer
    stores: they cover it. -/
theorem scover1_A_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) (y : S2048x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x128.size (by sl_kernel_rfl) y

/-- The accumulator after the first edge block: the block's product added to zero. -/
def sout1_A_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) : Vec F S2048x128 .f32 :=
  VS1_0.read (Elt F) (VS1_0.writes (Elt F) VS1_0.junk (kernelRun1_A c i arg2 harg2 arg3 harg3 arg4 harg4 arg5 harg5 hc0 hc1 x0 x1).2.1)

/-- A middle edge block stores nothing into the output window either. -/
def out1_B_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) : Vec F S2048x128 .f32 :=
  VO1_2.read (Elt F) (VO1_2.writes (Elt F) VO1_2.junk (kernelRun1_B c i arg2 harg2 arg3 harg3 arg4 harg4 arg5 harg5 hc0 hc1 x0 x1 xs0).1)

/-- Its one store into the accumulator is a whole-buffer store. -/
theorem scover1_B_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) (y : S2048x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x128.size (by sl_kernel_rfl) y

/-- The accumulator after a middle edge block: what it held (`xs0`) plus the block's product. -/
def sout1_B_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 hc0 hc1 x0 x1 xs0).2.1)

/-- The last edge block's copy-out is a whole-buffer store into the output window's staging buffer. -/
theorem cover1_C_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) (y : S2048x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x128.size (by sl_kernel_rfl) y

/-- The output window's staging buffer after the last edge block: the finished sum over the 500 edge blocks. -/
def out1_C_2 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) : Vec F S2048x128 .f32 :=
  VO1_2.read (Elt F) (VO1_2.writes (Elt F) VO1_2.junk (kernelRun1_C c i arg2 harg2 arg3 harg3 arg4 harg4 arg5 harg5 hc0 hc1 x0 x1 xs0).1)

/-- The last edge block's store into the accumulator is a whole-buffer store. -/
theorem scover1_C_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) (y : S2048x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x128.size (by sl_kernel_rfl) y

/-- The accumulator after the last edge block: what it held plus the block's product (the finished sum). -/
def sout1_C_0 (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 hc0 hc1 x0 x1 xs0).2.1)

section Entry
-- the contents of the core's buffers when the scatter region is entered: a parameter
variable (V : (c : Dev nD) → (b : Ref sig .tc) → Buf (Elt F) ((c : Thread nD τ).loc b))

/-! ## The accumulation, point by point -/

/-- After the body at position `n`: (the output window's staging buffer, the accumulator). By recursion on `n`: a point
    divisible by 500 starts a node block (the accumulator is rebuilt from zero: nothing of the point before is read);
    any other point adds its edge block's product to the accumulator the point before left; a point congruent to 499
    also copies the result to the output window. -/
def outsAt1 (c : Dev nD) : (n : ℕ) → n < cfg1.N → Vec F S2048x128 .f32 × Vec F S2048x128 .f32
  | 0, hn =>
    have h0 : (0 : ℕ) % 500 = 0 := Nat.zero_mod _
    have h1 : ¬(0 : ℕ) % 500 = 499 := by omega
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩))
  | n + 1, hn =>
    if h0 : (n + 1) % 500 = 0 then
      have h1 : ¬(n + 1) % 500 = 499 := by omega
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 500 = 499 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At the first edge block of a node block. -/
theorem outsAt1_A (c : Dev nD) (t : Fin cfg1.N) (h0 : t.val % 500 = 0) (h1 : ¬t.val % 500 = 499) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle edge block: over what the point before left in the accumulator. -/
theorem outsAt1_B (c : Dev nD) (t : Fin cfg1.N) (h0 : ¬t.val % 500 = 0) (h1 : ¬t.val % 500 = 499) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At the last edge block: over what the point before left in the accumulator. -/
theorem outsAt1_C (c : Dev nD) (t : Fin cfg1.N) (h0 : ¬t.val % 500 = 0) (h1 : t.val % 500 = 499) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- Before position `n`: at the start what the launch hands the region (the accumulator at anything); afterwards the
    same with the accumulator at what point `n - 1` left in it. -/
def PhiS1 (c : Dev nD) : (n : ℕ) → n ≤ cfg1.N → sProp 𝕄
  | 0, _ => Pipeline.ΦA spec1 c
  | n + 1, hn => PhiWith1 c (owns (c : Thread nD τ) scM1_0 fullShare (outsAt1 V c n hn).2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith1 c (owns (c : Thread nD τ) scM1_0 fullShare (outsAt1 V c n hn).2) := rfl

theorem PhiS1_pos (c : Dev nD) (n : ℕ) (h : n ≤ cfg1.N) (hz : n ≠ 0) :
    PhiS1 V c n h = PhiWith1 c (owns (c : Thread nD τ) scM1_0 fullShare (outsAt1 V c (n - 1) (by omega)).2) := by
  cases n with
  | zero => exact absurd rfl hz
  | succ n => rfl

/-! ## The proof data -/

/-- The scatter pipeline's proof data on core `c`: the arrays at the entry contents; after the body at point `t` the
    two inputs' buffers at their blocks (destination indices, messages) and the output window's at the first component
    of `outsAt1`; the invariant `PhiS1`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- The inputs' staging buffers hold their blocks at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body must return of the inputs' buffers: the blocks, untouched. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The position modulo 500 says which case the point is in. The inputs' buffers hold their
    blocks; the invariant hands over the accumulator — at anything at the very first point, at what the point before
    left otherwise (the first edge block of a later node block forgets it) — and takes it back at this point's
    contents, its stores covering it; the output window's buffer goes back untouched except at the last edge block,
    where the copy-out covers it. Nothing is owed throughout. -/
theorem sound_body1 (c : Dev nD) (t : Fin cfg1.N) :
    bodyPre1 V c t ⊢ wp frame (wpE (defs₀ (F := F)) Variants.none c none) Set.univ (kbodyAt1 t) (fun _ => bodyPost1 V c t) := by
  unfold bodyPre1 bodyPost1 kbodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 24500 := lt_of_lt_of_eq t.isLt (show cfg1.N = 24500 from N_1)
  by_cases h0 : t.val % 500 = 0
  · have h1 : ¬t.val % 500 = 499 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    ·
        rw [PhiS1_castSucc V c t, PhiS1_zero V c _ _ hz, PhiA1_eq]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR]
        · iapply PhiWith1_intro
          isplitl [HS0]
          · unfold owns; iexists _; isplitr
            swap; · iexact HS0
            ipureintro; exact View.read_writes_of_cover _ _ _ _ _ (scover1_A_0 c _ _ _ _ _ _ _ _ _ _ _ _ _)
          iexact HR
        isplitl [Ho]; · iexact Ho
        isplitl [H0]; · iexact H0
        isplitl [H1]; · iexact H1
        iexists _; iexact H2
    ·
        rw [PhiS1_castSucc V c t, PhiS1_pos V c _ _ hz]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR]
        · iapply PhiWith1_intro
          isplitl [HS0]
          · unfold owns; iexists _; isplitr
            swap; · iexact HS0
            ipureintro; exact View.read_writes_of_cover _ _ _ _ _ (scover1_A_0 c _ _ _ _ _ _ _ _ _ _ _ _ _)
          iexact HR
        isplitl [Ho]; · iexact Ho
        isplitl [H0]; · iexact H0
        isplitl [H1]; · iexact H1
        iexists _; iexact H2
  · have hz : t.val ≠ 0 := fun e => h0 (by rw [e])
    by_cases h1 : t.val % 500 = 499
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      ·
        rw [PhiS1_castSucc V c t, PhiS1_pos V c _ _ hz]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR]
        · iapply PhiWith1_intro
          isplitl [HS0]
          · unfold owns; iexists _; isplitr
            swap; · iexact HS0
            ipureintro; exact View.read_writes_of_cover _ _ _ _ _ (scover1_C_0 c _ _ _ _ _ _ _ _ _ _ _ _ _ _)
          iexact HR
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      ·
        rw [PhiS1_castSucc V c t, PhiS1_pos V c _ _ hz]
        iintro ⟨HΦ, Ho, ⟨%d0, H0⟩, ⟨%d1, H1⟩, ⟨%d2, H2⟩⟩
        ihave HΦ' := PhiWith1_elim c _ $$ HΦ
        icases HΦ' with ⟨HS0, HR⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR]
        · iapply PhiWith1_intro
          isplitl [HS0]
          · unfold owns; iexists _; isplitr
            swap; · iexact HS0
            ipureintro; exact View.read_writes_of_cover _ _ _ _ _ (scover1_B_0 c _ _ _ _ _ _ _ _ _ _ _ _ _ _)
          iexact HR
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine PhiWith1_mono c ?_
  iintro H; iexists _; iexact H

/-- In particular after the last point. -/
theorem hout1 (c : Dev nD) : (dat1 V c).Φ (Fin.last cfg1.N) ⊢ Pipeline.ΦA spec1 c :=
  Phi_out1 V c _ (by rw [Fin.val_last]; have : cfg1.N = 24500 := N_1; omega)

end Entry

end Cert.KernelIdeal.Hand

end
-- ==== Proof.KiRun.lean ====
/-
  The run of the whole program: the host operations before, between and after the two kernel regions, each region
  entered from what the stretch before it left. The buffers' contents at every boundary are one fold from the
  launch memory: a host stretch applies its operations; a region leaves each of its arrays at what its write-backs
  amount to and every other buffer as it found it. Every execution terminates with every unscoped buffer at the
  fold's last stage; the argument arrays are written by no stretch and are no region's output, so they end as
  launched.
-/
import proofs.«420466_j23716809408972_1_alg».proof.Proof.Gen.KernelIdeal.Regions
import proofs.«420466_j23716809408972_1_alg».proof.Proof.KiR0Frame
import proofs.«420466_j23716809408972_1_alg».proof.Proof.KiR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the gather region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gather region: its arrays at what the write-backs leave, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the scatter region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the scatter region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the program ends with. -/
abbrev W5 : Dev nD → Valuation τ sig (Elt F) := fun c => StableHlo.after hostOps2 (W4 m ρ c)

/-- A buffer that no host stretch writes and that is no array of either region ends as launched. -/
theorem W5_kept (c : Dev nD) (b : Ref sig .tc) (h0 : b ∉ hostOps0_W) (h1 : b ∉ hostOps1_W) (h2 : b ∉ hostOps2_W)
    (ha0 : ∀ w, Pipeline.arrRef spec0 w ≠ b) (ha1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b ha1
    _ = W2 m ρ c (Proc.devRef .tc b) := StableHlo.after_of_writes_sub hostOps1 _ hostOps1_writes h1
    _ = W1 m ρ c (Proc.devRef .tc b) := W2_of_ne m ρ c b ha0
    _ = W0 m ρ c (Proc.devRef .tc b) := StableHlo.after_of_writes_sub hostOps0 _ hostOps0_writes h0
    _ = m ((c : Thread nD τ).loc b) := rfl

theorem W5_main_arg0 (c : Dev nD) : W5 m ρ c (Proc.devRef .tc main_arg0) = m ((c : Thread nD τ).loc main_arg0) :=
  W5_kept m ρ c main_arg0 (by decide) (by decide) (by decide) (by decide) (by decide)
theorem W5_main_arg1 (c : Dev nD) : W5 m ρ c (Proc.devRef .tc main_arg1) = m ((c : Thread nD τ).loc main_arg1) :=
  W5_kept m ρ c main_arg1 (by decide) (by decide) (by decide) (by decide) (by decide)
theorem W5_main_arg2 (c : Dev nD) : W5 m ρ c (Proc.devRef .tc main_arg2) = m ((c : Thread nD τ).loc main_arg2) :=
  W5_kept m ρ c main_arg2 (by decide) (by decide) (by decide) (by decide) (by decide)
theorem W5_main_arg3 (c : Dev nD) : W5 m ρ c (Proc.devRef .tc main_arg3) = m ((c : Thread nD τ).loc main_arg3) :=
  W5_kept m ρ c main_arg3 (by decide) (by decide) (by decide) (by decide) (by decide)

/-! ## The proof data family and the thread state -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The gather region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter region over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution from memory m with zero counters terminates, nothing faulting, and every final
    state holds every unscoped buffer at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

/-- The same run read at the result buffer and the arguments. -/
theorem run_result : θ_run defs (onTc (τ := τ) (main (F := F))) ⟨m, fun _ => 0, ρ⟩ (fun r => ∀ c : Dev nD,
      r.2.mem ((c.tc : Thread nD τ).loc main_v27) = W5 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v27 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.KSpec.lean ====
/-
  What the two kernels compute, block by block, as plain sums over the extended reals. A word `w` "names" node
  `n` when its unsigned value is `n`; the indicator of that is `oh w n`. The first kernel forms, for every edge
  `e` and column `d`, the sum over the 49 node blocks of 2048 rows of indicator × padded feature row; the second,
  for every (padded) node `n` and column `d`, the sum over the 500 edge blocks of 3200 edges of indicator ×
  message. Arrays are read through total accessors on `ℕ` (zero outside the array) so that blocked sums can be
  stated over `Finset.range`.
-/
import Idealize.ShloMosaic.PureOps.Ideal
import Idealize.ShloMosaic.Lib.ValueIdx

noncomputable section

namespace Cert.KSpec

open Idealize.ShloMosaic Idealize.ShloMosaic.ValueIdx
open scoped BigOperators

/-- The indicator that the word `w`, read unsigned, is the number `n`. -/
def oh (w : BitVec 32) (n : ℕ) : EReal := if w.toNat = n then 1 else 0

/-- Row `n`, column `d` of the padded feature table; zero past its end. -/
def hpAt (hp : (⟨2, ![100352, 128]⟩ : Shape).Idx → EReal) (n : ℕ) (d : Fin 128) : EReal :=
  if h : n < 100352 then hp (ix2 ⟨n, h⟩ d) else 0

/-- The messages: edge `e`'s row is the sum, over node blocks `k` and rows `r` of the block, of the indicator
    that the edge's source word names node `2048 k + r` times that node's padded feature row. -/
def msgs (idx : (⟨2, ![1600000, 1]⟩ : Shape).Idx → BitVec 32) (hp : (⟨2, ![100352, 128]⟩ : Shape).Idx → EReal) :
    (⟨2, ![1600000, 128]⟩ : Shape).Idx → EReal :=
  fun j => ∑ k ∈ Finset.range 49, ∑ r : Fin 2048, oh (idx (ix2 (j 0) 0)) (k * 2048 + r.val) * hpAt hp (k * 2048 + r.val) (j 1)

/-- Edge `e`'s destination word; the zero word past the end of the list. -/
def dstAt (idx : (⟨2, ![1, 1600000]⟩ : Shape).Idx → BitVec 32) (e : ℕ) : BitVec 32 :=
  if h : e < 1600000 then idx (ix2 0 ⟨e, h⟩) else 0

/-- Edge `e`'s message in column `d`; zero past the end of the list. -/
def msgAt (msg : (⟨2, ![1600000, 128]⟩ : Shape).Idx → EReal) (e : ℕ) (d : Fin 128) : EReal :=
  if h : e < 1600000 then msg (ix2 ⟨e, h⟩ d) else 0

/-- The aggregate over the padded node range: node `n`'s row is the sum, over edge blocks `i` and edges `r` of
    the block, of the indicator that edge `3200 i + r`'s destination word names `n` times that edge's message. -/
def agg (idx : (⟨2, ![1, 1600000]⟩ : Shape).Idx → BitVec 32) (msg : (⟨2, ![1600000, 128]⟩ : Shape).Idx → EReal) :
    (⟨2, ![100352, 128]⟩ : Shape).Idx → EReal :=
  fun j => ∑ i ∈ Finset.range 500, ∑ r : Fin 3200, oh (dstAt idx (i * 3200 + r.val)) (j 0).val * msgAt msg (i * 3200 + r.val) (j 1)

end Cert.KSpec

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KiV0Pay.lean ====
/-
  The values the gather body stores, read at an index of the ideal instance (a float is an extended real).

  The reset stores the zero block. The update stores, at row r and column d, the accumulator's entry plus the sum
  over the 2048 lanes q of the block of [the row's source word names node 2048·k + q] times the feature block's
  entry (q, d), where k is the node-block coordinate of the grid point. The write-back stores the accumulator
  unchanged (a narrowing of formats is the identity on extended reals).
-/
import proofs.«420466_j23716809408972_1_alg».proof.Proof.Gen.KernelIdeal.Skeleton
import proofs.«420466_j23716809408972_1_alg».proof.Proof.KSpec
import proofs.«420466_j23716809408972_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Idealize.SL.Sem Cert.KernelIdeal Cert.KernelIdeal.Gen
open scoped BigOperators

/-- The word 2048·k + q, formed in 32-bit arithmetic, has the value 2048·k + q when k < 49: nothing wraps. -/
theorem node_word_toNat (k : ℕ) (hk : k < 49) (q : Fin 2048) :
    (IntOp.addi (Scalar.muli (BitVec.ofNat 32 k) 2048#32) (BitVec.ofNat 32 q.val)).toNat = k * 2048 + q.val := by
  show (BitVec.ofNat 32 k * 2048#32 + BitVec.ofNat 32 q.val).toNat = _
  rw [BitVec.toNat_add, BitVec.toNat_mul, BitVec.toNat_ofNat, BitVec.toNat_ofNat, BitVec.toNat_ofNat]
  have := q.isLt
  omega

/-- The comparison bit of two words, widened to 32 bits and converted to a float, is the indicator that the first
    word names the second's value. -/
theorem indicator_eq (w x : BitVec 32) (n : ℕ) (hx : x.toNat = n) :
    FloatOps.sitofp (F := Ideal) .f32 ((IntOp.cmpi .eq w x).setWidth 32) = Cert.KSpec.oh w n := by
  unfold Cert.KSpec.oh
  show ((((BitVec.ofBool (w == x)).setWidth 32).toInt : ℝ) : EReal) = _
  by_cases h : w = x
  · subst h
    rw [if_pos hx, beq_self_eq_true]
    have : ((BitVec.ofBool true).setWidth 32).toInt = 1 := by decide
    rw [this]; norm_num
  · have hne : ¬ w.toNat = n := fun e => h (BitVec.eq_of_toNat_eq (e.trans hx.symm))
    rw [if_neg hne, beq_eq_false_iff_ne.mpr h]
    have : ((BitVec.ofBool false).setWidth 32).toInt = 0 := by decide
    rw [this]; norm_num

/-- The reset's block is zero everywhere. -/
theorem pay1_apply (r : Fin 3200) (d : Fin 128) : k0_pay1 (F := Ideal) (ix2 r d) = 0 := by
  unfold k0_pay1
  rw [shapeCast_self]
  exact Ideal.ofBits_zero_f32

/-- The write-back's block is the accumulator. -/
theorem pay3_apply (v26 : Vec Ideal S3200x128 .f32) (r : Fin 3200) (d : Fin 128) :
    k0_pay3 (F := Ideal) v26 (ix2 r d) = v26 (ix2 r d) := rfl

/-- The update's block at (r, d): the accumulator's entry plus the indicator-weighted sum over the lanes. -/
theorem pay2_apply (i : grid0.Coords) (v7 : Vec Ideal S3200x1 .i32) (v15 : Vec Ideal S3200x128 .f32)
    (v16 : Vec Ideal S2048x128 .bf16) (r : Fin 3200) (d : Fin 128) :
    k0_pay2 (F := Ideal) i v7 v15 v16 (ix2 r d)
      = v15 (ix2 r d) + ∑ q : Fin 2048, Cert.KSpec.oh (v7 (ix2 r 0)) ((i 1).val * 2048 + q.val) * v16 (ix2 q d) := by
  have hk : (i 1).val < 49 := (i 1).isLt
  unfold k0_pay2
  dsimp only
  rw [shapeCast_self, shapeCast_self, shapeCast_self, addf_apply]
  refine congrArg (v15 (ix2 r d) + ·) ?_
  show FloatOps.matmul dot_S3200x2048_S2048x128_S3200x128_1_0_0_1_n_n none _ _ _ (ix2 r d) = _
  rw [Cert.LibDot.matmul_rows_apply _ rfl rfl rfl rfl rfl rfl, constant_apply, Ideal.ofBits_zero_f32, zero_add]
  refine Finset.sum_congr rfl fun q _ => ?_
  refine congrArg (· * v16 (ix2 q d)) ?_
  rw [truncf_apply, sitofp_apply, extui_apply]
  show FloatOps.sitofp (F := Ideal) .f32 ((IntOp.cmpi .eq _ _).setWidth 32) = _
  rw [broadcastTo_apply v7 _ (ix2 r q) (ix2 r 0) (fun a => by match a with | ⟨0, _⟩ => rfl | ⟨1, _⟩ => rfl),
    broadcastTo_apply _ _ (ix2 r q) (ix2 (0 : Fin 1) q) (fun a => by match a with | ⟨0, _⟩ => rfl | ⟨1, _⟩ => rfl)]
  refine indicator_eq _ _ _ ?_
  show (IntOp.addi (Scalar.muli (BitVec.ofNat 32 (i 1).val) 2048#32) (iota .tc S1x2048 32 [1] iota_S1x2048_d1_w32 (ix2 (0 : Fin 1) q))).toNat = _
  rw [iota_single_apply]
  exact node_word_toNat (i 1).val hk q

end Cert.KernelIdeal.Hand

end
-- ==== Proof.KiV0Idx.lean ====
/-
  The gather region's grid, by arithmetic. Its 24500 points, in the order they are run, are the pairs
  (edge block, node block) = (t / 49, t % 49). At point t the edge-index window and the message window sit
  on block t / 49 of their arrays' rows and the node-table window on block t % 49; none moves along columns.
  An index of the message array lies in point t's block exactly when its row is one of the 3200 rows of
  block t / 49; row ρ is written back by the last point of run ρ / 3200.
-/
import proofs.«420466_j23716809408972_1_alg».proof.Proof.KiGrid
import Idealize.ShloMosaic.Lib.Pipeline.Value

noncomputable section

open Cert.KernelIdeal.Gen

namespace Cert.KernelIdeal.Hand

open Cert.KernelIdeal
open Idealize.ShloMosaic Idealize.ShloMosaic.TcCoe Idealize.SL.Sem

/-- A point's number is below 24500. -/
theorem pt0_lt (t : Fin cfg0.N) : t.val < 24500 := lt_of_lt_of_eq t.isLt N_0

/-- The edge-index window at point t: block t / 49 along rows, block 0 along its one column. -/
theorem index0_0 (t : Fin cfg0.N) : win0_0.index t (0 : Fin 2) = t.val / 49 ∧ win0_0.index t (1 : Fin 2) = 0 := by
  have hN := pt0_lt t
  refine ⟨?_, rfl⟩
  show (BitVec.ofNat 32 (grid0.coords t 0).val).toNat = _
  rw [BitVec.toNat_ofNat, coords0_0]
  omega

/-- The node-table window at point t: block t % 49 along rows, block 0 along columns. -/
theorem index0_1 (t : Fin cfg0.N) : win0_1.index t (0 : Fin 2) = t.val % 49 ∧ win0_1.index t (1 : Fin 2) = 0 := by
  refine ⟨?_, rfl⟩
  show (BitVec.ofNat 32 (grid0.coords t 1).val).toNat = _
  rw [BitVec.toNat_ofNat, coords0_1]
  omega

/-- The message window at point t: block t / 49 along rows, block 0 along columns. -/
theorem index0_2 (t : Fin cfg0.N) : win0_2.index t (0 : Fin 2) = t.val / 49 ∧ win0_2.index t (1 : Fin 2) = 0 := by
  have hN := pt0_lt t
  refine ⟨?_, rfl⟩
  show (BitVec.ofNat 32 (grid0.coords t 0).val).toNat = _
  rw [BitVec.toNat_ofNat, coords0_0]
  omega

/-- The message window is written back exactly at the last point of each run. -/
theorem flush0_2 (t : Fin cfg0.N) : (cfg0.win 2).flush t = true ↔ t.val % 49 = 48 := by
  have hN := pt0_lt t
  constructor
  · intro hf
    refine Decidable.byContradiction fun h => ?_
    rw [noFlush0_2 t h] at hf
    exact Bool.false_ne_true hf
  · intro h
    show (win0_2.isOut && (decide (t.val + 1 = grid0.N)
      || decide (∃ h1 : t.val + 1 < grid0.N, win0_2.index ⟨t.val + 1, h1⟩ ≠ win0_2.index t))) = true
    by_cases hl : t.val + 1 = grid0.N
    · rw [decide_eq_true hl]; rfl
    · have h1 : t.val + 1 < grid0.N := by rw [N_0] at hl ⊢; omega
      have hne : win0_2.index ⟨t.val + 1, h1⟩ ≠ win0_2.index t := fun e => by
        have e0 := congrFun e (0 : Fin 2)
        rw [(index0_2 ⟨t.val + 1, h1⟩).1, (index0_2 t).1] at e0
        have e1 : (t.val + 1) / 49 = t.val / 49 := e0
        omega
      rw [decide_eq_true (⟨h1, hne⟩ : ∃ h1 : t.val + 1 < grid0.N, win0_2.index ⟨t.val + 1, h1⟩ ≠ win0_2.index t), Bool.or_true]; rfl

/-- An index of the message array is in point t's block iff each coordinate is in the block's range on its axis. -/
theorem mem_blk0_2 (t : Fin cfg0.N) (i : S1600000x128.Idx) :
    i ∈ ((cfg0.win 2).blk t).view.set ↔ ∀ a : Fin 2, win0_2.index t a * S3200x128.size a ≤ (i a).val ∧ (i a).val < win0_2.index t a * S3200x128.size a + S3200x128.size a := by
  show i ∈ ((View.whole main_v15).slice (win0_2.rect t)).set ↔ _
  rw [View.set_slice_whole, Rect.mem_set_unit]
  exact Iff.rfl

/-- The last point of the run of edge block b. -/
def lastPt0 (b : ℕ) (hb : b < 500) : Fin cfg0.N := ⟨b * 49 + 48, lt_of_lt_of_eq (by omega) N_0.symm⟩

/-- Every index of the message array is in the block of the last point of its row's run. -/
theorem mem_lastPt0 (i : S1600000x128.Idx) (hb : (i 0).val / 3200 < 500) :
    i ∈ ((cfg0.win 2).blk (lastPt0 ((i 0).val / 3200) hb)).view.set := by
  rw [mem_blk0_2]
  obtain ⟨e0, e1⟩ := index0_2 (lastPt0 ((i 0).val / 3200) hb)
  have hv : (lastPt0 ((i 0).val / 3200) hb).val = (i 0).val / 3200 * 49 + 48 := rfl
  have h1 : (i 1).val < 128 := (i 1).isLt
  intro a
  match a with
  | ⟨0, _⟩ =>
    show win0_2.index (lastPt0 ((i 0).val / 3200) hb) (0 : Fin 2) * 3200 ≤ (i 0).val ∧ (i 0).val < win0_2.index (lastPt0 ((i 0).val / 3200) hb) (0 : Fin 2) * 3200 + 3200
    rw [e0, hv]; omega
  | ⟨1, _⟩ =>
    show win0_2.index (lastPt0 ((i 0).val / 3200) hb) (1 : Fin 2) * 128 ≤ (i 1).val ∧ (i 1).val < win0_2.index (lastPt0 ((i 0).val / 3200) hb) (1 : Fin 2) * 128 + 128
    rw [e1]; omega

end Cert.KernelIdeal.Hand

end
-- ==== Proof.KiV0.lean ====
/-
  What the gather region leaves in the message array, at the ideal instance (a float is an extended real).

  Along the run of edge block b (the 49 points 49 b … 49 b + 48) the accumulator collects, node block by node
  block, for each of the block's 3200 edges e and each column d, the sum over the node block's 2048 rows q of
  [the edge's source word names node 2048 k + q] times the padded feature table's entry (2048 k + q, d): after
  the point with node block k it holds the sum over the node blocks 0 … k. The run's last point writes the
  accumulator, unchanged, into the message window, and the pipeline writes the window back to rows
  3200 b … 3200 b + 3199 of the message array. The 500 runs' blocks tile the array, so the array ends holding
  the blocked sum over all 49 node blocks at every index.
-/
import proofs.«420466_j23716809408972_1_alg».proof.Proof.KiR0Frame
import proofs.«420466_j23716809408972_1_alg».proof.Proof.KiV0Pay
import proofs.«420466_j23716809408972_1_alg».proof.Proof.KiV0Idx
import Idealize.ShloMosaic.Lib.Pipeline.Value
import Idealize.ShloMosaic.Lib.Tactic

set_option maxRecDepth 16384

noncomputable section

open Cert.KernelIdeal.Gen

namespace Cert.KernelIdeal.Hand

open Idealize.ShloMosaic Idealize.ShloMosaic.TcCoe Idealize.ShloMosaic.Tactic Idealize.ShloMosaic.ValueIdx
open Idealize.SL.Sem
open Idealize.ShloMosaic.Pipeline (Dat)
open scoped BigOperators

theorem hz0 : (![0, 0] : Fin 2 → Nat) = fun _ => 0 := funext fun a => by fin_cases a <;> rfl

/-! ## What each kind of point stores, as the body's payloads -/

section Pieces

variable {F : FTy → Type} [FloatOps F]

/-- An interior point of a run leaves in the accumulator the update of what it found there. -/
theorem sout0_B_eq (c : Dev nD) (i : grid0.Coords) (a2 : Memref sig .tc .vmem S3200x1 .i32) (h2 : a2.IsWhole) (a3 : Memref sig .tc .vmem S2048x128 .bf16) (h3 : a3.IsWhole) (a4 : Memref sig .tc .vmem S3200x128 .bf16) (h4 : a4.IsWhole) (a5 : Memref sig .tc .vmem S3200x128 .f32) (h5 : a5.IsWhole) (hc0 : ¬cond0_0 i) (hc1 : ¬cond0_1 i)
    (x0 : Vec F S3200x1 .i32) (x1 : Vec F S2048x128 .bf16) (xs : Vec F S3200x128 .f32) :
    sout0_B_0 c i a2 h2 a3 h3 a4 h4 a5 h5 hc0 hc1 x0 x1 xs = k0_pay2 i x0 xs x1 := by
  unfold sout0_B_0
  rw [View.read_writes_eq_canon _ _ _ (scover0_B_0 c i a2 h2 a3 h3 a4 h4 a5 h5 hc0 hc1 x0 x1 xs)]
  unfold kernelRun0_B
  dsimp only
  try sl_unfold_words
  rw [View.canon_unit_zero hz0]
  simp only [View.readAt_eq_ld, h2.read_unread, h3.read_unread, h4.read_unread, h5.read_unread, View.ld_unit_zero (S := S3200x1) hz0, View.ld_unit_zero (S := S2048x128) hz0, View.ld_unit_zero (S := S3200x128) hz0]

/-- A run's last point leaves in the accumulator the update of what it found there, -/
theorem sout0_C_eq (c : Dev nD) (i : grid0.Coords) (a2 : Memref sig .tc .vmem S3200x1 .i32) (h2 : a2.IsWhole) (a3 : Memref sig .tc .vmem S2048x128 .bf16) (h3 : a3.IsWhole) (a4 : Memref sig .tc .vmem S3200x128 .bf16) (h4 : a4.IsWhole) (a5 : Memref sig .tc .vmem S3200x128 .f32) (h5 : a5.IsWhole) (hc0 : ¬cond0_0 i) (hc1 : cond0_1 i)
    (x0 : Vec F S3200x1 .i32) (x1 : Vec F S2048x128 .bf16) (xs : Vec F S3200x128 .f32) :
    sout0_C_0 c i a2 h2 a3 h3 a4 h4 a5 h5 hc0 hc1 x0 x1 xs = k0_pay2 i x0 xs x1 := by
  unfold sout0_C_0
  rw [View.read_writes_eq_canon _ _ _ (scover0_C_0 c i a2 h2 a3 h3 a4 h4 a5 h5 hc0 hc1 x0 x1 xs)]
  unfold kernelRun0_C
  dsimp only
  try sl_unfold_words
  rw [View.canon_unit_zero hz0]
  simp only [View.readAt_eq_ld, h2.read_unread, h3.read_unread, h4.read_unread, h5.read_unread, View.ld_unit_zero (S := S3200x1) hz0, View.ld_unit_zero (S := S2048x128) hz0, View.ld_unit_zero (S := S3200x128) hz0]

/-- and in the message window that update, narrowed. -/
theorem out0_C_eq (c : Dev nD) (i : grid0.Coords) (a2 : Memref sig .tc .vmem S3200x1 .i32) (h2 : a2.IsWhole) (a3 : Memref sig .tc .vmem S2048x128 .bf16) (h3 : a3.IsWhole) (a4 : Memref sig .tc .vmem S3200x128 .bf16) (h4 : a4.IsWhole) (a5 : Memref sig .tc .vmem S3200x128 .f32) (h5 : a5.IsWhole) (hc0 : ¬cond0_0 i) (hc1 : cond0_1 i)
    (x0 : Vec F S3200x1 .i32) (x1 : Vec F S2048x128 .bf16) (xs : Vec F S3200x128 .f32) :
    out0_C_2 c i a2 h2 a3 h3 a4 h4 a5 h5 hc0 hc1 x0 x1 xs = k0_pay3 (k0_pay2 i x0 xs x1) := by
  unfold out0_C_2
  rw [View.read_writes_eq_canon _ _ _ (cover0_C_2 c i a2 h2 a3 h3 a4 h4 a5 h5 hc0 hc1 x0 x1 xs)]
  unfold kernelRun0_C
  dsimp only
  try sl_unfold_words
  rw [View.canon_unit_zero hz0]
  simp only [View.readAt_eq_ld, h2.read_unread, h3.read_unread, h4.read_unread, h5.read_unread, View.ld_unit_zero (S := S3200x1) hz0, View.ld_unit_zero (S := S2048x128) hz0, View.ld_unit_zero (S := S3200x128) hz0]
  rw [View.readCov_unit_zero (S := S3200x128) _ hz0]

/-- A run's first point leaves in the accumulator the update of the zero block. -/
theorem sout0_A_eq (c : Dev nD) (i : grid0.Coords) (a2 : Memref sig .tc .vmem S3200x1 .i32) (h2 : a2.IsWhole) (a3 : Memref sig .tc .vmem S2048x128 .bf16) (h3 : a3.IsWhole) (a4 : Memref sig .tc .vmem S3200x128 .bf16) (h4 : a4.IsWhole) (a5 : Memref sig .tc .vmem S3200x128 .f32) (h5 : a5.IsWhole) (hc0 : cond0_0 i) (hc1 : ¬cond0_1 i)
    (x0 : Vec F S3200x1 .i32) (x1 : Vec F S2048x128 .bf16) :
    sout0_A_0 c i a2 h2 a3 h3 a4 h4 a5 h5 hc0 hc1 x0 x1 = k0_pay2 i x0 (k0_pay1 (F := F)) x1 := by
  unfold sout0_A_0
  rw [View.read_writes_eq_canon _ _ _ (scover0_A_0 c i a2 h2 a3 h3 a4 h4 a5 h5 hc0 hc1 x0 x1)]
  unfold kernelRun0_A
  dsimp only
  try sl_unfold_words
  rw [View.canon_cons_unit_zero (S := S3200x128) hz0]
  simp only [View.readAt_eq_ld, h2.read_unread, h3.read_unread, h4.read_unread, h5.read_unread, View.ld_unit_zero (S := S3200x1) hz0, View.ld_unit_zero (S := S2048x128) hz0, View.ld_unit_zero (S := S3200x128) hz0, View.readCov_unit_zero (S := S3200x128) _ hz0]

end Pieces

/-! ## The partial sums -/

/-- The share of the first `n` node blocks in edge `e`'s message, column `d`. -/
def part (idx : S1600000x1.Idx → BitVec 32) (hp : S100352x128.Idx → EReal) (n : ℕ) (e : Fin 1600000) (d : Fin 128) : EReal :=
  ∑ k ∈ Finset.range n, ∑ q : Fin 2048, Cert.KSpec.oh (idx (ix2 e 0)) (k * 2048 + q.val) * Cert.KSpec.hpAt hp (k * 2048 + q.val) d

theorem part_zero (idx : S1600000x1.Idx → BitVec 32) (hp : S100352x128.Idx → EReal) (e : Fin 1600000) (d : Fin 128) :
    part idx hp 0 e d = 0 := by
  unfold part; rw [Finset.range_zero, Finset.sum_empty]

theorem part_succ (idx : S1600000x1.Idx → BitVec 32) (hp : S100352x128.Idx → EReal) (n : ℕ) (e : Fin 1600000) (d : Fin 128) :
    part idx hp (n + 1) e d
      = part idx hp n e d + ∑ q : Fin 2048, Cert.KSpec.oh (idx (ix2 e 0)) (n * 2048 + q.val) * Cert.KSpec.hpAt hp (n * 2048 + q.val) d := by
  unfold part; rw [Finset.sum_range_succ]

/-- All 49 node blocks' share is the message. -/
theorem msgs_ix2 (idx : S1600000x1.Idx → BitVec 32) (hp : S100352x128.Idx → EReal) (e : Fin 1600000) (d : Fin 128) :
    Cert.KSpec.msgs idx hp (ix2 e d) = part idx hp 49 e d := rfl

/-- ONE UPDATE: if row `r` of the index block is edge `e`'s source word, the feature block is node block `k` of
    the table, and the accumulator's entry is the first `k` blocks' share, the update's entry is the first
    `k + 1` blocks' share. -/
theorem step_apply (i : grid0.Coords) (x0 : Vec Ideal S3200x1 .i32) (x1 : Vec Ideal S2048x128 .bf16) (xs : Vec Ideal S3200x128 .f32)
    (idx : S1600000x1.Idx → BitVec 32) (hp : S100352x128.Idx → EReal) (k : ℕ) (hk : (i 1).val = k)
    (e : Fin 1600000) (r : Fin 3200) (d : Fin 128)
    (h0 : x0 (ix2 r 0) = idx (ix2 e 0))
    (h1 : ∀ q : Fin 2048, x1 (ix2 q d) = Cert.KSpec.hpAt hp (k * 2048 + q.val) d)
    (hs : xs (ix2 r d) = part idx hp k e d) :
    k0_pay2 (F := Ideal) i x0 xs x1 (ix2 r d) = part idx hp (k + 1) e d := by
  rw [pay2_apply, part_succ, hs, h0, hk]
  exact congrArg (part idx hp k e d + ·) (Finset.sum_congr rfl fun q _ => by rw [h1 q])

/-! ## The blocks, read off the arrays the region finds -/

section Value

-- what every TensorCore buffer holds when the region is entered
variable (V : (c : Dev nD) → (b : Ref sig .tc) → Buf (Elt Ideal) ((c : Thread nD τ).loc b))

/-- The index block and the feature block of point `t`, as vectors of their literal shapes. -/
abbrev blkIdx (c : Dev nD) (t : Fin cfg0.N) : Vec Ideal S3200x1 .i32 := iblk0 V c 0 t
abbrev blkTab (c : Dev nD) (t : Fin cfg0.N) : Vec Ideal S2048x128 .bf16 := iblk0 V c 1 t
/-- The source words as a column, and the padded feature table, as the region finds them. -/
abbrev srcArr (c : Dev nD) : S1600000x1.Idx → BitVec 32 := V c main_v14
abbrev tabArr (c : Dev nD) : S100352x128.Idx → EReal := V c main_v13

/-- Row `r` of point `t`'s index block is the source word of edge 3200 (t / 49) + r. -/
theorem blkIdx_apply (c : Dev nD) (t : Fin cfg0.N) (r : Fin 3200) (e : Fin 1600000) (he : e.val = t.val / 49 * 3200 + r.val) :
    blkIdx V c t (ix2 r 0) = srcArr V c (ix2 e 0) := by
  obtain ⟨e0, e1⟩ := index0_0 t
  show V c main_v14 (((cfg0.win 0).blk t).view.emb (ix2 r 0)) = V c main_v14 (ix2 e 0)
  refine congrArg (V c main_v14) (funext fun a => Fin.ext ?_)
  match a with
  | ⟨0, _⟩ => show win0_0.index t (0 : Fin 2) * 3200 + 1 * r.val = e.val; omega
  | ⟨1, _⟩ => show win0_0.index t (1 : Fin 2) * 1 + 1 * 0 = 0; omega

/-- Entry (q, d) of point `t`'s feature block is the table's entry (2048 (t % 49) + q, d). -/
theorem blkTab_apply (c : Dev nD) (t : Fin cfg0.N) (q : Fin 2048) (d : Fin 128) :
    blkTab V c t (ix2 q d) = Cert.KSpec.hpAt (tabArr V c) (t.val % 49 * 2048 + q.val) d := by
  obtain ⟨e0, e1⟩ := index0_1 t
  have hq : t.val % 49 * 2048 + q.val < 100352 := by have := q.isLt; omega
  unfold Cert.KSpec.hpAt
  rw [dif_pos hq]
  show V c main_v13 (((cfg0.win 1).blk t).view.emb (ix2 q d)) = V c main_v13 (ix2 ⟨t.val % 49 * 2048 + q.val, hq⟩ d)
  refine congrArg (V c main_v13) (funext fun a => Fin.ext ?_)
  match a with
  | ⟨0, _⟩ => show win0_1.index t (0 : Fin 2) * 2048 + 1 * q.val = t.val % 49 * 2048 + q.val; omega
  | ⟨1, _⟩ => show win0_1.index t (1 : Fin 2) * 128 + 1 * d.val = d.val; omega

/-! ## The accumulator along a run -/

/-- THE INVARIANT: after point `n` the accumulator's entry (r, d) is the share of the node blocks 0 … n % 49 in
    the message of edge 3200 (n / 49) + r, column d. By induction on the point. -/
theorem acc0_eq (c : Dev nD) : ∀ (n : ℕ) (hn : n < cfg0.N) (r : Fin 3200) (d : Fin 128) (e : Fin 1600000),
    e.val = n / 49 * 3200 + r.val →
    (outsAt0 V c n hn).2 (ix2 r d) = part (srcArr V c) (tabArr V c) (n % 49 + 1) e d := by
  intro n
  induction n using Nat.strong_induction_on with
  | _ n ih =>
    intro hn r d e he
    have hc : ((grid0.coords ⟨n, hn⟩) 1).val = n % 49 := coords0_1 ⟨n, hn⟩
    by_cases h0 : n % 49 = 0
    · have h1 : ¬n % 49 = 48 := by omega
      have e2 := congrArg Prod.snd (outsAt0_A V c ⟨n, hn⟩ h0 h1)
      rw [show (outsAt0 V c n hn).2 = _ from e2]
      dsimp only
      rw [sout0_A_eq c (grid0.coords ⟨n, hn⟩) _ _ _ _ _ _ _ _ _ _ (blkIdx V c ⟨n, hn⟩) (blkTab V c ⟨n, hn⟩)]
      exact step_apply _ _ _ _ (srcArr V c) (tabArr V c) (n % 49) hc e r d (blkIdx_apply V c ⟨n, hn⟩ r e he)
        (fun q => blkTab_apply V c ⟨n, hn⟩ q d) (by rw [h0, part_zero]; exact pay1_apply r d)
    · have hlt : n - 1 < cfg0.N := Nat.lt_of_le_of_lt (Nat.sub_le _ _) hn
      have ihp : (outsAt0 V c (n - 1) hlt).2 (ix2 r d) = part (srcArr V c) (tabArr V c) (n % 49) e d := by
        have h := ih (n - 1) (by omega) hlt r d e (by omega)
        rw [show (n - 1) % 49 + 1 = n % 49 from by omega] at h
        exact h
      by_cases h1 : n % 49 = 48
      · have e2 := congrArg Prod.snd (outsAt0_C V c ⟨n, hn⟩ h0 h1)
        rw [show (outsAt0 V c n hn).2 = _ from e2]
        dsimp only
        rw [sout0_C_eq c (grid0.coords ⟨n, hn⟩) _ _ _ _ _ _ _ _ _ _ (blkIdx V c ⟨n, hn⟩) (blkTab V c ⟨n, hn⟩)]
        exact step_apply _ _ _ _ (srcArr V c) (tabArr V c) (n % 49) hc e r d (blkIdx_apply V c ⟨n, hn⟩ r e he)
          (fun q => blkTab_apply V c ⟨n, hn⟩ q d) ihp
      · have e2 := congrArg Prod.snd (outsAt0_B V c ⟨n, hn⟩ h0 h1)
        rw [show (outsAt0 V c n hn).2 = _ from e2]
        dsimp only
        rw [sout0_B_eq c (grid0.coords ⟨n, hn⟩) _ _ _ _ _ _ _ _ _ _ (blkIdx V c ⟨n, hn⟩) (blkTab V c ⟨n, hn⟩)]
        exact step_apply _ _ _ _ (srcArr V c) (tabArr V c) (n % 49) hc e r d (blkIdx_apply V c ⟨n, hn⟩ r e he)
          (fun q => blkTab_apply V c ⟨n, hn⟩ q d) ihp

/-! ## The write-backs and the array -/

set_option maxHeartbeats 1000000 in
/-- WHAT A RUN'S LAST POINT WRITES BACK is its block of the messages. -/
theorem flushed0_eq (c : Dev nD) (t : Fin cfg0.N) (hf : (cfg0.win 2).flush t = true) :
    (dat0 V c).flushed 2 t = ((cfg0.win 2).blk t).view.read (Elt Ideal) (Cert.KSpec.msgs (srcArr V c) (tabArr V c)) := by
  have h48 : t.val % 49 = 48 := (flush0_2 t).mp hf
  have h0 : ¬t.val % 49 = 0 := by omega
  have hN := pt0_lt t
  obtain ⟨e0, e1⟩ := index0_2 t
  have hlt : t.val - 1 < cfg0.N := Nat.lt_of_le_of_lt (Nat.sub_le _ _) t.isLt
  show (cfg0.win 2).cut (grid0.coords t) ((dat0 V c).after 2 t) = _
  rw [after0_2]
  have e2 := congrArg Prod.fst (outsAt0_C V c t h0 h48)
  rw [e2]
  dsimp only
  rw [out0_C_eq c (grid0.coords t) _ _ _ _ _ _ _ _ _ _ (blkIdx V c t) (blkTab V c t)]
  funext j
  obtain ⟨r, d, rfl⟩ : ∃ (r : Fin 3200) (d : Fin 128), j = ix2 r d := ⟨j 0, j 1, eq_ix2 j⟩
  have he : t.val / 49 * 3200 + r.val < 1600000 := by have := r.isLt; omega
  show k0_pay3 (k0_pay2 (grid0.coords t) (blkIdx V c t) (outsAt0 V c (t.val - 1) hlt).2 (blkTab V c t)) (ix2 r d)
      = Cert.KSpec.msgs (srcArr V c) (tabArr V c) (((cfg0.win 2).blk t).view.emb (ix2 r d))
  have hj : ((cfg0.win 2).blk t).view.emb (ix2 r d) = (ix2 (⟨t.val / 49 * 3200 + r.val, he⟩ : Fin 1600000) d : S1600000x128.Idx) :=
    funext fun a => Fin.ext (by
      match a with
      | ⟨0, _⟩ => show win0_2.index t (0 : Fin 2) * 3200 + 1 * r.val = t.val / 49 * 3200 + r.val; omega
      | ⟨1, _⟩ => show win0_2.index t (1 : Fin 2) * 128 + 1 * d.val = d.val; omega)
  rw [hj, msgs_ix2, pay3_apply]
  exact step_apply _ _ _ _ (srcArr V c) (tabArr V c) 48 ((coords0_1 t).trans h48) ⟨_, he⟩ r d (blkIdx_apply V c t r ⟨_, he⟩ rfl)
    (fun q => by rw [blkTab_apply V c t q d, h48])
    (by
      have h := acc0_eq V c (t.val - 1) hlt r d ⟨_, he⟩ (by show t.val / 49 * 3200 + r.val = (t.val - 1) / 49 * 3200 + r.val; omega)
      rw [show (t.val - 1) % 49 + 1 = 48 from by omega] at h
      exact h)

/-- Every index of the message array is in the block some run's last point writes back. -/
theorem cover0 (i : S1600000x128.Idx) : ∃ t : Fin cfg0.N, (cfg0.win 2).flush t = true ∧ i ∈ ((cfg0.win 2).blk t).view.set := by
  have h0 : (i 0).val < 1600000 := (i 0).isLt
  have hb : (i 0).val / 3200 < 500 := by omega
  exact ⟨lastPt0 _ hb, (flush0_2 _).mpr (by show ((i 0).val / 3200 * 49 + 48) % 49 = 48; omega), mem_lastPt0 i hb⟩

/-- THE MESSAGE ARRAY WHEN THE REGION ENDS: the blocked sum, over the 49 node blocks, of the indicator that an
    edge's source word names a node times that node's padded feature row, of the arrays the region found. -/
theorem arr0_final (c : Dev nD) :
    (dat0 (F := Ideal) V c).arrAt 2 cfg0.N = Cert.KSpec.msgs (V c main_v14) (V c main_v13) :=
  (dat0 V c).arrAt_eq_of_cover 2 (Cert.KSpec.msgs (srcArr V c) (tabArr V c)) (fun t hf => flushed0_eq V c t hf) cover0

end Value

end Cert.KernelIdeal.Hand

end
-- ==== Proof.KiV1Pay.lean ====
/-
  The two values the second kernel's body stores into its accumulator, read at a row r and a column d, at the
  ideal values. The first is the zero block. The second is the accumulator's entry plus the sum, over the 3200
  edges q of the block, of the indicator that edge q's destination word names node 2048·j + r (j the node
  block's number) times the edge's message in column d: the indicator block is built by comparing a column of
  node numbers with the row of destination words, and the product of the indicator block with the message block
  into a zero accumulator is the plain sum over the contracted axis.
-/
import proofs.«420466_j23716809408972_1_alg».proof.Proof.Gen.KernelIdeal.Skeleton
import proofs.«420466_j23716809408972_1_alg».proof.Proof.KSpec
import proofs.«420466_j23716809408972_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.Scatter

open Idealize.ShloMosaic Idealize.ShloMosaic.ValueIdx Idealize.SL.Sem Cert.KernelIdeal Cert.KernelIdeal.Gen
open scoped BigOperators

/-- A column broadcast along the rows: entry (r, q) is the column's entry r. -/
theorem bcast_col {α : Type} (x : S2048x1.Idx → α) (h : S2048x1.Broadcasts S2048x3200) (r : Fin 2048) (q : Fin 3200) :
    broadcastTo S2048x3200 x h (ix2 r q) = x (ix2 r 0) :=
  broadcastTo_apply x h (ix2 r q) (ix2 r 0) (fun a => by match a with | ⟨0, _⟩ => rfl | ⟨1, _⟩ => rfl)

/-- A row broadcast along the columns: entry (r, q) is the row's entry q. -/
theorem bcast_row {α : Type} (x : S1x3200.Idx → α) (h : S1x3200.Broadcasts S2048x3200) (r : Fin 2048) (q : Fin 3200) :
    broadcastTo S2048x3200 x h (ix2 r q) = x (ix2 0 q) :=
  broadcastTo_apply x h (ix2 r q) (ix2 0 q) (fun a => by match a with | ⟨0, _⟩ => rfl | ⟨1, _⟩ => rfl)

/-- The signed reading of the one-bit comparison of two words, widened to a word, is the indicator of equality. -/
theorem ind_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h; simp [IntOp.cmpi]
  · have hb : (a == b) = false := by simpa using h
    simp [IntOp.cmpi, h, hb]

/-- The node number 2048·k + r as a word does not wrap for k < 49 and r < 2048. -/
theorem node_toNat (k r : ℕ) (hk : k < 49) (hr : r < 2048) :
    (BitVec.ofNat 32 k * 2048#32 + BitVec.ofNat 32 (0 * 2048 + r)).toNat = k * 2048 + r := by
  rw [BitVec.toNat_add, BitVec.toNat_mul, BitVec.toNat_ofNat, BitVec.toNat_ofNat, BitVec.toNat_ofNat]
  omega

theorem pay1_apply (r : Fin 2048) (d : Fin 128) : k1_pay1 (F := Ideal) (ix2 r d) = 0 := by
  unfold k1_pay1
  refine (congrFun (shapeCast_self _ _) (ix2 r d)).trans ?_
  exact Ideal.ofBits_zero_f32

theorem pay2_apply (i : grid1.Coords) (v7 : Vec Ideal S1x3200 .i32) (v15 : Vec Ideal S2048x128 .f32)
    (v16 : Vec Ideal S3200x128 .bf16) (r : Fin 2048) (d : Fin 128) :
    k1_pay2 (F := Ideal) i v7 v15 v16 (ix2 r d)
      = v15 (ix2 r d) + ∑ q : Fin 3200, Cert.KSpec.oh (v7 (ix2 0 q)) ((i 0).val * 2048 + r.val) * v16 (ix2 q d) := by
  unfold k1_pay2
  refine (congrFun (shapeCast_self _ _) (ix2 r d)).trans ?_
  refine congrArg (v15 (ix2 r d) + ·) ?_
  refine (Ideal.matmul_constant_zero_apply _ none _ _ (ix2 r d)).trans ?_
  refine (Cert.LibDot.contr_sum_rows _ rfl rfl rfl rfl rfl rfl _ _ r d).trans ?_
  refine Finset.sum_congr rfl fun q _ => ?_
  refine congrArg₂ (· * ·) ?_ (congrFun (shapeCast_self _ _) (ix2 q d))
  refine (ind_word _ _).trans ?_
  rw [bcast_col, bcast_row, shapeCast_self]
  have hk : (i 0).val < 49 := (i 0).isLt
  have hn := node_toNat (i 0).val r.val hk r.isLt
  unfold Cert.KSpec.oh
  refine if_congr ?_ rfl rfl
  show BitVec.ofNat 32 (i 0).val * 2048#32 + BitVec.ofNat 32 (0 * 2048 + r.val) = v7 (ix2 0 q) ↔ _
  rw [← hn, eq_comm, ← BitVec.toNat_inj]

end Cert.KernelIdeal.Hand.Scatter

end
-- ==== Proof.KiV1Sum.lean ====
/-
  The blocked sums of the second kernel, point by point: the term one edge block contributes to a node's row, the
  partial sum over the edge blocks seen after a grid point, how it grows from one point to the next, and that the
  aggregate at a row is the sum of all 500 block terms.
-/
import proofs.«420466_j23716809408972_1_alg».proof.Proof.KSpec

noncomputable section

namespace Cert.KSpec

open Idealize.ShloMosaic Idealize.ShloMosaic.ValueIdx
open scoped BigOperators

/-- Edge block i's term of node 2048·N + r in column d: the sum over the block's 3200 edges of indicator × message. -/
def blockTerm (idx : (⟨2, ![1, 1600000]⟩ : Shape).Idx → BitVec 32) (msg : (⟨2, ![1600000, 128]⟩ : Shape).Idx → EReal)
    (i N : ℕ) (r : Fin 2048) (d : Fin 128) : EReal :=
  ∑ q : Fin 3200, oh (dstAt idx (i * 3200 + q.val)) (N * 2048 + r.val) * msgAt msg (i * 3200 + q.val) d

/-- The partial blocked sum after grid point n = 500·N + e: edge blocks 0..e. -/
def partSum (idx : (⟨2, ![1, 1600000]⟩ : Shape).Idx → BitVec 32) (msg : (⟨2, ![1600000, 128]⟩ : Shape).Idx → EReal)
    (n : ℕ) (r : Fin 2048) (d : Fin 128) : EReal :=
  ∑ i ∈ Finset.range (n % 500 + 1), blockTerm idx msg i (n / 500) r d

/-- At the first edge block of a node block the partial sum is that block's term alone. -/
theorem partSum_first (idx msg) (n : ℕ) (h0 : n % 500 = 0) (r : Fin 2048) (d : Fin 128) :
    partSum idx msg n r d = blockTerm idx msg (n % 500) (n / 500) r d := by
  unfold partSum
  rw [h0, Finset.sum_range_one]

/-- At a later edge block it is the point before's partial sum plus this block's term. -/
theorem partSum_next (idx msg) (n : ℕ) (h0 : ¬(n + 1) % 500 = 0) (r : Fin 2048) (d : Fin 128) :
    partSum idx msg (n + 1) r d = partSum idx msg n r d + blockTerm idx msg ((n + 1) % 500) ((n + 1) / 500) r d := by
  have e1 : (n + 1) % 500 = n % 500 + 1 := by omega
  have e2 : (n + 1) / 500 = n / 500 := by omega
  unfold partSum
  rw [e2, e1, Finset.sum_range_succ]

/-- At the last edge block it is the whole blocked sum. -/
theorem partSum_last (idx msg) (n : ℕ) (h1 : n % 500 = 499) (r : Fin 2048) (d : Fin 128) :
    partSum idx msg n r d = ∑ i ∈ Finset.range 500, blockTerm idx msg i (n / 500) r d := by
  unfold partSum
  rw [h1]

/-- The aggregate at row 2048·N + r, column d, is the blocked sum of the block terms. -/
theorem agg_apply (idx msg) (k : (⟨2, ![100352, 128]⟩ : Shape).Idx) (N : ℕ) (r : Fin 2048) (d : Fin 128)
    (h0 : (k 0).val = N * 2048 + r.val) (h1 : (k 1).val = d.val) :
    agg idx msg k = ∑ i ∈ Finset.range 500, blockTerm idx msg i N r d := by
  have hd : k 1 = d := Fin.ext h1
  unfold agg blockTerm
  rw [h0, hd]

end Cert.KSpec

end
-- ==== Proof.KiV1.lean ====
/-
  The value of the second kernel call at the ideal values. The accumulator of node block n, after the point of
  edge block e, holds at row r and column d the sum over the edge blocks 0..e and the 3200 edges q of each of the
  indicator that edge 3200·i + q's destination word names node 2048·n + r times that edge's message in column d.
  The first edge block starts the sum from zero, every later one adds its own term to what the point before left,
  and the last one copies the finished sum to the output window, which is written back to rows 2048·n .. 2048·n +
  2047 of the result array. The 49 node blocks tile the 100352 rows, so the result array ends holding the blocked
  sum over all 500 edge blocks at every row.
-/
import proofs.«420466_j23716809408972_1_alg».proof.Proof.KiR1Frame
import proofs.«420466_j23716809408972_1_alg».proof.Proof.KiGrid
import proofs.«420466_j23716809408972_1_alg».proof.Proof.KiV1Pay
import proofs.«420466_j23716809408972_1_alg».proof.Proof.KiV1Sum
import Idealize.ShloMosaic.Lib.Pipeline.Value

set_option maxRecDepth 16384

noncomputable section

namespace Cert.KernelIdeal.Hand.Scatter

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.KSpec
open scoped BigOperators

theorem hz1 : (![0, 0] : Fin 2 → Nat) = fun _ => 0 := funext fun a => by fin_cases a <;> rfl

/-! ## What each case's stores leave, as the body's payloads -/

section Pieces
variable {F : FTy → Type} [FloatOps F]

/-- First edge block: the accumulator ends at the second payload over the zero block. -/
theorem sout1_A_eq (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x3200 .i32) (x1 : Vec F S3200x128 .bf16) :
    sout1_A_0 c i arg2 harg2 arg3 harg3 arg4 harg4 arg5 harg5 hc0 hc1 x0 x1 = k1_pay2 i x0 (k1_pay1 (F := F)) x1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S2048x128) hz1, View.readCov_unit_zero (S := S2048x128) _ hz1]
  simp only [View.readAt_eq_ld, harg2.read_unread, harg3.read_unread, harg5.read_unread, View.ld_unit_zero (S := S1x3200) hz1, View.ld_unit_zero (S := S3200x128) hz1, View.ld_unit_zero (S := S2048x128) hz1]

/-- A middle edge block: the accumulator ends at the second payload over what it held. -/
theorem sout1_B_eq (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x3200 .i32) (x1 : Vec F S3200x128 .bf16) (xs0 : Vec F S2048x128 .f32) :
    sout1_B_0 c i arg2 harg2 arg3 harg3 arg4 harg4 arg5 harg5 hc0 hc1 x0 x1 xs0 = k1_pay2 i x0 xs0 x1 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_words
  rw [View.canon_unit_zero hz1]
  simp only [View.readAt_eq_ld, harg2.read_unread, harg3.read_unread, harg5.read_unread, View.ld_unit_zero (S := S1x3200) hz1, View.ld_unit_zero (S := S3200x128) hz1, View.ld_unit_zero (S := S2048x128) hz1]

/-- The last edge block: the same in the accumulator, -/
theorem sout1_C_eq (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) :
    sout1_C_0 c i arg2 harg2 arg3 harg3 arg4 harg4 arg5 harg5 hc0 hc1 x0 x1 xs0 = k1_pay2 i x0 xs0 x1 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz1]
  simp only [View.readAt_eq_ld, harg2.read_unread, harg3.read_unread, harg5.read_unread, View.ld_unit_zero (S := S1x3200) hz1, View.ld_unit_zero (S := S3200x128) hz1, View.ld_unit_zero (S := S2048x128) hz1]

/-- and, copied from it, in the output window's staging buffer. -/
theorem out1_C_eq (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x3200 .i32) (x1 : Vec F S3200x128 .bf16) (xs0 : Vec F S2048x128 .f32) :
    out1_C_2 c i arg2 harg2 arg3 harg3 arg4 harg4 arg5 harg5 hc0 hc1 x0 x1 xs0 = k1_pay2 i x0 xs0 x1 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz1]
  simp only [View.readAt_eq_ld, harg2.read_unread, harg3.read_unread, harg5.read_unread, View.readCov_unit_zero (S := S2048x128) _ hz1, View.ld_unit_zero (S := S1x3200) hz1, View.ld_unit_zero (S := S3200x128) hz1, View.ld_unit_zero (S := S2048x128) hz1]

end Pieces

/-! ## The grid's arithmetic: coordinates and block indices of point t = 500·n + e -/

/-- The destination words' window is at block (0, t % 500), -/
theorem index1_0 (t : Fin cfg1.N) : win1_0.index t (0 : Fin 2) = 0 ∧ win1_0.index t (1 : Fin 2) = t.val % 500 := by
  refine ⟨rfl, ?_⟩
  show (BitVec.ofNat 32 ((grid1.coords t) 1).val).toNat = _
  rw [BitVec.toNat_ofNat, coords1_1]; omega

/-- the messages' at block (t % 500, 0), -/
theorem index1_1 (t : Fin cfg1.N) : win1_1.index t (0 : Fin 2) = t.val % 500 ∧ win1_1.index t (1 : Fin 2) = 0 := by
  refine ⟨?_, rfl⟩
  show (BitVec.ofNat 32 ((grid1.coords t) 1).val).toNat = _
  rw [BitVec.toNat_ofNat, coords1_1]; omega

/-- the output's at block (t / 500, 0). -/
theorem index1_2 (t : Fin cfg1.N) : win1_2.index t (0 : Fin 2) = t.val / 500 ∧ win1_2.index t (1 : Fin 2) = 0 := by
  have hN : t.val < 24500 := lt_of_lt_of_eq t.isLt (show cfg1.N = 24500 from N_1)
  refine ⟨?_, rfl⟩
  show (BitVec.ofNat 32 ((grid1.coords t) 0).val).toNat = _
  rw [BitVec.toNat_ofNat, coords1_0]; omega

/-- The output block is written back at the last edge block of every node block: the next point, if there is one,
    is in the next node block. -/
theorem flush1_2_last (t : Fin cfg1.N) (h : t.val % 500 = 499) : (cfg1.win 2).flush t = true := by
  have hN : t.val < 24500 := lt_of_lt_of_eq t.isLt (show cfg1.N = 24500 from N_1)
  show (win1_2.isOut && (decide (t.val + 1 = grid1.N)
    || decide (∃ h1 : t.val + 1 < grid1.N, win1_2.index ⟨t.val + 1, h1⟩ ≠ win1_2.index t))) = true
  by_cases hl : t.val + 1 = grid1.N
  · rw [decide_eq_true hl]; rfl
  · have h1 : t.val + 1 < grid1.N := by rw [N_1] at hl ⊢; omega
    have hne : win1_2.index ⟨t.val + 1, h1⟩ ≠ win1_2.index t := fun e => by
      have e0 := congrFun e (0 : Fin 2)
      rw [(index1_2 ⟨t.val + 1, h1⟩).1, (index1_2 t).1] at e0
      have e0' : (t.val + 1) / 500 = t.val / 500 := e0
      omega
    rw [decide_eq_false hl, decide_eq_true (⟨h1, hne⟩ : ∃ h1 : t.val + 1 < grid1.N, win1_2.index ⟨t.val + 1, h1⟩ ≠ win1_2.index t)]; rfl

/-- and nowhere else. -/
theorem last_of_flush1_2 (t : Fin cfg1.N) (hf : (cfg1.win 2).flush t = true) : t.val % 500 = 499 := by
  by_contra h
  rw [noFlush1_2 t h] at hf
  exact Bool.false_ne_true hf

section Value
-- the contents of the core's buffers when the region is entered, at the ideal values
variable (V : (c : Dev nD) → (b : Ref sig .tc) → Buf (Elt Ideal) ((c : Thread nD τ).loc b))

/-- The destination words and the messages as the region finds them, and the blocks of them the body is handed. -/
abbrev darr (c : Dev nD) : Vec Ideal S1x1600000 .i32 := V c main_v16
abbrev marr (c : Dev nD) : Vec Ideal S1600000x128 .bf16 := V c main_v15
abbrev dblk (c : Dev nD) (t : Fin cfg1.N) : Vec Ideal S1x3200 .i32 := iblk1 V c 0 t
abbrev mblk (c : Dev nD) (t : Fin cfg1.N) : Vec Ideal S3200x128 .bf16 := iblk1 V c 1 t

/-- The destination block at point t is words 3200·(t % 500) .. of the list. -/
theorem iblk1_0_apply (c : Dev nD) (t : Fin cfg1.N) (x : S1x3200.Idx) (k : S1x1600000.Idx)
    (hk0 : (k 0).val = (x 0).val) (hk1 : (k 1).val = t.val % 500 * 3200 + (x 1).val) :
    dblk V c t x = darr V c k := by
  obtain ⟨e0, e1⟩ := index1_0 t
  show iblk1 V c 0 t x = V c main_v16 k
  unfold iblk1
  rw [View.read_apply]
  show V c main_v16 _ = V c main_v16 _
  congr 1
  funext a
  apply Fin.ext
  match a with
  | ⟨0, _⟩ => show win1_0.index t (0 : Fin 2) * 1 + 1 * (x 0).val = (k 0).val; rw [e0, hk0]; omega
  | ⟨1, _⟩ => show win1_0.index t (1 : Fin 2) * 3200 + 1 * (x 1).val = (k 1).val; rw [e1, hk1]; omega

/-- The message block at point t is rows 3200·(t % 500) .. of the messages. -/
theorem iblk1_1_apply (c : Dev nD) (t : Fin cfg1.N) (x : S3200x128.Idx) (k : S1600000x128.Idx)
    (hk0 : (k 0).val = t.val % 500 * 3200 + (x 0).val) (hk1 : (k 1).val = (x 1).val) :
    mblk V c t x = marr V c k := by
  obtain ⟨e0, e1⟩ := index1_1 t
  show iblk1 V c 1 t x = V c main_v15 k
  unfold iblk1
  rw [View.read_apply]
  show V c main_v15 _ = V c main_v15 _
  congr 1
  funext a
  apply Fin.ext
  match a with
  | ⟨0, _⟩ => show win1_1.index t (0 : Fin 2) * 3200 + 1 * (x 0).val = (k 0).val; rw [e0, hk0]; omega
  | ⟨1, _⟩ => show win1_1.index t (1 : Fin 2) * 128 + 1 * (x 1).val = (k 1).val; rw [e1, hk1]; omega

theorem dblk_apply (c : Dev nD) (t : Fin cfg1.N) (q : Fin 3200) :
    dblk V c t (ix2 0 q) = dstAt (darr V c) (t.val % 500 * 3200 + q.val) := by
  have hq := q.isLt
  have hlt : t.val % 500 * 3200 + q.val < 1600000 := by omega
  unfold dstAt
  rw [dif_pos hlt]
  exact iblk1_0_apply V c t (ix2 0 q) (ix2 0 ⟨_, hlt⟩) rfl rfl

theorem mblk_apply (c : Dev nD) (t : Fin cfg1.N) (q : Fin 3200) (d : Fin 128) :
    mblk V c t (ix2 q d) = msgAt (marr V c) (t.val % 500 * 3200 + q.val) d := by
  have hq := q.isLt
  have hlt : t.val % 500 * 3200 + q.val < 1600000 := by omega
  unfold msgAt
  rw [dif_pos hlt]
  exact iblk1_1_apply V c t (ix2 q d) (ix2 ⟨_, hlt⟩ d) rfl rfl

/-- One step of the body at point t: the accumulator's entry plus edge block t % 500's term of node block t / 500. -/
theorem step_eq (c : Dev nD) (t : Fin cfg1.N) (acc : Vec Ideal S2048x128 .f32) (r : Fin 2048) (d : Fin 128) :
    k1_pay2 (F := Ideal) (grid1.coords t) (dblk V c t) acc (mblk V c t) (ix2 r d)
      = acc (ix2 r d) + blockTerm (darr V c) (marr V c) (t.val % 500) (t.val / 500) r d := by
  refine (pay2_apply (grid1.coords t) (dblk V c t) acc (mblk V c t) r d).trans ?_
  rw [coords1_0 t]
  unfold blockTerm
  refine congrArg (acc (ix2 r d) + ·) (Finset.sum_congr rfl fun q _ => ?_)
  rw [dblk_apply V c t q, mblk_apply V c t q d]

/-! ## The accumulator after every point -/

/-- At the first edge block of a node block. -/
theorem acc_A (c : Dev nD) (t : Fin cfg1.N) (h0 : t.val % 500 = 0) (h1 : ¬t.val % 500 = 499) (r : Fin 2048) (d : Fin 128) :
    (outsAt1 V c t.val t.isLt).2 (ix2 r d) = partSum (darr V c) (marr V c) t.val r d := by
  rw [outsAt1_A V c t h0 h1]
  dsimp only
  refine (congrFun (sout1_A_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) (ix2 r d)).trans ?_
  refine (step_eq V c t (k1_pay1 (F := Ideal)) r d).trans ?_
  rw [pay1_apply r d, zero_add, partSum_first _ _ t.val h0 r d]

/-- At a later edge block, from the point before. -/
theorem acc_BC (c : Dev nD) (t : Fin cfg1.N) (h0 : ¬t.val % 500 = 0) (r : Fin 2048) (d : Fin 128)
    (ih : (outsAt1 V c (t.val - 1) (Nat.lt_of_le_of_lt (Nat.sub_le _ _) t.isLt)).2 (ix2 r d) = partSum (darr V c) (marr V c) (t.val - 1) r d) :
    (outsAt1 V c t.val t.isLt).2 (ix2 r d) = partSum (darr V c) (marr V c) t.val r d := by
  have hs : t.val - 1 + 1 = t.val := by omega
  have hn := partSum_next (darr V c) (marr V c) (t.val - 1) (by rw [hs]; exact h0) r d
  rw [hs] at hn
  by_cases h1 : t.val % 500 = 499
  · rw [outsAt1_C V c t h0 h1]
    dsimp only
    refine (congrFun (sout1_C_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 r d)).trans ?_
    refine (step_eq V c t (outsAt1 V c (t.val - 1) (Nat.lt_of_le_of_lt (Nat.sub_le _ _) t.isLt)).2 r d).trans ?_
    rw [ih, hn]
  · rw [outsAt1_B V c t h0 h1]
    dsimp only
    refine (congrFun (sout1_B_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) (ix2 r d)).trans ?_
    refine (step_eq V c t (outsAt1 V c (t.val - 1) (Nat.lt_of_le_of_lt (Nat.sub_le _ _) t.isLt)).2 r d).trans ?_
    rw [ih, hn]

/-- After point n the accumulator holds the partial blocked sum: by induction on the point. -/
theorem acc_eq (c : Dev nD) : ∀ (n : ℕ) (hn : n < cfg1.N) (r : Fin 2048) (d : Fin 128),
    (outsAt1 V c n hn).2 (ix2 r d) = partSum (darr V c) (marr V c) n r d := by
  intro n
  induction n with
  | zero => intro hn r d; exact acc_A V c ⟨0, hn⟩ (Nat.zero_mod _) (by show ¬(0 : ℕ) % 500 = 499; omega) r d
  | succ n ih =>
    intro hn r d
    by_cases h0 : (n + 1) % 500 = 0
    · exact acc_A V c ⟨n + 1, hn⟩ h0 (by show ¬(n + 1) % 500 = 499; omega) r d
    · exact acc_BC V c ⟨n + 1, hn⟩ h0 r d (ih (Nat.lt_of_succ_lt hn) r d)

/-- At the last edge block the output window's staging buffer holds what the accumulator holds: the whole sum. -/
theorem out_C (c : Dev nD) (t : Fin cfg1.N) (h1 : t.val % 500 = 499) (r : Fin 2048) (d : Fin 128) :
    (outsAt1 V c t.val t.isLt).1 (ix2 r d) = ∑ i ∈ Finset.range 500, blockTerm (darr V c) (marr V c) i (t.val / 500) r d := by
  have h0 : ¬t.val % 500 = 0 := by omega
  have e := acc_eq V c t.val t.isLt r d
  rw [partSum_last _ _ t.val h1 r d] at e
  refine Eq.trans ?_ e
  rw [outsAt1_C V c t h0 h1]
  dsimp only
  exact (congrFun (out1_C_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 r d)).trans
    (congrFun (sout1_C_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix2 r d)).symm

/-! ## The result array -/

/-- What the write-back after node block n's last point writes is rows 2048·n .. of the aggregate. -/
theorem flushed1_eq (c : Dev nD) (t : Fin cfg1.N) (hf : (cfg1.win 2).flush t = true) :
    (dat1 V c).flushed 2 t = ((cfg1.win 2).blk t).view.read (Elt Ideal) (agg (darr V c) (marr V c)) := by
  have h1 : t.val % 500 = 499 := last_of_flush1_2 t hf
  obtain ⟨e0, e1⟩ := index1_2 t
  show (cfg1.win 2).cut (grid1.coords t) ((dat1 V c).after 2 t) = _
  rw [after1_2]
  funext j
  rw [View.read_apply]
  show (outsAt1 V c t.val t.isLt).1 j = agg (darr V c) (marr V c) (((cfg1.win 2).blk t).view.emb j)
  have hj : (j : S2048x128.Idx) = ix2 (j 0) (j 1) := eq_ix2 j
  refine (congrArg (outsAt1 V c t.val t.isLt).1 hj).trans ?_
  refine (out_C V c t h1 (j 0) (j 1)).trans ?_
  refine (agg_apply (darr V c) (marr V c) _ (t.val / 500) (j 0) (j 1) ?_ ?_).symm
  · show win1_2.index t (0 : Fin 2) * 2048 + 1 * (j 0).val = t.val / 500 * 2048 + (j 0).val
    rw [e0]; omega
  · show win1_2.index t (1 : Fin 2) * 128 + 1 * (j 1).val = (j 1).val
    rw [e1]; omega

/-- The 49 write-backs tile the 100352 rows, so the result array ends holding the aggregate of the destination
    words and the messages the region found. -/
theorem arr1_final (c : Dev nD) :
    (dat1 (F := Ideal) V c).arrAt 2 cfg1.N = Cert.KSpec.agg (V c main_v16) (V c main_v15) :=
  (dat1 V c).arrAt_eq_of_cover 2 (agg (darr V c) (marr V c)) (flushed1_eq V c) fun i => by
    have hi0 : (i 0).val < 100352 := (i 0).isLt
    have hi1 : (i 1).val < 128 := (i 1).isLt
    have hN : cfg1.N = 24500 := N_1
    have htl : (i 0).val / 2048 * 500 + 499 < cfg1.N := by rw [hN]; omega
    obtain ⟨e0, e1⟩ := index1_2 ⟨(i 0).val / 2048 * 500 + 499, htl⟩
    refine ⟨⟨(i 0).val / 2048 * 500 + 499, htl⟩, flush1_2_last _ (by show ((i 0).val / 2048 * 500 + 499) % 500 = 499; omega), ?_⟩
    show i ∈ ((View.whole main_v17).slice (win1_2.rect ⟨(i 0).val / 2048 * 500 + 499, htl⟩)).set
    rw [View.set_slice_whole, Rect.mem_set_unit]
    intro a
    match a with
    | ⟨0, _⟩ =>
      show win1_2.index ⟨(i 0).val / 2048 * 500 + 499, htl⟩ (0 : Fin 2) * 2048 ≤ (i 0).val ∧ (i 0).val < win1_2.index ⟨(i 0).val / 2048 * 500 + 499, htl⟩ (0 : Fin 2) * 2048 + 2048
      rw [e0]; dsimp only; omega
    | ⟨1, _⟩ =>
      show win1_2.index ⟨(i 0).val / 2048 * 500 + 499, htl⟩ (1 : Fin 2) * 128 ≤ (i 1).val ∧ (i 1).val < win1_2.index ⟨(i 0).val / 2048 * 500 + 499, htl⟩ (1 : Fin 2) * 128 + 128
      rw [e1]; omega

end Value

end Cert.KernelIdeal.Hand.Scatter

end
-- ==== Proof.Spec.lean ====
/-
  The layer as one function of its four inputs, over the extended reals: node features are the two tables
  stacked; every node's features are scaled by the inverse square root of its (clamped) out-degree, each edge
  carries its source node's scaled features to its destination node, where they are summed, and the sum is
  scaled by the inverse square root of the destination's (clamped) in-degree. Both programs are shown to
  compute `G` wherever every source index names a node.
-/
import Idealize.ShloMosaic.PureOps.Ideal
import Idealize.ShloMosaic.Lib.ValueIdx

noncomputable section

namespace Cert.Spec

open Idealize.ShloMosaic Idealize.ShloMosaic.ValueIdx
open scoped BigOperators

/-- The node features: rows `0 … 59999` from the first table, rows `60000 … 99999` from the second. -/
def feat (a0 : (⟨2, ![60000, 128]⟩ : Shape).Idx → EReal) (a1 : (⟨2, ![40000, 128]⟩ : Shape).Idx → EReal)
    (n : Fin 100000) (d : Fin 128) : EReal :=
  if h : n.val < 60000 then a0 (ix2 ⟨n.val, h⟩ d) else a1 (ix2 ⟨n.val - 60000, by have := n.isLt; omega⟩ d)

/-- How many edges name node `n` in the index list `idx`, each index read as a signed word. -/
def cnt (idx : (⟨1, ![1600000]⟩ : Shape).Idx → BitVec 32) (n : ℕ) : ℕ :=
  (Finset.univ.filter fun e : Fin 1600000 => (idx (ix1 e)).toInt = (n : ℤ)).card

/-- The degree normalisation of node `n`: one over the square root of its degree, the degree clamped below at one. -/
def scale (idx : (⟨1, ![1600000]⟩ : Shape).Idx → BitVec 32) (n : ℕ) : EReal :=
  Ideal.rsqrt (max (((cnt idx n : ℕ) : ℝ) : EReal) 1)

/-- Every source index names a node. -/
def InRange (src : (⟨1, ![1600000]⟩ : Shape).Idx → BitVec 32) : Prop :=
  ∀ e : Fin 1600000, (src (ix1 e)).toNat < 100000

/-- The source node of edge `e` (total: the word is folded into the node range, which changes nothing where
    `InRange` holds). -/
def srcNode (src : (⟨1, ![1600000]⟩ : Shape).Idx → BitVec 32) (e : Fin 1600000) : Fin 100000 :=
  ⟨(src (ix1 e)).toNat % 100000, Nat.mod_lt _ (by decide)⟩

/-- What edge `e` carries in feature column `d`: its source node's features times that node's out-degree
    normalisation. -/
def msg (a0 : (⟨2, ![60000, 128]⟩ : Shape).Idx → EReal) (a1 : (⟨2, ![40000, 128]⟩ : Shape).Idx → EReal)
    (src : (⟨1, ![1600000]⟩ : Shape).Idx → BitVec 32) (e : Fin 1600000) (d : Fin 128) : EReal :=
  feat a0 a1 (srcNode src e) d * scale src (srcNode src e).val

/-- The layer: at node `n` and column `d`, the sum of what the edges into `n` carry, times `n`'s in-degree
    normalisation. -/
def G (a0 : (⟨2, ![60000, 128]⟩ : Shape).Idx → EReal) (a1 : (⟨2, ![40000, 128]⟩ : Shape).Idx → EReal)
    (src dst : (⟨1, ![1600000]⟩ : Shape).Idx → BitVec 32) : (⟨2, ![100000, 128]⟩ : Shape).Idx → EReal :=
  fun j => (∑ e : Fin 1600000, if (dst (ix1 e)).toInt = ((j 0).val : ℤ) then msg a0 a1 src e (j 1) else 0)
    * scale dst (j 0).val

end Cert.Spec

end
-- ==== Proof.KiHost.lean ====
/- The host side of the program: what the operations before, between and after the two kernel regions
   compute, each as one function of the arrays it reads. Before the first region the node table is
   stacked, scaled row by row by the inverse square root of the clamped out-degree, rounded, and padded
   with 352 rows of zeros, and the source indices are laid out as a column; between the regions the
   destination indices are laid out as a row; after the second region the aggregate's first 100000 rows
   are scaled by the inverse square root of the clamped in-degree. -/
import proofs.«420466_j23716809408972_1_alg».proof.Proof.Gen.KernelIdeal.Launch
import proofs.«420466_j23716809408972_1_alg».proof.Proof.Gen.KernelIdeal.Regions
import proofs.«420466_j23716809408972_1_alg».proof.Proof.Spec
import proofs.«420466_j23716809408972_1_alg».proof.Proof.KSpec
import Idealize.ShloMosaic.Lib.StableHlo.Run

set_option maxRecDepth 16384

noncomputable section

open Cert.KernelIdeal Cert.KernelIdeal.Gen

namespace Cert.KernelIdeal.Hand

open Idealize.ShloMosaic Idealize.ShloMosaic.TcCoe

variable {F : FTy → Type} [FloatOps F]

/-! ## The host operations as functions -/

/-- The vector of ones, one entry per edge. -/
def onesE : FVec F S1600000 .f32 :=
  broadcastInDim S1600000 ![] bcast_S_S1600000 (constant (F := F) S_ .f32 0x3F800000#32)

/-- The degree normalisation of every node: the number of entries of `ones` scattered to the node by the
    index list, clamped below at one, under the inverse square root. -/
def normOf (idx : IVec S1600000 32) (ones : FVec F S1600000 .f32) : FVec F S100000 .f32 :=
  Host.rsqrt (maximumf
    (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 idx) ones)
    (broadcastInDim S100000 ![] bcast_S_S100000 (constant (F := F) S_ .f32 0x3F800000#32)))

/-- A per-node factor spread along the 128 feature columns. -/
def spread (v : FVec F S100000 .f32) : FVec F S100000x128 .f32 :=
  broadcastInDim S100000x128 ![0, 1] bcast_S100000x1_S100000x128_0_1
    (broadcastInDim S100000x1 ![0] bcast_S100000_S100000x1_0 v)

/-- The padded, scaled, rounded node table the first region reads. -/
def hpadOf (a0 : FVec F S60000x128 .f32) (a1 : FVec F S40000x128 .f32) (src : IVec S1600000 32) :
    FVec F S100352x128 .bf16 :=
  concatenate S100352x128 0
    [⟨S100000x128, truncf .bf16
        (mulf (concatenate S100000x128 0 [⟨S60000x128, a0⟩, ⟨S40000x128, a1⟩] concatenates_S60000x128_S40000x128_S100000x128_d0)
          (spread (normOf src onesE))) bitsLt_bf16_f32⟩,
     ⟨S352x128, broadcastInDim S352x128 ![] bcast_S_S352x128 (constant (F := F) S_ .bf16 0x0000#16)⟩]
    concatenates_S100000x128_S352x128_S100352x128_d0

/-- The index list laid out as a column. -/
def colOf (idx : IVec S1600000 32) : IVec S1600000x1 32 := shapeCast S1600000x1 idx shapeCasts_S1600000_S1600000x1

/-- The index list laid out as a row. -/
def rowOf (idx : IVec S1600000 32) : IVec S1x1600000 32 := shapeCast S1x1600000 idx shapeCasts_S1600000_S1x1600000

/-- The layer's result from the padded aggregate: its first 100000 rows, each scaled by the node's in-degree
    normalisation. -/
def tailOf (agg : FVec F S100352x128 .f32) (dst : IVec S1600000 32) (ones : FVec F S1600000 .f32) :
    FVec F S100000x128 .f32 :=
  mulf (extractStridedSlice S100000x128 ![0, 0] agg slices_S100352x128_S100000x128_0_0) (spread (normOf dst ones))

/-! ## What the three host stretches leave, from any contents -/

variable (W : Valuation τ sig (Elt F))

theorem host0_v13 :
    (StableHlo.after hostOps0 W (Proc.devRef .tc main_v13) : FVec F S100352x128 .bf16)
      = hpadOf (W (Proc.devRef .tc main_arg0)) (W (Proc.devRef .tc main_arg1)) (W (Proc.devRef .tc main_arg2)) := by
  simp only [hostOps0]
  after_results
  rfl

theorem host0_v14 :
    (StableHlo.after hostOps0 W (Proc.devRef .tc main_v14) : IVec S1600000x1 32) = colOf (W (Proc.devRef .tc main_arg2)) := by
  simp only [hostOps0]
  after_results
  rfl

theorem host0_v1 :
    (StableHlo.after hostOps0 W (Proc.devRef .tc main_v1) : FVec F S1600000 .f32) = onesE := by
  simp only [hostOps0]
  after_results
  rfl

theorem host0_keep (r : Ref sig .tc) (h : r ∉ hostOps0_W) :
    StableHlo.after hostOps0 W (Proc.devRef .tc r) = W (Proc.devRef .tc r) :=
  StableHlo.after_of_writes_sub hostOps0 _ hostOps0_writes h

theorem host1_v16 :
    (StableHlo.after hostOps1 W (Proc.devRef .tc main_v16) : IVec S1x1600000 32) = rowOf (W (Proc.devRef .tc main_arg3)) := by
  simp only [hostOps1]
  after_results
  rfl

theorem host1_keep (r : Ref sig .tc) (h : r ∉ hostOps1_W) :
    StableHlo.after hostOps1 W (Proc.devRef .tc r) = W (Proc.devRef .tc r) :=
  StableHlo.after_of_writes_sub hostOps1 _ hostOps1_writes h

theorem host2_v27 :
    (StableHlo.after hostOps2 W (Proc.devRef .tc main_v27) : FVec F S100000x128 .f32)
      = tailOf (W (Proc.devRef .tc main_v17)) (W (Proc.devRef .tc main_arg3)) (W (Proc.devRef .tc main_v1)) := by
  simp only [hostOps2]
  after_results
  rfl

theorem host2_keep (r : Ref sig .tc) (h : r ∉ hostOps2_W) :
    StableHlo.after hostOps2 W (Proc.devRef .tc r) = W (Proc.devRef .tc r) :=
  StableHlo.after_of_writes_sub hostOps2 _ hostOps2_writes h

end Cert.KernelIdeal.Hand

end
-- ==== Proof.KMath.lean ====
/- Algebra shared by both sides of the comparison, independent of any program text: a word below 2³¹ read
   signed or unsigned; the scatter of one value per index, whose result at a node counts the indices that name
   it; a sum over blocks of consecutive positions as one sum; a sum against the indicator of one position; the
   two kernels' blocked sums as plain sums over edges; and what the layout operations of the host program
   (broadcasts, reshapes, the slice, the two concatenations) hold at an index. -/
import proofs.«420466_j23716809408972_1_alg».proof.Proof.Spec
import proofs.«420466_j23716809408972_1_alg».proof.Proof.KSpec
import Idealize.ShloMosaic.PureOps.Ideal
import Idealize.ShloMosaic.PureOps.Ideal.Laws
import Idealize.ShloMosaic.Lib.ValueIdx
import Idealize.ShloMosaic.Lib.Pipeline.Value

noncomputable section

namespace Cert.KMath

open Idealize.ShloMosaic Idealize.ShloMosaic.ValueIdx
open scoped BigOperators

/-- The shapes: the scalar, the node list, the edge list, the edge list as a column and as a row, the node list as
    a column, the node table, its padding and the padded table, the two input tables. -/
abbrev S0 : Shape := ⟨0, ![]⟩
abbrev SN : Shape := ⟨1, ![100000]⟩
abbrev SE : Shape := ⟨1, ![1600000]⟩
abbrev SE1 : Shape := ⟨2, ![1600000, 1]⟩
abbrev S1E : Shape := ⟨2, ![1, 1600000]⟩
abbrev SN1 : Shape := ⟨2, ![100000, 1]⟩
abbrev SND : Shape := ⟨2, ![100000, 128]⟩
abbrev SP : Shape := ⟨2, ![352, 128]⟩
abbrev SH : Shape := ⟨2, ![100352, 128]⟩
abbrev S6 : Shape := ⟨2, ![60000, 128]⟩
abbrev S4 : Shape := ⟨2, ![40000, 128]⟩

/-! ## Words -/

/-- A word names a node read signed exactly when it names it read unsigned: node numbers are below 2³¹. -/
theorem toInt_eq_iff (w : BitVec 32) (n : ℕ) (hn : n < 100000) : w.toInt = (n : ℤ) ↔ w.toNat = n := by
  rw [BitVec.toInt_eq_toNat_cond]
  have := w.isLt
  split <;> omega

/-! ## The scatter of one value per index -/

/-- The scatter's dimension numbers: no window axis, the one node axis inserted and indexed by the index
    vector, which is the column's second axis. -/
abbrev sdims (wf : ScatterDims.WF SN SE1 SE [] [0] [0] 1) : ScatterDims SN SE1 SE :=
  { updateWindowDims := [], insertedWindowDims := [0], scatterDimsToOperandDims := [0], indexVectorDim := 1, wf := wf }

/-- Update `e` starts at the node its index word names, read signed. -/
theorem start_eq (wf : ScatterDims.WF SN SE1 SE [] [0] [0] 1) (e : Fin 1600000) (idx : IVec SE1 32) :
    (sdims wf).start (ix1 e) idx 0 = (idx (ix2 e 0)).toInt := by
  unfold ScatterDims.start
  rw [dif_pos (show (0 : Fin 1) ∈ ([0] : List (Fin 1)) from List.mem_singleton.mpr rfl)]
  congr 2
  funext b
  match b with
  | ⟨0, _⟩ =>
    unfold ScatterDims.siIdx
    rw [dif_neg (show ¬ (0 : ℕ) = 1 from Nat.zero_ne_one)]
    unfold ScatterDims.siCoord
    apply Fin.ext
    rfl
  | ⟨1, _⟩ =>
    unfold ScatterDims.siIdx
    rw [dif_pos rfl]
    apply Fin.ext
    rfl

/-- There is no window: every update is one element. -/
theorem window_eq (wf : ScatterDims.WF SN SE1 SE [] [0] [0] 1) (j : SE.Idx) :
    (sdims wf).window j 0 = 0 := by
  unfold ScatterDims.window
  rw [dif_neg (show (0 : Fin 1) ∉ SN.kept [0] by decide)]

/-- Update `e` lands at node `n` exactly when its index word, read signed, is `n`. -/
theorem resultIdx_iff (wf : ScatterDims.WF SN SE1 SE [] [0] [0] 1) (e : Fin 1600000) (idx : IVec SE1 32) (n : Fin 100000) :
    (sdims wf).resultIdx? (ix1 e) idx = some (ix1 n) ↔ (idx (ix2 e 0)).toInt = (n.val : ℤ) := by
  unfold ScatterDims.resultIdx?
  have hn := n.isLt
  split
  · next h =>
    have h0 : 0 ≤ (idx (ix2 e 0)).toInt + ((0 : ℕ) : ℤ) ∧ (idx (ix2 e 0)).toInt + ((0 : ℕ) : ℤ) < (100000 : ℤ) := by
      have := h 0
      rw [start_eq, window_eq] at this
      exact this
    rw [Option.some.injEq]
    constructor
    · intro q
      have this : ((idx (ix2 e 0)).toInt + ((0 : ℕ) : ℤ)).toNat = n.val := by
        have := congrArg (fun f => (f 0).val) q
        simp only [start_eq, window_eq] at this
        exact this
      omega
    · intro q
      funext a
      have ha : a = 0 := Subsingleton.elim _ _
      subst ha
      apply Fin.ext
      simp only [start_eq, window_eq]
      show _ = n.val
      omega
  · next h =>
    constructor
    · intro q; exact absurd q (by simp)
    · intro q
      exfalso
      apply h
      intro a
      have ha : a = 0 := Subsingleton.elim _ _
      subst ha
      rw [start_eq, window_eq, q]
      show _ ∧ _ < (100000 : ℤ)
      omega

/-! ## Sums over blocks -/

/-- A sum over `a` blocks of `b` consecutive positions is the sum over all `a b` positions. -/
theorem sum_blocks {M : Type*} [AddCommMonoid M] (a b N : ℕ) (hN : a * b = N) (f : ℕ → M) :
    ∑ i ∈ Finset.range a, ∑ r : Fin b, f (i * b + r.val) = ∑ e : Fin N, f e.val := by
  subst hN
  rw [← Finset.sum_range (fun m => f m)]
  induction a with
  | zero => simp
  | succ a ih =>
    rw [Finset.sum_range_succ, ih, add_mul, one_mul, Finset.sum_range_add, Finset.sum_range (fun x => f (a * b + x))]

/-- Against the indicator of one position a sum keeps that position's term. -/
theorem sum_pick (N w : ℕ) (hw : w < N) (g : ℕ → EReal) :
    ∑ e : Fin N, (if w = e.val then (1 : EReal) else 0) * g e.val = g w := by
  rw [Finset.sum_eq_single (⟨w, hw⟩ : Fin N)]
  · simp
  · intro b _ hb
    rw [if_neg (fun h => hb (Fin.ext h.symm)), zero_mul]
  · intro h; exact absurd (Finset.mem_univ _) h

/-- The messages where the source word names a row of the padded table: that row. -/
theorem msgs_apply (idx : (⟨2, ![1600000, 1]⟩ : Shape).Idx → BitVec 32) (hp : (⟨2, ![100352, 128]⟩ : Shape).Idx → EReal)
    (e : Fin 1600000) (d : Fin 128) (w : BitVec 32) (hw : idx (ix2 e 0) = w) (h : w.toNat < 100352) :
    Cert.KSpec.msgs idx hp (ix2 e d) = hp (ix2 ⟨w.toNat, h⟩ d) := by
  subst hw
  unfold Cert.KSpec.msgs
  refine (sum_blocks 49 2048 100352 (by norm_num)
    (fun m => Cert.KSpec.oh (idx (ix2 e 0)) m * Cert.KSpec.hpAt hp m d)).trans ?_
  unfold Cert.KSpec.oh
  rw [sum_pick 100352 _ h (fun m => Cert.KSpec.hpAt hp m d)]
  unfold Cert.KSpec.hpAt
  rw [dif_pos h]

/-- The aggregate at a (padded) node: the sum of the messages of the edges whose destination word names it. -/
theorem agg_apply (idx : (⟨2, ![1, 1600000]⟩ : Shape).Idx → BitVec 32) (msg : (⟨2, ![1600000, 128]⟩ : Shape).Idx → EReal)
    (n : Fin 100352) (d : Fin 128) :
    Cert.KSpec.agg idx msg (ix2 n d) = ∑ e : Fin 1600000, if (idx (ix2 0 e)).toNat = n.val then msg (ix2 e d) else 0 := by
  unfold Cert.KSpec.agg
  refine (sum_blocks 500 3200 1600000 (by norm_num)
    (fun m => Cert.KSpec.oh (Cert.KSpec.dstAt idx m) n.val * Cert.KSpec.msgAt msg m d)).trans ?_
  refine Finset.sum_congr rfl fun e _ => ?_
  unfold Cert.KSpec.oh Cert.KSpec.dstAt Cert.KSpec.msgAt
  rw [dif_pos e.isLt, dif_pos e.isLt]
  split
  · rw [one_mul]
  · rw [zero_mul]

/-! ## Reads of the layout operations -/

/-- The index list broadcast to a column reads the list. -/
theorem col_read (bc : SE.BroadcastsInDim SE1 ![0]) (idx : IVec SE 32) (e : Fin 1600000) :
    broadcastInDim SE1 ![0] bc idx (ix2 e 0) = idx (ix1 e) :=
  broadcastInDim_apply _ bc idx _ (ix1 e) (fun a => by have : a = 0 := Subsingleton.elim _ _; subst this; rfl)

/-- The index list reshaped to a column reads the list. -/
theorem colOf_read (h : SE.ShapeCasts SE1) (idx : IVec SE 32) (e : Fin 1600000) :
    shapeCast SE1 idx h (ix2 e 0) = idx (ix1 e) :=
  shapeCast_apply idx h _ (ix1 e) (by
    rw [Shape.rowMajor_val_one, Shape.rowMajor_val_two]
    show e.val = e.val * 1 + 0
    omega)

/-- The index list reshaped to a row reads the list. -/
theorem rowOf_read (h : SE.ShapeCasts S1E) (idx : IVec SE 32) (e : Fin 1600000) :
    shapeCast S1E idx h (ix2 0 e) = idx (ix1 e) :=
  shapeCast_apply idx h _ (ix1 e) (by
    rw [Shape.rowMajor_val_one, Shape.rowMajor_val_two]
    show e.val = 0 * 1600000 + e.val
    omega)

/-- A per-node value spread along the columns reads the node's value. -/
theorem spread_read {α : Type} (h₁ : SN.BroadcastsInDim SN1 ![0]) (h₂ : SN1.BroadcastsInDim SND ![0, 1]) (v : SN.Idx → α)
    (n : Fin 100000) (d : Fin 128) :
    broadcastInDim SND ![0, 1] h₂ (broadcastInDim SN1 ![0] h₁ v) (ix2 n d) = v (ix1 n) := by
  rw [broadcastInDim_apply _ h₂ _ (ix2 n d) (ix2 n 0) (fun a => by match a with | ⟨0, _⟩ => rfl | ⟨1, _⟩ => rfl)]
  exact broadcastInDim_apply _ h₁ v _ (ix1 n) (fun a => by have : a = 0 := Subsingleton.elim _ _; subst this; rfl)

/-- The first 100000 rows of the padded table. -/
theorem slice_read {α : Type} (h : SH.Slices ![0, 0] SND) (x : SH.Idx → α) (n : Fin 100000) (d : Fin 128)
    (hn : n.val < 100352) :
    extractStridedSlice SND ![0, 0] x h (ix2 n d) = x (ix2 ⟨n.val, hn⟩ d) :=
  extractStridedSlice_apply _ x h _ _ (fun a => by
    match a with
    | ⟨0, _⟩ => show n.val = 0 + n.val; omega
    | ⟨1, _⟩ => show d.val = 0 + d.val; omega)

/-- A row of the padded table below the padding is the row of the table. -/
theorem pad_read {α : Type} (h : Shape.Concatenates [SND, SP] SH 0) (x : SND.Idx → α) (z : SP.Idx → α) (w : ℕ)
    (d : Fin 128) (hw : w < 100000) (hw' : w < 100352) :
    concatenate SH 0 [⟨SND, x⟩, ⟨SP, z⟩] h (ix2 ⟨w, hw'⟩ d) = x (ix2 ⟨w, hw⟩ d) :=
  concatenate_pair_apply_left 0 x z h _ rfl (ix2 ⟨w, hw⟩ d) (fun b => by match b with | ⟨0, _⟩ => rfl | ⟨1, _⟩ => rfl)

/-- The two tables stacked are the node features. -/
theorem concat_feat (h : Shape.Concatenates [S6, S4] SND 0) (a0 : S6.Idx → EReal) (a1 : S4.Idx → EReal) (n : Fin 100000)
    (d : Fin 128) :
    concatenate SND 0 [⟨S6, a0⟩, ⟨S4, a1⟩] h (ix2 n d) = Cert.Spec.feat a0 a1 n d := by
  unfold Cert.Spec.feat
  split
  · next hlt =>
    exact concatenate_pair_apply_left 0 a0 a1 h (ix2 n d) rfl (ix2 ⟨n.val, hlt⟩ d)
      (fun b => by match b with | ⟨0, _⟩ => rfl | ⟨1, _⟩ => rfl)
  · next hge =>
    exact concatenate_pair_apply_right 0 a0 a1 h (ix2 n d) rfl rfl (ix2 ⟨n.val - 60000, by have := n.isLt; omega⟩ d)
      (fun b hb => by
        match b, hb with
        | ⟨0, _⟩, hb => exact absurd rfl hb
        | ⟨1, _⟩, _ => rfl)
      (by show n.val - 60000 + 60000 = n.val; omega)

/-! ## The degrees -/

/-- Scattering a one per index into zeros counts, at each node, the indices that name it. -/
theorem deg_eq (wf : ScatterDims.WF SN SE1 SE [] [0] [0] 1) (bc : SE.BroadcastsInDim SE1 ![0]) (idx : IVec SE 32)
    (n : Fin 100000) :
    Ideal.hostScatterAdd (sdims wf) (fun _ => (0 : EReal)) (broadcastInDim SE1 ![0] bc idx) (fun _ => (1 : EReal)) (ix1 n)
      = (((Cert.Spec.cnt idx n.val : ℕ) : ℝ) : EReal) := by
  unfold Ideal.hostScatterAdd
  rw [zero_add, Finset.sum_const, nsmul_one]
  have hc : Cert.Spec.cnt idx n.val
      = (Finset.univ.filter fun j : SE.Idx => (sdims wf).resultIdx? j (broadcastInDim SE1 ![0] bc idx) = some (ix1 n)).card := by
    unfold Cert.Spec.cnt
    refine Finset.card_bij (fun e _ => ix1 e) ?_ ?_ ?_
    · intro e he
      simp only [Finset.mem_filter, Finset.mem_univ, true_and] at he ⊢
      rw [resultIdx_iff, col_read]
      exact he
    · intro e1 _ e2 _ q
      exact Fin.ext (congrArg (fun j : SE.Idx => (j 0).val) q)
    · intro j hj
      obtain ⟨e, rfl⟩ : ∃ e : Fin 1600000, j = ix1 e := ⟨j 0, eq_ix1 j⟩
      simp only [Finset.mem_filter, Finset.mem_univ, true_and] at hj
      rw [resultIdx_iff, col_read] at hj
      exact ⟨e, by simp only [Finset.mem_filter, Finset.mem_univ, true_and]; exact hj, rfl⟩
  rw [← hc]
  exact (EReal.coe_coe_eq_natCast _).symm

/-! ## The aggregate of the messages is the layer's sum over edges -/

/-- Where the source word names a node, the edge's source node is that node. -/
theorem srcNode_eq (src : IVec SE 32) (e : Fin 1600000) (hs : (src (ix1 e)).toNat < 100000) :
    Cert.Spec.srcNode src e = ⟨(src (ix1 e)).toNat, hs⟩ :=
  Fin.ext (Nat.mod_eq_of_lt hs)

/-- The layer at node `n`, column `d`. -/
theorem G_apply (a0 : S6.Idx → EReal) (a1 : S4.Idx → EReal) (src dst : IVec SE 32) (n : Fin 100000) (d : Fin 128) :
    Cert.Spec.G a0 a1 src dst (ix2 n d)
      = (∑ e : Fin 1600000, if (dst (ix1 e)).toInt = (n.val : ℤ) then Cert.Spec.msg a0 a1 src e d else 0)
        * Cert.Spec.scale dst n.val := rfl

/-- The second kernel's blocked sum over the first kernel's blocked sums is the layer's sum over the edges into
    the node: given that the column and the row are the two index lists, that the padded table's rows below the
    padding are the scaled node features, and that every source index names a node. -/
theorem agg_msgs_eq (col : IVec SE1 32) (row : IVec S1E 32) (hp : SH.Idx → EReal) (a0 : S6.Idx → EReal)
    (a1 : S4.Idx → EReal) (src dst : IVec SE 32)
    (hcol : ∀ e : Fin 1600000, col (ix2 e 0) = src (ix1 e)) (hrow : ∀ e : Fin 1600000, row (ix2 0 e) = dst (ix1 e))
    (hhp : ∀ (w : ℕ) (hw : w < 100000) (hw' : w < 100352) (d : Fin 128),
      hp (ix2 ⟨w, hw'⟩ d) = Cert.Spec.feat a0 a1 ⟨w, hw⟩ d * Cert.Spec.scale src w)
    (h : Cert.Spec.InRange src) (n : Fin 100000) (d : Fin 128) (hn : n.val < 100352) :
    Cert.KSpec.agg row (Cert.KSpec.msgs col hp) (ix2 ⟨n.val, hn⟩ d)
      = ∑ e : Fin 1600000, if (dst (ix1 e)).toInt = (n.val : ℤ) then Cert.Spec.msg a0 a1 src e d else 0 := by
  rw [agg_apply]
  refine Finset.sum_congr rfl fun e _ => ?_
  have hs : (src (ix1 e)).toNat < 100000 := h e
  have hm : Cert.KSpec.msgs col hp (ix2 e d) = Cert.Spec.msg a0 a1 src e d := by
    rw [msgs_apply col hp e d (src (ix1 e)) (hcol e) (by omega), hhp _ hs _ d]
    unfold Cert.Spec.msg
    rw [srcNode_eq src e hs]
  rw [hrow e, hm]
  exact if_congr (toInt_eq_iff _ _ n.isLt).symm rfl rfl

end Cert.KMath

end
-- ==== Proof.RefNum.lean ====
/-
  The reference's three float constants as extended reals, and the power with exponent -1/2 on a clamped count:
  for a natural number c, (max c 1) ^ (-1/2) is one over the square root of max c 1.
-/
import Idealize.ShloMosaic.PureOps.Ideal
import Mathlib.Analysis.SpecialFunctions.Pow.Real
import Mathlib.Analysis.SpecialFunctions.Sqrt

noncomputable section

namespace Cert.ReferenceIdeal.RefNum

open Idealize.ShloMosaic

/-- The word of `+0.0` denotes 0. -/
theorem ofBits_zero : Ideal.ofBits .f32 0x00000000#32 = 0 := by simp [Ideal.ofBits, Ideal.ieee]

/-- The word of `1.0` denotes 1. -/
theorem ofBits_one : Ideal.ofBits .f32 0x3F800000#32 = 1 := by
  simp [Ideal.ofBits, Ideal.ieee, -EReal.coe_mul]; norm_num

/-- The word of `-0.5` denotes the real -1/2. -/
theorem ofBits_neg_half : Ideal.ofBits .f32 0xBF000000#32 = ((-(1 / 2) : ℝ) : EReal) := by
  simp [Ideal.ofBits, Ideal.ieee, -EReal.coe_mul]; norm_num

/-- On a count clamped below at one, the power with exponent -1/2 is the inverse square root. -/
theorem pow_neg_half (c : ℕ) :
    Ideal.pow (max ((c : ℝ) : EReal) 1) ((-(1 / 2) : ℝ) : EReal) = Ideal.rsqrt (max ((c : ℝ) : EReal) 1) := by
  have h1 : max ((c : ℝ) : EReal) 1 = ((max (c : ℝ) 1 : ℝ) : EReal) := by
    rw [← EReal.coe_one]; exact (EReal.coe_strictMono.monotone.map_max).symm
  rw [h1]
  have hpos : (0 : ℝ) < max (c : ℝ) 1 := lt_of_lt_of_le one_pos (le_max_right _ _)
  rw [Ideal.pow_coe_coe, Ideal.rsqrt_coe, if_neg (not_lt.2 hpos.le), if_neg hpos.ne']
  congr 1
  rw [Real.sqrt_eq_rpow]
  exact Real.rpow_neg hpos.le (1 / 2)

end Cert.ReferenceIdeal.RefNum

end
-- ==== Proof.KiDeg.lean ====
/-
  The host operations of the program read at an index, over the extended reals: the degree normalisation of a
  node is one over the square root of its clamped degree, a per-node factor spread along the columns reads the
  node's factor, the padded node table reads the scaled feature in its first 100000 rows and zero below them, the
  tail reads the aggregate's row times the in-degree normalisation, and the index list laid out as a column or as
  a row reads the list.
-/
import proofs.«420466_j23716809408972_1_alg».proof.Proof.KiHost
import proofs.«420466_j23716809408972_1_alg».proof.Proof.RefNum
import Idealize.ShloMosaic.Lib.ValueIdx
import Idealize.ShloMosaic.Lib.Pipeline.Value

noncomputable section

open Cert.KernelIdeal Cert.KernelIdeal.Gen

namespace Cert.KernelIdeal.Hand

open Idealize.ShloMosaic Idealize.ShloMosaic.ValueIdx

/-- The half-width word of `+0.0` denotes 0. -/
theorem ofBits_bf16_zero : Ideal.ofBits .bf16 0x0000#16 = 0 := by simp [Ideal.ofBits, Ideal.ieee]

/-! ## The index list as a column and as a row -/

theorem colOf_apply (idx : IVec S1600000 32) (e : Fin 1600000) : colOf idx (ix2 e (0 : Fin 1)) = idx (ix1 e) := by
  unfold colOf
  refine shapeCast_apply idx _ (ix2 e (0 : Fin 1)) (ix1 e) ?_
  have h1 := Shape.rowMajor_val_one (d := ![1600000]) (ix1 e)
  have h2 := Shape.rowMajor_val_two (d := ![1600000, 1]) (ix2 e (0 : Fin 1))
  refine h1.trans (Eq.trans ?_ h2.symm)
  show e.val = e.val * 1 + 0
  omega

theorem rowOf_apply (idx : IVec S1600000 32) (e : Fin 1600000) : rowOf idx (ix2 (0 : Fin 1) e) = idx (ix1 e) := by
  unfold rowOf
  refine shapeCast_apply idx _ (ix2 (0 : Fin 1) e) (ix1 e) ?_
  have h1 := Shape.rowMajor_val_one (d := ![1600000]) (ix1 e)
  have h2 := Shape.rowMajor_val_two (d := ![1, 1600000]) (ix2 (0 : Fin 1) e)
  refine h1.trans (Eq.trans ?_ h2.symm)
  show e.val = 0 * 1600000 + e.val
  omega

/-! ## The one-dimensional scatter -/

abbrev scK : ScatterDims S100000 S1600000x1 S1600000 := scatter_S100000_S1600000x1_S1600000_n_0_0_1

theorem scK_start (idx : IVec S1600000x1 32) (j : S1600000.Idx) (a : Fin 1) :
    scK.start j idx a = (idx (ix2 (j 0) (0 : Fin 1))).toInt := by
  have ha : a = 0 := Subsingleton.elim _ _
  subst ha
  unfold ScatterDims.start
  rw [dif_pos (by decide)]
  congr 2
  funext b
  match b with
  | ⟨0, _⟩ =>
    unfold ScatterDims.siIdx
    rw [dif_neg (by show ¬ (0 : Nat) = 1; omega)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by show (1 : Nat) = 1; rfl)]
    apply Fin.ext
    show List.idxOf (0 : Fin 1) _ = 0
    decide

theorem scK_window (j : S1600000.Idx) (a : Fin 1) : scK.window j a = 0 := by
  have ha : a = 0 := Subsingleton.elim _ _
  subst ha
  unfold ScatterDims.window
  rw [dif_neg (by decide)]

/-- Update position `j` lands on node `i` exactly when its index word, read signed, is `i`. -/
theorem scK_resultIdx (idx : IVec S1600000x1 32) (j : S1600000.Idx) (i : S100000.Idx) :
    scK.resultIdx? j idx = some i ↔ (idx (ix2 (j 0) (0 : Fin 1))).toInt = ((i 0).val : ℤ) := by
  have hi := (i 0).isLt
  have hsz : S100000.size 0 = 100000 := rfl
  unfold ScatterDims.resultIdx?
  split
  · rename_i h
    have h0 := h 0
    rw [scK_start, scK_window, hsz] at h0
    rw [Option.some.injEq]
    constructor
    · intro e
      have e0 := congrArg Fin.val (congrFun e 0)
      simp only [scK_start, scK_window] at e0
      omega
    · intro e
      funext a
      have ha : a = 0 := Subsingleton.elim _ _
      subst ha
      apply Fin.ext
      simp only [scK_start, scK_window]
      omega
  · rename_i h
    constructor
    · intro e; exact absurd e (by simp)
    · intro e
      exfalso
      apply h
      intro a
      have ha : a = 0 := Subsingleton.elim _ _
      subst ha
      rw [scK_start, scK_window, hsz, e]
      omega

/-- A rank-1 index set is its coordinate range. -/
def idxE1 {n : Nat} : (⟨1, ![n]⟩ : Shape).Idx ≃ Fin n where
  toFun i := i 0
  invFun := ix1
  left_inv i := (eq_ix1 i).symm
  right_inv _ := rfl

/-- Scattering ones onto zeros counts, at node `n`, the update positions whose index word, read signed, is `n`. -/
theorem scK_count (z : FVec Ideal S100000 .f32) (ix : IVec S1600000x1 32) (ones : FVec Ideal S1600000 .f32)
    (hz : ∀ i, z i = 0) (hones : ∀ j, ones j = 1) (n : Fin 100000) :
    Host.scatterAdd scK z ix ones (ix1 n)
      = (((Finset.univ.filter fun e : Fin 1600000 => (ix (ix2 e (0 : Fin 1))).toInt = (n.val : ℤ)).card : ℝ) : EReal) := by
  show Ideal.hostScatterAdd scK z ix ones (ix1 n) = _
  unfold Ideal.hostScatterAdd
  rw [hz, zero_add, Finset.sum_congr rfl (fun j _ => hones j), Finset.sum_const, ← EReal.coe_one, ← EReal.coe_nsmul,
    nsmul_one]
  refine congrArg (fun k : ℕ => ((k : ℝ) : EReal)) (Finset.card_equiv idxE1 (fun j => ?_))
  simp only [Finset.mem_filter, Finset.mem_univ, true_and]
  exact scK_resultIdx ix j (ix1 n)

/-! ## The degree normalisation -/

/-- The index list broadcast to a column reads, in row `e`, word `e`. -/
theorem bcol_apply (idx : IVec S1600000 32) (e : Fin 1600000) :
    broadcastInDim S1600000x1 ![0] bcast_S1600000_S1600000x1_0 idx (ix2 e (0 : Fin 1)) = idx (ix1 e) :=
  broadcastInDim_apply _ _ idx (ix2 e (0 : Fin 1)) (ix1 e) (fun a => match a with
    | ⟨0, _⟩ => by show e.val = if (1600000 : Nat) = 1 then 0 else e.val; rw [if_neg (by decide)])

/-- The host's inverse square root at an index. -/
theorem hrsqrt_apply {s : Shape} {φ : FTy} (x : FVec Ideal s φ) (i : s.Idx) : Host.rsqrt x i = Ideal.rsqrt (x i) := rfl

/-- The normalisation, spelled out: the inverse square root of the scattered counts clamped at the constant. -/
theorem normOf_def (idx : IVec S1600000 32) (ones : FVec Ideal S1600000 .f32) :
    normOf (F := Ideal) idx ones
      = Host.rsqrt (maximumf
          (Host.scatterAdd scK
            (broadcastInDim S100000 ![] bcast_S_S100000 (constant (F := Ideal) S_ .f32 0x00000000#32))
            (broadcastInDim S1600000x1 ![0] bcast_S1600000_S1600000x1_0 idx) ones)
          (broadcastInDim S100000 ![] bcast_S_S100000 (constant (F := Ideal) S_ .f32 0x3F800000#32))) := rfl

theorem normOf_apply (idx : IVec S1600000 32) (n : Fin 100000) :
    normOf (F := Ideal) idx onesE (ix1 n) = Cert.Spec.scale idx n.val := by
  have hz : ∀ i, (broadcastInDim S100000 ![] bcast_S_S100000 (constant (F := Ideal) S_ .f32 0x00000000#32) i : EReal) = 0 :=
    fun _ => Cert.ReferenceIdeal.RefNum.ofBits_zero
  have hones : ∀ j, (onesE (F := Ideal) j : EReal) = 1 := fun _ => Cert.ReferenceIdeal.RefNum.ofBits_one
  have hB : (broadcastInDim S100000 ![] bcast_S_S100000 (constant (F := Ideal) S_ .f32 0x3F800000#32) (ix1 n) : EReal) = 1 :=
    Cert.ReferenceIdeal.RefNum.ofBits_one
  have hcnt : (Finset.univ.filter fun e : Fin 1600000 =>
      (broadcastInDim S1600000x1 ![0] bcast_S1600000_S1600000x1_0 idx (ix2 e (0 : Fin 1))).toInt = (n.val : ℤ)).card
      = Cert.Spec.cnt idx n.val := by
    unfold Cert.Spec.cnt
    exact congrArg Finset.card (Finset.filter_congr (fun e _ => by rw [bcol_apply]))
  unfold Cert.Spec.scale
  rw [normOf_def, hrsqrt_apply, maximumf_apply, hB,
    scK_count (broadcastInDim S100000 ![] bcast_S_S100000 (constant (F := Ideal) S_ .f32 0x00000000#32))
      (broadcastInDim S1600000x1 ![0] bcast_S1600000_S1600000x1_0 idx) (onesE (F := Ideal)) hz hones n, hcnt]

/-! ## A per-node factor along the columns -/

theorem spread_apply (v : FVec Ideal S100000 .f32) (n : Fin 100000) (d : Fin 128) : spread v (ix2 n d) = v (ix1 n) := by
  unfold spread
  refine (broadcastInDim_apply _ bcast_S100000x1_S100000x128_0_1 _ (ix2 n d) (ix2 n (0 : Fin 1)) (fun a => match a with
    | ⟨0, _⟩ => by show n.val = if (100000 : Nat) = 1 then 0 else n.val; rw [if_neg (by decide)]
    | ⟨1, _⟩ => by show 0 = if (1 : Nat) = 1 then 0 else d.val; rw [if_pos rfl])).trans ?_
  exact broadcastInDim_apply _ bcast_S100000_S100000x1_0 v (ix2 n (0 : Fin 1)) (ix1 n) (fun a => match a with
    | ⟨0, _⟩ => by show n.val = if (100000 : Nat) = 1 then 0 else n.val; rw [if_neg (by decide)])

/-! ## The padded node table -/

/-- The two tables stacked, read at node `n` and column `d`. -/
theorem feat_apply (a0 : FVec Ideal S60000x128 .f32) (a1 : FVec Ideal S40000x128 .f32) (n : Fin 100000) (d : Fin 128) :
    concatenate S100000x128 0 [⟨S60000x128, a0⟩, ⟨S40000x128, a1⟩] concatenates_S60000x128_S40000x128_S100000x128_d0 (ix2 n d)
      = Cert.Spec.feat a0 a1 n d := by
  unfold Cert.Spec.feat
  split
  · rename_i h
    exact concatenate_pair_apply_left (t := S100000x128) (s₁ := S60000x128) (s₂ := S40000x128) (0 : Fin 2) a0 a1 _
      (ix2 n d) rfl (ix2 ⟨n.val, h⟩ d)
      (fun b => match b with | ⟨0, _⟩ => rfl | ⟨1, _⟩ => rfl)
  · rename_i h
    exact concatenate_pair_apply_right (t := S100000x128) (s₁ := S60000x128) (s₂ := S40000x128) (0 : Fin 2) a0 a1 _
      (ix2 n d) rfl rfl
      (ix2 ⟨n.val - 60000, by have := n.isLt; omega⟩ d)
      (fun b => match b with | ⟨0, _⟩ => fun hb => absurd rfl hb | ⟨1, _⟩ => fun _ => rfl)
      (by show n.val - 60000 + 60000 = n.val; omega)

theorem hpadOf_apply_lt (a0 : FVec Ideal S60000x128 .f32) (a1 : FVec Ideal S40000x128 .f32) (src : IVec S1600000 32)
    (n : Fin 100000) (d : Fin 128) :
    hpadOf (F := Ideal) a0 a1 src (ix2 (⟨n.val, by have := n.isLt; omega⟩ : Fin 100352) d)
      = Cert.Spec.feat a0 a1 n d * Cert.Spec.scale src n.val := by
  unfold hpadOf
  refine (concatenate_pair_apply_left (t := S100352x128) (s₁ := S100000x128) (s₂ := S352x128) (0 : Fin 2) _ _ _
    (ix2 (⟨n.val, by have := n.isLt; omega⟩ : Fin 100352) d) rfl (ix2 n d)
    (fun b => match b with | ⟨0, _⟩ => rfl | ⟨1, _⟩ => rfl)).trans ?_
  show concatenate S100000x128 0 [⟨S60000x128, a0⟩, ⟨S40000x128, a1⟩] _ (ix2 n d)
    * spread (normOf (F := Ideal) src onesE) (ix2 n d) = _
  rw [spread_apply, normOf_apply, feat_apply]

theorem hpadOf_apply_ge (a0 : FVec Ideal S60000x128 .f32) (a1 : FVec Ideal S40000x128 .f32) (src : IVec S1600000 32)
    (n : Fin 100352) (h : 100000 ≤ n.val) (d : Fin 128) :
    hpadOf (F := Ideal) a0 a1 src (ix2 n d) = 0 := by
  unfold hpadOf
  refine (concatenate_pair_apply_right (t := S100352x128) (s₁ := S100000x128) (s₂ := S352x128) (0 : Fin 2) _ _ _
    (ix2 n d) rfl rfl (ix2 ⟨n.val - 100000, by have := n.isLt; omega⟩ d)
    (fun b => match b with | ⟨0, _⟩ => fun hb => absurd rfl hb | ⟨1, _⟩ => fun _ => rfl)
    (by show n.val - 100000 + 100000 = n.val; omega)).trans ?_
  exact ofBits_bf16_zero

/-! ## The tail -/

theorem tailOf_apply (agg : FVec Ideal S100352x128 .f32) (dst : IVec S1600000 32) (n : Fin 100000) (d : Fin 128) :
    tailOf agg dst onesE (ix2 n d)
      = agg (ix2 (⟨n.val, by have := n.isLt; omega⟩ : Fin 100352) d) * Cert.Spec.scale dst n.val := by
  unfold tailOf
  show extractStridedSlice S100000x128 ![0, 0] agg _ (ix2 n d) * spread (normOf (F := Ideal) dst onesE) (ix2 n d) = _
  rw [spread_apply, normOf_apply]
  refine congrArg (fun x : EReal => x * Cert.Spec.scale dst n.val) ?_
  exact extractStridedSlice_apply ![0, 0] agg _ (ix2 n d) (ix2 (⟨n.val, by have := n.isLt; omega⟩ : Fin 100352) d)
    (fun a => match a with
      | ⟨0, _⟩ => by show n.val = 0 + n.val; omega
      | ⟨1, _⟩ => by show d.val = 0 + d.val; omega)

end Cert.KernelIdeal.Hand

end
-- ==== Proof.KiBridge.lean ====
/- The kernel program's result as one function of its four inputs, and that function is the layer wherever every
   source index names a node: the result's rows are the aggregate's first 100000 rows scaled by the in-degree
   normalisation; the aggregate at a node is the sum of the messages of the edges into it; an edge's message is
   the padded table's row its source word names, which is the source node's features scaled by its out-degree
   normalisation. -/
import proofs.«420466_j23716809408972_1_alg».proof.Proof.KiHost
import proofs.«420466_j23716809408972_1_alg».proof.Proof.KMath
import proofs.«420466_j23716809408972_1_alg».proof.Proof.KiDeg

noncomputable section

open Cert.KernelIdeal Cert.KernelIdeal.Gen

namespace Cert.KernelIdeal.Hand

open Idealize.ShloMosaic Idealize.ShloMosaic.ValueIdx
open scoped BigOperators

/-- The kernel program's result: the aggregate, over the destination indices laid out as a row, of the messages,
    over the source indices laid out as a column, of the padded, scaled node table; its first 100000 rows scaled
    by the in-degree normalisation. -/
def Kres (a0 : FVec Ideal S60000x128 .f32) (a1 : FVec Ideal S40000x128 .f32) (src dst : IVec S1600000 32) :
    FVec Ideal S100000x128 .f32 :=
  tailOf (Cert.KSpec.agg (rowOf dst) (Cert.KSpec.msgs (colOf src) (hpadOf a0 a1 src))) dst onesE

/-- Wherever every source index names a node, the kernel program's result is the layer. -/
theorem Kres_eq_G (a0 : FVec Ideal S60000x128 .f32) (a1 : FVec Ideal S40000x128 .f32) (src dst : IVec S1600000 32)
    (h : Cert.Spec.InRange src) : Kres a0 a1 src dst = Cert.Spec.G a0 a1 src dst := by
  funext j
  obtain ⟨n, d, rfl⟩ : ∃ (n : Fin 100000) (d : Fin 128), j = ix2 n d := ⟨j 0, j 1, eq_ix2 j⟩
  have hn : n.val < 100352 := by have := n.isLt; omega
  rw [Cert.KMath.G_apply]
  unfold Kres
  rw [tailOf_apply]
  rw [Cert.KMath.agg_msgs_eq (colOf src) (rowOf dst) (hpadOf a0 a1 src) a0 a1 src dst (colOf_apply src) (rowOf_apply dst)
    (fun w hw hw' d => hpadOf_apply_lt a0 a1 src ⟨w, hw⟩ d) h n d hn]

end Cert.KernelIdeal.Hand

end
-- ==== Proof.KiValue.lean ====
/-
  The idealized kernel program's result buffer at the end of the run, as a function of the four inputs: the fold
  of the run read back stretch by stretch — the last host stretch scales the scatter region's array, which is the
  blocked indicator sum of the messages over the destination words; the messages are the gather region's array,
  the blocked indicator sum of the padded, scaled feature table over the source words; the table and the index
  columns are what the first stretches make of the inputs — and that function is the layer wherever every source
  index names a node.
-/
import proofs.«420466_j23716809408972_1_alg».proof.Proof.KiRun
import proofs.«420466_j23716809408972_1_alg».proof.Proof.KiV0
import proofs.«420466_j23716809408972_1_alg».proof.Proof.KiV1
import proofs.«420466_j23716809408972_1_alg».proof.Proof.KiBridge

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- An input array reaches every boundary of the run as launched. -/
theorem W1_kept (c : Dev nD) (b : Ref sig .tc) (h0 : b ∉ hostOps0_W) :
    W1 m ρ c (Proc.devRef .tc b) = m ((c : Thread nD τ).loc b) :=
  (StableHlo.after_of_writes_sub hostOps0 _ hostOps0_writes h0).trans rfl
theorem W2_kept (c : Dev nD) (b : Ref sig .tc) (ha0 : ∀ w, Pipeline.arrRef spec0 w ≠ b) :
    W2 m ρ c (Proc.devRef .tc b) = W1 m ρ c (Proc.devRef .tc b) := W2_of_ne m ρ c b ha0
theorem W3_kept (c : Dev nD) (b : Ref sig .tc) (h1 : b ∉ hostOps1_W) :
    W3 m ρ c (Proc.devRef .tc b) = W2 m ρ c (Proc.devRef .tc b) :=
  StableHlo.after_of_writes_sub hostOps1 _ hostOps1_writes h1
theorem W4_kept (c : Dev nD) (b : Ref sig .tc) (ha1 : ∀ w, Pipeline.arrRef spec1 w ≠ b) :
    W4 m ρ c (Proc.devRef .tc b) = W3 m ρ c (Proc.devRef .tc b) := W4_of_ne m ρ c b ha1

/-- The messages array after the gather region. -/
theorem W2_msgs (c : Dev nD) :
    (W2 m ρ c (Proc.devRef .tc main_v15) : FVec Ideal S1600000x128 .bf16)
      = Cert.KSpec.msgs (colOf (m ((c : Thread nD τ).loc main_arg2)))
          (hpadOf (F := Ideal) (m ((c : Thread nD τ).loc main_arg0)) (m ((c : Thread nD τ).loc main_arg1)) (m ((c : Thread nD τ).loc main_arg2))) := by
  have e := (W2_arr m ρ c 2).trans (arr0_final (V1 m ρ) c)
  refine e.trans ?_
  have e13 : (V1 m ρ c main_v13 : FVec Ideal S100352x128 .bf16)
      = hpadOf (F := Ideal) (m ((c : Thread nD τ).loc main_arg0)) (m ((c : Thread nD τ).loc main_arg1)) (m ((c : Thread nD τ).loc main_arg2)) :=
    host0_v13 (W0 m ρ c)
  have e14 : (V1 m ρ c main_v14 : IVec S1600000x1 32) = colOf (m ((c : Thread nD τ).loc main_arg2)) :=
    host0_v14 (W0 m ρ c)
  rw [e13, e14]

/-- The padded aggregate after the scatter region. -/
theorem W4_agg (c : Dev nD) :
    (W4 m ρ c (Proc.devRef .tc main_v17) : FVec Ideal S100352x128 .f32)
      = Cert.KSpec.agg (rowOf (m ((c : Thread nD τ).loc main_arg3)))
          (Cert.KSpec.msgs (colOf (m ((c : Thread nD τ).loc main_arg2)))
            (hpadOf (F := Ideal) (m ((c : Thread nD τ).loc main_arg0)) (m ((c : Thread nD τ).loc main_arg1)) (m ((c : Thread nD τ).loc main_arg2)))) := by
  have e := (W4_arr m ρ c 2).trans (Scatter.arr1_final (V3 m ρ) c)
  refine e.trans ?_
  have e16 : (V3 m ρ c main_v16 : IVec S1x1600000 32) = rowOf (m ((c : Thread nD τ).loc main_arg3)) := by
    refine (host1_v16 (W2 m ρ c)).trans ?_
    rw [W2_kept m ρ c main_arg3 (by decide), W1_kept m ρ c main_arg3 (by decide)]
  have e15 : (V3 m ρ c main_v15 : FVec Ideal S1600000x128 .bf16) = W2 m ρ c (Proc.devRef .tc main_v15) :=
    W3_kept m ρ c main_v15 (by decide)
  rw [e16, e15, W2_msgs m ρ c]

/-- The result buffer at the end of the run is the layer of the inputs, wherever every source index names a node. -/
theorem kernel_value (c : Dev nD) (h : Cert.Spec.InRange (m ((c : Thread nD τ).loc main_arg2))) :
    (W5 m ρ c (Proc.devRef .tc main_v27) : FVec Ideal S100000x128 .f32)
      = Cert.Spec.G (m ((c : Thread nD τ).loc main_arg0)) (m ((c : Thread nD τ).loc main_arg1))
          (m ((c : Thread nD τ).loc main_arg2)) (m ((c : Thread nD τ).loc main_arg3)) := by
  refine (host2_v27 (W4 m ρ c)).trans ?_
  have e3 : W4 m ρ c (Proc.devRef .tc main_arg3) = m ((c : Thread nD τ).loc main_arg3) := by
    rw [W4_kept m ρ c main_arg3 (by decide), W3_kept m ρ c main_arg3 (by decide), W2_kept m ρ c main_arg3 (by decide),
      W1_kept m ρ c main_arg3 (by decide)]
  have e1 : (W4 m ρ c (Proc.devRef .tc main_v1) : FVec Ideal S1600000 .f32) = onesE (F := Ideal) := by
    rw [W4_kept m ρ c main_v1 (by decide), W3_kept m ρ c main_v1 (by decide), W2_kept m ρ c main_v1 (by decide)]
    exact host0_v1 (W0 m ρ c)
  rw [e3, e1, W4_agg m ρ c]
  exact Kres_eq_G _ _ _ _ h

end Cert.KernelIdeal.Hand

end
-- ==== Proof.RefIdx.lean ====
/-
  The reference's three index-dependent operations, read at an index. The one-dimensional scatter-add sends
  update position e to the node its index word names, read signed, when that is a node; the row scatter-add sends
  update position (e, d) to (that node, d); the row gather reads, at (e, d), the operand at (the start word read
  signed and clamped to the node range, d).
-/
import proofs.«420466_j23716809408972_1_alg».proof.Proof.Gen.ReferenceIdeal
import Idealize.ShloMosaic.Lib.ValueIdx
import Idealize.ShloMosaic.PureOps.Ideal

noncomputable section

namespace Cert.ReferenceIdeal.RefIdx

open Idealize.ShloMosaic Idealize.ShloMosaic.ValueIdx Cert.ReferenceIdeal Cert.ReferenceIdeal.Gen
open scoped BigOperators

/-! ## The one-dimensional scatter -/

abbrev sc1 : ScatterDims S100000 S1600000x1 S1600000 := scatter_S100000_S1600000x1_S1600000_n_0_0_1

theorem sc1_start (idx : IVec S1600000x1 32) (j : S1600000.Idx) (a : Fin 1) :
    sc1.start j idx a = (idx (ix2 (j 0) (0 : Fin 1))).toInt := by
  have ha : a = 0 := Subsingleton.elim _ _
  subst ha
  unfold ScatterDims.start
  rw [dif_pos (by decide)]
  congr 2
  funext b
  match b with
  | ⟨0, _⟩ =>
    unfold ScatterDims.siIdx
    rw [dif_neg (by show ¬ (0 : Nat) = 1; omega)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by show (1 : Nat) = 1; rfl)]
    apply Fin.ext
    show List.idxOf (0 : Fin 1) _ = 0
    decide

theorem sc1_window (j : S1600000.Idx) (a : Fin 1) : sc1.window j a = 0 := by
  have ha : a = 0 := Subsingleton.elim _ _
  subst ha
  unfold ScatterDims.window
  rw [dif_neg (by decide)]

/-- Update position `j` lands on node `i` exactly when its index word, read signed, is `i`. -/
theorem sc1_resultIdx (idx : IVec S1600000x1 32) (j : S1600000.Idx) (i : S100000.Idx) :
    sc1.resultIdx? j idx = some i ↔ (idx (ix2 (j 0) (0 : Fin 1))).toInt = ((i 0).val : ℤ) := by
  have hi := (i 0).isLt
  have hsz : S100000.size 0 = 100000 := rfl
  unfold ScatterDims.resultIdx?
  split
  · rename_i h
    have h0 := h 0
    rw [sc1_start, sc1_window, hsz] at h0
    rw [Option.some.injEq]
    constructor
    · intro e
      have e0 := congrArg Fin.val (congrFun e 0)
      simp only [sc1_start, sc1_window] at e0
      omega
    · intro e
      funext a
      have ha : a = 0 := Subsingleton.elim _ _
      subst ha
      apply Fin.ext
      simp only [sc1_start, sc1_window]
      omega
  · rename_i h
    constructor
    · intro e; exact absurd e (by simp)
    · intro e
      exfalso
      apply h
      intro a
      have ha : a = 0 := Subsingleton.elim _ _
      subst ha
      rw [sc1_start, sc1_window, hsz, e]
      omega

/-! ## The row scatter -/

abbrev sc2 : ScatterDims S100000x128 S1600000x1 S1600000x128 := scatter_S100000x128_S1600000x1_S1600000x128_1_0_0_1

theorem sc2_uScatter : ∀ x ∈ sc2.uScatter, x = 0 := by decide
theorem sc2_window_dims : ∀ x ∈ sc2.updateWindowDims, x = 1 := by decide

theorem sc2_siIdx (j : S1600000x128.Idx) (c : Fin sc2.scatterDimsToOperandDims.length) :
    sc2.siIdx j c = ix2 (j 0) (0 : Fin 1) := by
  funext b
  match b with
  | ⟨0, _⟩ =>
    unfold ScatterDims.siIdx
    rw [dif_neg (by show ¬ (0 : Nat) = 1; omega)]
    unfold ScatterDims.siCoord
    apply Fin.ext
    simp only [Fin.val_cast]
    exact congrArg (fun x => (j x).val) (sc2_uScatter _ (List.getElem_mem _))
  | ⟨1, _⟩ =>
    unfold ScatterDims.siIdx
    rw [dif_pos (by show (1 : Nat) = 1; rfl)]
    apply Fin.ext
    have hc : c.val < 1 := c.isLt
    show c.val = 0
    omega

theorem sc2_start0 (idx : IVec S1600000x1 32) (j : S1600000x128.Idx) :
    sc2.start j idx 0 = (idx (ix2 (j 0) (0 : Fin 1))).toInt := by
  unfold ScatterDims.start
  rw [dif_pos (by decide), sc2_siIdx]
  rfl

theorem sc2_start1 (idx : IVec S1600000x1 32) (j : S1600000x128.Idx) : sc2.start j idx 1 = 0 := by
  unfold ScatterDims.start
  rw [dif_neg (by decide)]

theorem sc2_window0 (j : S1600000x128.Idx) : sc2.window j 0 = 0 := by
  unfold ScatterDims.window
  rw [dif_neg (by decide)]

theorem sc2_window1 (j : S1600000x128.Idx) : sc2.window j 1 = (j 1).val := by
  unfold ScatterDims.window
  rw [dif_pos (by decide)]
  exact congrArg (fun x => (j x).val) (sc2_window_dims _ (List.getElem_mem _))

/-- Update position `j` lands on `i` exactly when its index word, read signed, is `i`'s node and the columns agree. -/
theorem sc2_resultIdx (idx : IVec S1600000x1 32) (j : S1600000x128.Idx) (i : S100000x128.Idx) :
    sc2.resultIdx? j idx = some i ↔ (idx (ix2 (j 0) (0 : Fin 1))).toInt = ((i 0).val : ℤ) ∧ j 1 = i 1 := by
  have hi0 : (i 0).val < 100000 := (i 0).isLt
  have hj1 : (j 1).val < 128 := (j 1).isLt
  have hsz0 : S100000x128.size 0 = 100000 := rfl
  have hsz1 : S100000x128.size 1 = 128 := rfl
  unfold ScatterDims.resultIdx?
  split
  · rename_i h
    have h0 := h 0
    rw [sc2_start0, sc2_window0, hsz0] at h0
    rw [Option.some.injEq]
    constructor
    · intro e
      have e0 := congrArg Fin.val (congrFun e 0)
      have e1 := congrArg Fin.val (congrFun e 1)
      simp only [sc2_start0, sc2_window0, sc2_start1, sc2_window1] at e0 e1
      exact ⟨by omega, Fin.ext (by omega)⟩
    · rintro ⟨e0, e1⟩
      refine funext (Fin.forall_fin_two.2 ⟨?_, ?_⟩)
      · apply Fin.ext
        simp only [sc2_start0, sc2_window0]
        omega
      · apply Fin.ext
        simp only [sc2_start1, sc2_window1, e1]
        omega
  · rename_i h
    constructor
    · intro e; exact absurd e (by simp)
    · rintro ⟨e0, e1⟩
      exfalso
      apply h
      refine Fin.forall_fin_two.2 ⟨?_, ?_⟩
      · rw [sc2_start0, sc2_window0, hsz0, e0]; omega
      · rw [sc2_start1, sc2_window1, hsz1]; omega

/-! ## The row gather -/

abbrev gd : GatherDims S100000x128 S1600000x1 S1600000x128 := gather_S100000x128_S1600000x1_S1600000x128_1_0_n_n_0_1_1128

theorem gd_batchDims : ∀ x ∈ gd.batchDims, x = 0 := by decide
theorem gd_offsetDims : ∀ x ∈ gd.offsetDims, x = 1 := by decide

theorem gd_siIdx (j : S1600000x128.Idx) (c : Fin gd.startIndexMap.length) :
    gd.siIdx j c = ix2 (j 0) (0 : Fin 1) := by
  funext b
  match b with
  | ⟨0, _⟩ =>
    unfold GatherDims.siIdx
    rw [dif_neg (by show ¬ (0 : Nat) = 1; omega)]
    unfold GatherDims.siCoord
    apply Fin.ext
    simp only [Fin.val_cast]
    exact congrArg (fun x => (j x).val) (gd_batchDims _ (List.getElem_mem _))
  | ⟨1, _⟩ =>
    unfold GatherDims.siIdx
    rw [dif_pos (by show (1 : Nat) = 1; rfl)]
    apply Fin.ext
    have hc : c.val < 1 := c.isLt
    show c.val = 0
    omega

/-- The gather reads, at `j`, the operand at the start word of `j`'s row, read signed and clamped to the node range,
    and `j`'s column. -/
theorem gd_operandIdx (idx : IVec S1600000x1 32) (j : S1600000x128.Idx) :
    gd.operandIdx j idx
      = ix2 (⟨min (idx (ix2 (j 0) (0 : Fin 1))).toInt.toNat 99999, by omega⟩ : Fin 100000) (j 1) := by
  refine funext (Fin.forall_fin_two.2 ⟨?_, ?_⟩)
  · apply Fin.ext
    have hb : (0 : Fin 2) ∉ gd.operandBatchingDims := by decide
    have hk : (0 : Fin 2) ∉ gd.sKept := by decide
    have hm : (0 : Fin 2) ∈ gd.startIndexMap := by decide
    simp only [GatherDims.operandIdx, GatherDims.batchCoord_eq_zero _ _ _ hb, GatherDims.offCoord_eq_zero _ _ _ hk,
      Nat.add_zero, GatherDims.start, dif_pos hm, gd_siIdx]
    rfl
  · apply Fin.ext
    have hb : (1 : Fin 2) ∉ gd.operandBatchingDims := by decide
    have hk : (1 : Fin 2) ∈ gd.sKept := by decide
    have hm : (1 : Fin 2) ∉ gd.startIndexMap := by decide
    simp only [GatherDims.operandIdx, GatherDims.batchCoord_eq_zero _ _ _ hb, Nat.add_zero, GatherDims.start, dif_neg hm,
      Nat.zero_add, GatherDims.offCoord, dif_pos hk]
    exact congrArg (fun x => (j x).val) (gd_offsetDims _ (List.getElem_mem _))

theorem gather_apply {α : Type} (x : S100000x128.Idx → α) (idx : IVec S1600000x1 32) (e : Fin 1600000) (d : Fin 128) :
    Host.gather gd x idx (ix2 e d)
      = x (ix2 (⟨min (idx (ix2 e (0 : Fin 1))).toInt.toNat 99999, by omega⟩ : Fin 100000) d) := by
  unfold Host.gather
  rw [gd_operandIdx]
  rfl

/-! ## The two scatter-adds of a zero operand, as sums over the edges -/

/-- A rank-1 index set is its coordinate range. -/
def idxEquiv1 {n : Nat} : (⟨1, ![n]⟩ : Shape).Idx ≃ Fin n where
  toFun i := i 0
  invFun := ix1
  left_inv i := (eq_ix1 i).symm
  right_inv _ := rfl

/-- Scattering ones onto zeros counts, at node `n`, the update positions whose index word, read signed, is `n`. -/
theorem scatter1_count (z : FVec Ideal S100000 .f32) (ix : IVec S1600000x1 32) (ones : FVec Ideal S1600000 .f32)
    (hz : ∀ i, z i = 0) (hones : ∀ j, ones j = 1) (n : Fin 100000) :
    Host.scatterAdd sc1 z ix ones (ix1 n)
      = (((Finset.univ.filter fun e : Fin 1600000 => (ix (ix2 e (0 : Fin 1))).toInt = (n.val : ℤ)).card : ℝ) : EReal) := by
  show Ideal.hostScatterAdd sc1 z ix ones (ix1 n) = _
  unfold Ideal.hostScatterAdd
  rw [hz, zero_add, Finset.sum_congr rfl (fun j _ => hones j), Finset.sum_const, ← EReal.coe_one, ← EReal.coe_nsmul,
    nsmul_one]
  refine congrArg (fun k : ℕ => ((k : ℝ) : EReal)) (Finset.card_equiv idxEquiv1 (fun j => ?_))
  simp only [Finset.mem_filter, Finset.mem_univ, true_and]
  exact sc1_resultIdx ix j (ix1 n)

/-- Scattering rows onto zeros sums, at node `n` and column `d`, column `d` of the rows whose index word, read
    signed, is `n`. -/
theorem scatter2_sum (z : FVec Ideal S100000x128 .f32) (ix : IVec S1600000x1 32) (upd : FVec Ideal S1600000x128 .f32)
    (hz : ∀ i, z i = 0) (n : Fin 100000) (d : Fin 128) :
    Host.scatterAdd sc2 z ix upd (ix2 n d)
      = ∑ e : Fin 1600000, if (ix (ix2 e (0 : Fin 1))).toInt = (n.val : ℤ) then upd (ix2 e d) else 0 := by
  show Ideal.hostScatterAdd sc2 z ix upd (ix2 n d) = _
  unfold Ideal.hostScatterAdd
  rw [hz, zero_add, Finset.sum_filter, sum_idx2]
  refine Finset.sum_congr rfl fun e _ => ?_
  have hb : ∀ b : Fin 128, (if sc2.resultIdx? (ix2 e b) ix = some (ix2 n d) then upd (ix2 e b) else 0)
      = if b = d then (if (ix (ix2 e (0 : Fin 1))).toInt = (n.val : ℤ) then upd (ix2 e b) else 0) else 0 := by
    intro b
    by_cases h1 : b = d
    · by_cases h2 : (ix (ix2 e (0 : Fin 1))).toInt = (n.val : ℤ)
      · rw [if_pos ((sc2_resultIdx ix (ix2 e b) (ix2 n d)).2 ⟨h2, h1⟩), if_pos h1, if_pos h2]
      · rw [if_neg (fun h => h2 ((sc2_resultIdx ix (ix2 e b) (ix2 n d)).1 h).1), if_pos h1, if_neg h2]
    · rw [if_neg (fun h => h1 ((sc2_resultIdx ix (ix2 e b) (ix2 n d)).1 h).2), if_neg h1]
  rw [Finset.sum_congr rfl (fun b _ => hb b), Finset.sum_ite_eq' Finset.univ d, if_pos (Finset.mem_univ _)]

end Cert.ReferenceIdeal.RefIdx

end
-- ==== Proof.RefValue.lean ====
/-
  The reference's result, read index by index, is the layer `Cert.Spec.G` of its inputs wherever every source
  index names a node.
-/
import proofs.«420466_j23716809408972_1_alg».proof.Proof.Gen.ReferenceIdeal.Run
import proofs.«420466_j23716809408972_1_alg».proof.Proof.Gen.ReferenceIdeal.Read
import proofs.«420466_j23716809408972_1_alg».proof.Proof.Spec
import proofs.«420466_j23716809408972_1_alg».proof.Proof.RefIdx
import proofs.«420466_j23716809408972_1_alg».proof.Proof.RefNum
import Idealize.ShloMosaic.Lib.StableHlo.Predicate
import Idealize.ShloMosaic.Lib.Pipeline.Value

noncomputable section

namespace Cert.ReferenceIdeal.RefValue

open Idealize.ShloMosaic Idealize.ShloMosaic.ValueIdx Idealize.ShloMosaic.StableHlo
open Cert.ReferenceIdeal Cert.ReferenceIdeal.Gen Cert.ReferenceIdeal.Read Cert.ReferenceIdeal.RefIdx
open scoped BigOperators

/-! ## The index columns -/

/-- A list of index words laid out as a column reads, in row `e`, word `e`. -/
theorem v3_apply (x : IVec S1600000 32) (e : Fin 1600000) :
    val_main_v3 (F := Ideal) x (ix2 e (0 : Fin 1)) = x (ix1 e) := by
  rw [val_main_v3_apply]
  congr 1
  funext a
  match a with
  | ⟨0, _⟩ => rfl

theorem v20_apply (x : IVec S1600000 32) (e : Fin 1600000) :
    val_main_v20 (F := Ideal) x (ix2 e (0 : Fin 1)) = x (ix1 e) := by
  rw [val_main_v20_apply]
  congr 1
  funext a
  match a with
  | ⟨0, _⟩ => rfl

theorem v23_apply (x : IVec S1600000 32) (e : Fin 1600000) :
    val_main_v23 (F := Ideal) x (ix2 e (0 : Fin 1)) = x (ix1 e) := by
  rw [val_main_v23_apply]
  congr 1
  funext a
  match a with
  | ⟨0, _⟩ => rfl

/-! ## The degree normalisations -/

/-- The count of the column's words that name node `n` is the count over the list. -/
theorem cnt_eq (idx : IVec S1600000 32) (ixb : IVec S1600000x1 32)
    (hix : ∀ e : Fin 1600000, ixb (ix2 e (0 : Fin 1)) = idx (ix1 e)) (n : Fin 100000) :
    (Finset.univ.filter fun e : Fin 1600000 => (ixb (ix2 e (0 : Fin 1))).toInt = (n.val : ℤ)).card
      = Cert.Spec.cnt idx n.val := by
  unfold Cert.Spec.cnt
  exact congrArg Finset.card (Finset.filter_congr (fun e _ => by rw [hix]))

/-- The out-degree normalisation: the clamped count of the source words naming `n`, to the power -1/2. -/
theorem scale_src (src : IVec S1600000 32) (n : Fin 100000) :
    val_main_v8 (F := Ideal) src (ix1 n) = Cert.Spec.scale src n.val := by
  rw [val_main_v8_apply, val_main_v6_apply, val_main_v7_apply, val_main_cst_2_apply, val_main_v5_apply,
    val_main_cst_1_apply]
  have hz : ∀ i, (val_main_v2 (F := Ideal) i : EReal) = 0 := fun i => by
    rw [val_main_v2_apply, val_main_cst_0_apply]; exact RefNum.ofBits_zero
  have hones : ∀ j, (val_main_v1 (F := Ideal) j : EReal) = 1 := fun j => by
    rw [val_main_v1_apply, val_main_cst_apply]; exact RefNum.ofBits_one
  unfold val_main_v4
  rw [scatter1_count (val_main_v2 (F := Ideal)) (val_main_v3 (F := Ideal) src) (val_main_v1 (F := Ideal)) hz hones n,
    cnt_eq src (val_main_v3 (F := Ideal) src) (v3_apply src) n]
  show Ideal.pow (max _ (Ideal.ofBits .f32 0x3F800000#32)) (Ideal.ofBits .f32 0xBF000000#32) = _
  rw [RefNum.ofBits_one, RefNum.ofBits_neg_half, RefNum.pow_neg_half]
  rfl

/-- The in-degree normalisation, likewise from the destination words. -/
theorem scale_dst (dst : IVec S1600000 32) (n : Fin 100000) :
    val_main_v28 (F := Ideal) dst (ix1 n) = Cert.Spec.scale dst n.val := by
  rw [val_main_v28_apply, val_main_v26_apply, val_main_v27_apply, val_main_cst_7_apply, val_main_v25_apply,
    val_main_cst_6_apply]
  have hz : ∀ i, (val_main_v22 (F := Ideal) i : EReal) = 0 := fun i => by
    rw [val_main_v22_apply, val_main_cst_5_apply]; exact RefNum.ofBits_zero
  have hones : ∀ j, (val_main_v1 (F := Ideal) j : EReal) = 1 := fun j => by
    rw [val_main_v1_apply, val_main_cst_apply]; exact RefNum.ofBits_one
  unfold val_main_v24
  rw [scatter1_count (val_main_v22 (F := Ideal)) (val_main_v23 (F := Ideal) dst) (val_main_v1 (F := Ideal)) hz hones n,
    cnt_eq dst (val_main_v23 (F := Ideal) dst) (v23_apply dst) n]
  show Ideal.pow (max _ (Ideal.ofBits .f32 0x3F800000#32)) (Ideal.ofBits .f32 0xBF000000#32) = _
  rw [RefNum.ofBits_one, RefNum.ofBits_neg_half, RefNum.pow_neg_half]
  rfl

/-! ## The scaled node features -/

/-- The two tables stacked, read at node `n` and column `d`. -/
theorem feat_eq (a0 : FVec Ideal S60000x128 .f32) (a1 : FVec Ideal S40000x128 .f32) (n : Fin 100000) (d : Fin 128) :
    val_main_v0 (F := Ideal) a0 a1 (ix2 n d) = Cert.Spec.feat a0 a1 n d := by
  unfold val_main_v0 Cert.Spec.feat
  split
  · rename_i h
    exact concatenate_pair_apply_left (t := S100000x128) (s₁ := S60000x128) (s₂ := S40000x128) (0 : Fin 2) a0 a1 _
      (ix2 n d) rfl (ix2 ⟨n.val, h⟩ d)
      (fun b => match b with | ⟨0, _⟩ => rfl | ⟨1, _⟩ => rfl)
  · rename_i h
    exact concatenate_pair_apply_right (t := S100000x128) (s₁ := S60000x128) (s₂ := S40000x128) (0 : Fin 2) a0 a1 _
      (ix2 n d) rfl rfl
      (ix2 ⟨n.val - 60000, by have := n.isLt; omega⟩ d)
      (fun b => match b with | ⟨0, _⟩ => fun hb => absurd rfl hb | ⟨1, _⟩ => fun _ => rfl)
      (by show n.val - 60000 + 60000 = n.val; omega)

/-- The scaled features at node `n` and column `d`. -/
theorem v11_apply (a0 : FVec Ideal S60000x128 .f32) (a1 : FVec Ideal S40000x128 .f32) (src : IVec S1600000 32)
    (n : Fin 100000) (d : Fin 128) :
    val_main_v11 (F := Ideal) a0 a1 src (ix2 n d) = Cert.Spec.feat a0 a1 n d * Cert.Spec.scale src n.val := by
  have hi : idx_main_v9 (idx_main_v10 (ix2 n d)) = ix1 n := by
    funext a
    match a with
    | ⟨0, _⟩ => rfl
  rw [val_main_v11_apply, feat_eq, val_main_v10_apply, val_main_v9_apply, hi, scale_src]
  rfl

/-! ## The gathered rows -/

/-- A source word that names a node is not negative, so the wrap of negative indices leaves it. -/
theorem v16_apply (src : IVec S1600000 32) (h : Cert.Spec.InRange src) (e : Fin 1600000) :
    val_main_v16 (F := Ideal) src (ix1 e) = src (ix1 e) := by
  have hlt := h e
  have hne : ¬ IntOp.cmpi .slt (src (ix1 e)) 0#32 = 1#1 := by
    rw [Predicate.slt_iff_toNat (a := src (ix1 e)) (b := 0#32) (by omega) (by decide)]
    exact Nat.not_lt_zero _
  rw [val_main_v16_apply, val_main_v13_apply, val_main_v12_apply, val_main_c_apply, eq_zero_of_ne_one hne, select_zero]

theorem v17_apply (src : IVec S1600000 32) (h : Cert.Spec.InRange src) (e : Fin 1600000) :
    val_main_v17 (F := Ideal) src (ix2 e (0 : Fin 1)) = src (ix1 e) := by
  have hi : idx_main_v17 (ix2 e (0 : Fin 1)) = ix1 e := by
    funext a
    match a with
    | ⟨0, _⟩ => rfl
  rw [val_main_v17_apply, hi, v16_apply src h]

/-- Row `e` of the gathered rows is the scaled feature row of edge `e`'s source node. -/
theorem v18_apply (a0 : FVec Ideal S60000x128 .f32) (a1 : FVec Ideal S40000x128 .f32) (src : IVec S1600000 32)
    (h : Cert.Spec.InRange src) (e : Fin 1600000) (d : Fin 128) :
    val_main_v18 (F := Ideal) a0 a1 src (ix2 e d) = Cert.Spec.msg a0 a1 src e d := by
  have hlt := h e
  have hn : (⟨min (val_main_v17 (F := Ideal) src (ix2 e (0 : Fin 1))).toInt.toNat 99999, by omega⟩ : Fin 100000)
      = Cert.Spec.srcNode src e := by
    apply Fin.ext
    show min (val_main_v17 (F := Ideal) src (ix2 e (0 : Fin 1))).toInt.toNat 99999 = (src (ix1 e)).toNat % 100000
    rw [v17_apply src h, Predicate.toInt_eq_toNat_of_lt (a := src (ix1 e)) (by omega), Int.toNat_natCast, Nat.min_eq_left (by omega),
      Nat.mod_eq_of_lt hlt]
  unfold val_main_v18
  show Host.gather gd _ _ (ix2 e d) = _
  rw [gather_apply, hn, v11_apply]
  rfl

/-! ## The reference is the layer -/

theorem ref_eq_G (a0 : FVec Ideal S60000x128 .f32) (a1 : FVec Ideal S40000x128 .f32) (src dst : IVec S1600000 32)
    (h : Cert.Spec.InRange src) :
    val_main_v31 (F := Ideal) a0 a1 src dst = Cert.Spec.G a0 a1 src dst := by
  funext j
  obtain ⟨n, d, rfl⟩ : ∃ n d, j = ix2 n d := ⟨j 0, j 1, eq_ix2 j⟩
  have hi : idx_main_v29 (idx_main_v30 (ix2 n d)) = ix1 n := by
    funext a
    match a with
    | ⟨0, _⟩ => rfl
  rw [val_main_v31_apply, val_main_v30_apply, val_main_v29_apply, hi, scale_dst]
  have hz : ∀ i, (val_main_v19 (F := Ideal) i : EReal) = 0 := fun i => by
    rw [val_main_v19_apply, val_main_cst_4_apply]; exact RefNum.ofBits_zero
  unfold val_main_v21
  rw [scatter2_sum (val_main_v19 (F := Ideal)) (val_main_v20 (F := Ideal) dst) (val_main_v18 (F := Ideal) a0 a1 src) hz n d]
  show (∑ e : Fin 1600000, _) * _ = (∑ e : Fin 1600000, _) * _
  refine congrArg₂ (fun a b : EReal => a * b) (Finset.sum_congr rfl fun e _ => ?_) rfl
  rw [v20_apply, v18_apply a0 a1 src h]

end Cert.ReferenceIdeal.RefValue

end
-- ==== Proof.RefPre.lean ====
/-
  The precondition read back: when the printed predicate holds of the four inputs, every source index, read as a
  signed word, lies in [0, 100000), hence is below 100000 as an unsigned number.
-/
import proofs.«420466_j23716809408972_1_alg».proof.Pre_finite_inputs
import proofs.«420466_j23716809408972_1_alg».proof.Proof.Gen.Pre_finite_inputs
import proofs.«420466_j23716809408972_1_alg».proof.Proof.Spec
import Idealize.ShloMosaic.Lib.ReduceAll

noncomputable section

namespace Cert.ReferenceIdeal.RefPre

open Idealize.ShloMosaic Idealize.ShloMosaic.ValueIdx
open Cert.Pre_finite_inputs Cert.Pre_finite_inputs.Gen

/-- The scalar shape has one index. -/
instance : Subsingleton S_.Idx := ⟨fun a b => funext fun d => d.elim0⟩

theorem ofBool_eq_one (b : Bool) : BitVec.ofBool b = 1#1 ↔ b = true := by cases b <;> decide

/-- A word in [0, n) signed is below n unsigned. -/
theorem toNat_lt (w : BitVec 32) (n : Nat) (hn : n < 2 ^ 31) (h0 : IntOp.cmpi .sge w (0#32) = 1#1)
    (h8 : IntOp.cmpi .slt w (BitVec.ofNat 32 n) = 1#1) : w.toNat < n := by
  unfold IntOp.cmpi at h0 h8
  rw [ofBool_eq_one] at h0 h8
  simp only [BitVec.slt, BitVec.sle, decide_eq_true_eq] at h0 h8
  have h32 := w.isLt
  unfold BitVec.toInt at h0 h8
  split at h8 <;> simp at h0 h8 <;> omega

/-- The precondition says every source index names a node. -/
theorem inRange_of_pre (a0 : FVec Ideal S60000x128 .f32) (a1 : FVec Ideal S40000x128 .f32) (src dst : IVec S1600000 32)
    (h : Cert.Pre_finite_inputs.fn (F := Ideal) a0 a1 src dst = fun _ => 1#1) : Cert.Spec.InRange src := by
  intro e
  have h0 := congrFun h ValueIdx.ix0
  dsimp only [Cert.Pre_finite_inputs.fn] at h0
  obtain ⟨-, h14⟩ := IntOp.andi_eq_one.1 h0
  have h13 := Host.reduce_andi_all _ _ _ _ _ h14 (ix1 e)
  obtain ⟨h10, h12⟩ := IntOp.andi_eq_one.1 h13
  exact toNat_lt _ 100000 (by decide) h10 h12

end Cert.ReferenceIdeal.RefPre

end
-- ==== Proof.lean ====
/-
  A graph layer: node features (two tables stacked) are scaled by the inverse square root of each node's clamped
  out-degree, every edge carries its source node's scaled features to its destination node, where they are summed,
  and the sums are scaled by the inverse square root of the clamped in-degree.

  The kernel program gathers and scatters by one-hot matrix products, blocked over two grids with an accumulator
  carried along the inner axis of each; the reference gathers rows and sums segments directly. Over the extended
  reals a product with an indicator row is the selected entry (or nothing), a blocked sum is the sum, a change of
  float format is the identity, and on a clamped degree (a real at least one) the power -1/2 is the inverse square
  root: so both programs compute the one function `Cert.Spec.G` of the inputs, wherever every source index names
  a node (the added precondition; outside it the reference wraps and clamps the index where the kernel selects
  nothing).

  The frames: each kernel region is run point by point — the accumulator reset at the first point of a run of the
  inner axis, added to at every point, the output block stored at the last — under an invariant that names the
  accumulator's contents after each point; the program is the host stretches and the two regions in order, every
  buffer's contents at each boundary one fold from the launch memory. The reference is a host program; its frame is
  its run with the result dropped. The idealization rewrote nothing, so `preserves` is trivial.
-/
import proofs.«420466_j23716809408972_1_alg».proof.Defs
import proofs.«420466_j23716809408972_1_alg».proof.Proof.Gen.Kernel
import proofs.«420466_j23716809408972_1_alg».proof.Proof.Gen.KernelIdeal
import proofs.«420466_j23716809408972_1_alg».proof.Proof.Gen.ReferenceIdeal
import proofs.«420466_j23716809408972_1_alg».proof.Proof.Gen.Pre_finite_inputs
import proofs.«420466_j23716809408972_1_alg».proof.Proof.KRun
import proofs.«420466_j23716809408972_1_alg».proof.Proof.KiValue
import proofs.«420466_j23716809408972_1_alg».proof.Proof.RefValue
import proofs.«420466_j23716809408972_1_alg».proof.Proof.RefPre
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the layer `Cert.Spec.G` of the (agreeing) inputs in their result buffers. -/
theorem algebraic : Cert.algebraic_KernelIdeal_ReferenceIdeal := by
  intro m ρ m' ρ' hpre hagree
  have hin : ∀ c : Dev Cert.KernelIdeal.nD,
      Cert.Spec.InRange (m ((c.tc : Thread Cert.KernelIdeal.nD Cert.KernelIdeal.τ).loc Cert.KernelIdeal.main_arg2)) :=
    fun c => Cert.ReferenceIdeal.RefPre.inRange_of_pre _ _ _ _ (hpre c)
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m ρ c (hin c)), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v31_eq _ _ _ _).trans
      (Cert.ReferenceIdeal.RefValue.ref_eq_G _ _ _ _ (hin c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
